-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg10 : FVec F S128x128 .f32) (main_arg11 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg7 : FVec F S3x128 .f32) (main_arg8 : FVec F S384x128 .f32) (main_arg9 : FVec F S128 .f32) (main_arg10 : FVec F S128x128 .f32) (main_arg11 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S384x128 .f32 := Host.absf main_arg8
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S1600000 32) (main_arg2 : IVec S1600000 32) (main_arg3 : IVec S100000 32) (main_arg4 : FVec F S3x128x128 .f32) (main_arg5 : FVec F S3x128 .f32) (main_arg6 : FVec F S3x128x128 .f32) (main_arg7 : FVec F S3x128 .f32) (main_arg8 : FVec F S384x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S1600000 : Shape := ⟨1, ![1600000]⟩
abbrev S100000 : Shape := ⟨1, ![100000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S4000x128 : Shape := ⟨2, ![4000, 128]⟩
abbrev S1024x128 : Shape := ⟨2, ![1024, 128]⟩
abbrev S2000x128 : Shape := ⟨2, ![2000, 128]⟩
abbrev S2000x1 : Shape := ⟨2, ![2000, 1]⟩
abbrev S1x1024 : Shape := ⟨2, ![1, 1024]⟩
abbrev S2000x1024 : Shape := ⟨2, ![2000, 1024]⟩
abbrev S1000x128 : Shape := ⟨2, ![1000, 128]⟩
abbrev S1000x384 : Shape := ⟨2, ![1000, 384]⟩

abbrev nBuf : Space → Nat
  | .hbm => 95
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S384x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S100000x1, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128x128, .f32⟩
  | .hbm, ⟨27, _⟩ => ⟨S128x128, .f32⟩
  | .hbm, ⟨28, _⟩ => ⟨S1x128, .f32⟩
  | .hbm, ⟨29, _⟩ => ⟨S128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S1x128, .f32⟩
  | .hbm, ⟨36, _⟩ => ⟨S100000x128, .f32⟩
  | .hbm, ⟨37, _⟩ => ⟨S1024x128, .f32⟩
  | .hbm, ⟨38, _⟩ => ⟨S1000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S1x128, .f32⟩
  | .hbm, ⟨62, _⟩ => ⟨S100000x128, .f32⟩
  | .hbm, ⟨63, _⟩ => ⟨S1024x128, .f32⟩
  | .hbm, ⟨64, _⟩ => ⟨S1000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S1x128, .f32⟩
  | .hbm, ⟨88, _⟩ => ⟨S100000x128, .f32⟩
  | .hbm, ⟨89, _⟩ => ⟨S1024x128, .f32⟩
  | .hbm, ⟨90, _⟩ => ⟨S1000x128, .f32⟩
  | .hbm, ⟨91, _⟩ => ⟨S1000x384, .f32⟩
  | .hbm, ⟨92, _⟩ => ⟨S1x128, .f32⟩
  | .hbm, ⟨93, _⟩ => ⟨S1x128, .f32⟩
  | .hbm, ⟨94, _⟩ => ⟨S1000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .i32⟩
  | .local _ .vmem, ⟨13, _⟩ => ⟨S2000x1, .i32⟩
  | .local _ .vmem, ⟨14, _⟩ => ⟨S1024x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S4000x128, .f32⟩
  | .local _ .vmem, ⟨24, _⟩ => ⟨S4000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .i32⟩
  | .local _ .vmem, ⟨28, _⟩ => ⟨S2000x1, .i32⟩
  | .local _ .vmem, ⟨29, _⟩ => ⟨S1024x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S2000x128, .f32⟩
  | .local _ .vmem, ⟨41, _⟩ => ⟨S2000x128, .f32⟩
  | .local _ .vmem, ⟨42, _⟩ => ⟨S2000x1, .i32⟩
  | .local _ .vmem, ⟨43, _⟩ => ⟨S2000x1, .i32⟩
  | .local _ .vmem, ⟨44, _⟩ => ⟨S1024x128, .f32⟩
  | .local _ .vmem, ⟨45, _⟩ => ⟨S1000x384, .f32⟩
  | .local _ .vmem, ⟨46, _⟩ => ⟨S384x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_4 : Ref sig .tc := ⟨.hbm, 65, rfl⟩
abbrev main_v47 : Ref sig .tc := ⟨.hbm, 66, rfl⟩
abbrev main_v48 : Ref sig .tc := ⟨.hbm, 67, rfl⟩
abbrev main_c_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc6_stg0_0 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc6_sem0_0 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem5_0 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1000x384 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S384x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1000x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S1024x128_S1024x128_0_0 : ∀ a, (![0, 0] : Fin 2 → Nat) a + S1024x128.size a ≤ S1024x128.size a
  h_S1024x128 : 0 < S1024x128.numel
  iota_S1x1024_d1_w32 : S1x1024.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  broadcasts_S1x1024_S2000x1024 : S1x1024.Broadcasts S2000x1024
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S1024x128_S1024x128 : S1024x128.ShapeCasts S1024x128
  slices_S1024x128_S1000x128_0_0 : S1024x128.Slices ![0, 0] S1000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S1000x128_S1000x128_S1000x128_S1000x384_d1 : Shape.Concatenates [S1000x128, S1000x128, S1000x128] S1000x384 1
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  inb_S384x128_S384x128_0_0 : ∀ a, (![0, 0] : Fin 2 → Nat) a + S384x128.size a ≤ S384x128.size a
  h_S384x128 : 0 < S384x128.numel
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S2000x1024_S2000x128_S1024x128_0_0_1_1_n_n_wf : DotDims.WF S2000x1024 S2000x128 S1024x128 [0] [0] [1] [1] [] []
  dot_S1000x384_S384x128_S1000x128_1_0_0_1_n_n_wf : DotDims.WF S1000x384 S384x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .i32 = 32 ∨ (Rect.block (s := S100000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .i32 = 32 ∨ (Rect.block (s := S100000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S1024x128.size a
  hwx3_2 : ∀ i : grid3.Coords, EltTy.bits .f32 = 32 ∨ (Rect.block (s := S1024x128) S1024x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S100000x128.size a
  hwx4_6 : ∀ i : grid4.Coords, EltTy.bits .f32 = 32 ∨ (Rect.block (s := S100000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .i32 = 32 ∨ (Rect.block (s := S100000x1) S2000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1024x128.size a ≤ S1024x128.size a
  hwx5_2 : ∀ i : grid5.Coords, EltTy.bits .f32 = 32 ∨ (Rect.block (s := S1024x128) S1024x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1000x384.size a ≤ S1000x384.size a
  hwx6_0 : ∀ i : grid6.Coords, EltTy.bits .f32 = 32 ∨ (Rect.block (s := S1000x384) S1000x384.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S384x128.size a ≤ S384x128.size a
  hwx6_1 : ∀ i : grid6.Coords, EltTy.bits .f32 = 32 ∨ (Rect.block (s := S384x128) S384x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1000x128.size a ≤ S1000x128.size a
  hwx6_5 : ∀ i : grid6.Coords, EltTy.bits .f32 = 32 ∨ (Rect.block (s := S1000x128) S1000x128.size (cc6_transform_5 i) (hinb6_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def dot_S1000x384_S384x128_S1000x128_1_0_0_1_n_n : DotDims S1000x384 S384x128 S1000x128 where
  lhsContracting := [1]
  rhsContracting := [0]
  lhsNonContracting := [0]
  rhsNonContracting := [1]
  lhsBatch := []
  rhsBatch := []
  wf := dot_S1000x384_S384x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1024x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v21) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1024x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v44) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v67) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1024x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v70) S1000x384.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S384x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v72) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v73) S1000x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S1000x128 : Shape := ⟨2, ![1000, 128]⟩
abbrev S100000x1 : Shape := ⟨2, ![100000, 1]⟩
abbrev S1000x384 : Shape := ⟨2, ![1000, 384]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S3x128x128, .f32⟩
  | 5 => ⟨S3x128, .f32⟩
  | 6 => ⟨S3x128x128, .f32⟩
  | 7 => ⟨S3x128, .f32⟩
  | 8 => ⟨S384x128, .f32⟩
  | 9 => ⟨S128, .f32⟩
  | 10 => ⟨S128x128, .f32⟩
  | 11 => ⟨S128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S100000x128, .f32⟩
  | 26 => ⟨S1x128x128, .f32⟩
  | 27 => ⟨S128x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S1x128x128, .f32⟩
  | 38 => ⟨S128x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S_, .f32⟩
  | 49 => ⟨S1000x128, .f32⟩
  | 50 => ⟨S100000x1, .i32⟩
  | 51 => ⟨S1000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x128, .f32⟩
  | 66 => ⟨S1x128x128, .f32⟩
  | 67 => ⟨S128x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S1x128x128, .f32⟩
  | 78 => ⟨S128x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .f32⟩
  | 89 => ⟨S1000x128, .f32⟩
  | 90 => ⟨S100000x1, .i32⟩
  | 91 => ⟨S1000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x128, .f32⟩
  | 106 => ⟨S1x128x128, .f32⟩
  | 107 => ⟨S128x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S1x128x128, .f32⟩
  | 118 => ⟨S128x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S1000x128, .f32⟩
  | 2 => ⟨S100000x1, .i32⟩
  | 3 => ⟨S1000x128, .f32⟩
  | 4 => ⟨S1000x384, .f32⟩
  | 5 => ⟨S1000x128, .f32⟩
  | 6 => ⟨S1x128, .f32⟩
  | 7 => ⟨S1000x128, .f32⟩
  | 8 => ⟨S1000x128, .f32⟩
  | 9 => ⟨S_, .f32⟩
  | 10 => ⟨S1000x128, .f32⟩
  | 11 => ⟨S1000x128, .f32⟩
  | 12 => ⟨S1000x128, .f32⟩
  | 13 => ⟨S1x128, .f32⟩
  | 14 => ⟨S1000x128, .f32⟩
  | 15 => ⟨S1000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_2 : Ref sig .tc := ⟨.hbm, 52, rfl⟩
abbrev main_v32 : Ref sig .tc := ⟨.hbm, 53, rfl⟩
abbrev main_v33 : Ref sig .tc := ⟨.hbm, 54, rfl⟩
abbrev main_c_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call2_cst : Ref sig .tc := ⟨.hbm, 74, rfl⟩
abbrev main_call2_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call3_cst : Ref sig .tc := ⟨.hbm, 85, rfl⟩
abbrev main_call3_v0 : Ref sig .tc := ⟨.hbm, 86, rfl⟩
abbrev main_v60 : Ref sig .tc := ⟨.hbm, 87, rfl⟩
abbrev main_cst_5 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_6 : Ref sig .tc := ⟨.hbm, 92, rfl⟩
abbrev main_v64 : Ref sig .tc := ⟨.hbm, 93, rfl⟩
abbrev main_v65 : Ref sig .tc := ⟨.hbm, 94, rfl⟩
abbrev main_c_7 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_8 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call4_cst : Ref sig .tc := ⟨.hbm, 114, rfl⟩
abbrev main_call4_v0 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call5_cst : Ref sig .tc := ⟨.hbm, 125, rfl⟩
abbrev main_call5_v0 : Ref sig .tc := ⟨.hbm, 126, rfl⟩
abbrev main_v92 : Ref sig .tc := ⟨.hbm, 127, rfl⟩
abbrev main_cst_9 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call6_cst : Ref sig .tc := ⟨.hbm, 137, rfl⟩
abbrev main_call6_v0 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000x128 : S_.BroadcastsInDim S1000x128 (![] : Fin 0 → Fin S1000x128.rank)
  bcast_S100000_S100000x1_0 : S100000.BroadcastsInDim S100000x1 (![0] : Fin 1 → Fin S100000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S1000x128_S1000x128_S1000x128_S1000x384_d1 : Shape.Concatenates [S1000x128, S1000x128, S1000x128] S1000x384 1
  bcast_S1x128_S1000x128_0_1 : S1x128.BroadcastsInDim S1000x128 (![0, 1] : Fin 2 → Fin S1000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  dot_S1000x384_S384x128_S1000x128_1_0_0_1_n_n_wf : DotDims.WF S1000x384 S384x128 S1000x128 [1] [0] [0] [1] [] []
  dot_S1000x128_S128x128_S1000x128_1_0_0_1_n_n_wf : DotDims.WF S1000x128 S128x128 S1000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x384_S384x128_S1000x128_1_0_0_1_n_n : DotDims S1000x384 S384x128 S1000x128 where
  lhsContracting := [1]
  rhsContracting := [0]
  lhsNonContracting := [0]
  rhsNonContracting := [1]
  lhsBatch := []
  rhsBatch := []
  wf := dot_S1000x384_S384x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

class Facts : Prop extends Facts₀ where

variable [Facts]
-- ==== Proof.KI.Gin0.lean ====
/-
  One graph-convolution layer's dense half as a pipelined region (region 0 of the program): rows of the node
  features h and of the neighbour sums, 4000 at a time over 25 grid points, go through
  relu(relu((h + nb) · W1 + b1) · W2 + b2); the two weight matrices and the two bias rows are the same block at
  every point. Here: each window's block at a point, what the body leaves in the output's buffer as a function of
  the six input blocks, the body's triple, the pipeline's proof data and its obligation at every point.
  Everything is stated at any float instance F, over the contents V the region finds.
-/
import proofs.«410827_j82411832476193_1_alg».proof.Proof.Gen.KernelIdeal.Launch
import proofs.«410827_j82411832476193_1_alg».proof.Proof.Gen.KernelIdeal.Skeleton
import proofs.«410827_j82411832476193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not
    fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not
    fetched its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: where it is not
    fetched its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not: where it is not
    fetched its block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rA0 : Rect S4000x128 := Rect.unit (s := S4000x128) ![0, 0] S4000x128.size inb_S4000x128_S4000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output's buffer after the body: its one store, of the layer's arithmetic on the six loaded blocks. -/
def out0_6 (x0 : Vec F S4000x128 .f32) (x1 : Vec F S4000x128 .f32) (x2 : Vec F S128x128 .f32) (x3 : Vec F S1x128 .f32)
    (x4 : Vec F S128x128 .f32) (x5 : Vec F S1x128 .f32) : Vec F S4000x128 .f32 :=
  View.canon [⟨rA0, k0_pay1 (View.ld x0 rA0) (View.ld x1 rA0) (View.ld x2 rW0) (View.ld x3 rB0) (View.ld x4 rW0) (View.ld x5 rB0)⟩]

/-- The store covers the buffer. -/
theorem cover0_6 (p0 : Vec F S4000x128 .f32) (y : S4000x128.Idx) :
    ∃ pc ∈ ([⟨rA0, p0⟩] : List (View.Piece (Elt F) S4000x128 .f32)), y ∈ pc.1.set :=
  View.cover_of_tiled [⟨rA0, p0⟩] S4000x128.size (by rfl) y

/-! ## The body's triple -/

set_option maxHeartbeats 4000000 in
/-- On whole buffers, the inputs' holding x0 … x5 and the output's anything, the body runs to its continuation with the
    inputs' as they were and the output's at out0_6 of them. -/
theorem sound_kernel0 (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S1x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- Region 0's proof data on core c: the arrays as the region finds them; after the body at point t each input's buffer
    at its block and the output's at out0_6 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation the pipeline asks, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KI.Pool1.lean ====
/-
  One layer's graph pooling as a pipelined region (region 1 of the program): 50 grid points, each taking 2000 rows
  of the layer's output and their graph ids; the one output block, 1024 padded graph rows, stays in its buffer
  over the whole grid and is written back after the last point. Point 0 first clears the block; every point then
  adds, for each graph row g, the rows of its 2000 whose id equals g (an equality mask times the rows, summed by
  the matrix unit). Here: the two control cases' runs, what the block holds after each point (a recursion on the
  point), the pipeline's proof data and its obligation. At any float instance F, over the contents V found at entry.
-/
import proofs.«410827_j82411832476193_1_alg».proof.Proof.Gen.KernelIdeal.Launch
import proofs.«410827_j82411832476193_1_alg».proof.Proof.Gen.KernelIdeal.Skeleton
import proofs.«410827_j82411832476193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch: "is this the first point?" -/

/-- The guard of the clearing branch, as the body computes it from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 50 = 0 :=
  (by decide +kernel : ∀ t : Fin grid1.N, cond1_0 (grid1.coords t) ↔ t.val % 50 = 0)

/-- A buffer of the output window, through which its contents are stated (which one does not matter). -/
abbrev VO1_2 : View sig .tc .vmem S1024x128 .f32 := (Memref.whole cc1_stg2_0 : Memref sig .tc .vmem S1024x128 .f32).view
/-- Each window's current buffer at point t, as the pipeline passes it to the body. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)

/-! ## The body's run in each case: the pieces its stores leave in the output's buffer -/

set_option maxHeartbeats 4000000 in
/-- FIRST POINT (the guard holds): the block is cleared, then the point's sums are added to the cleared block. The
    output's buffer may hold anything before. -/
noncomputable def kernelRun1_A (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond1_0 i) (x0 : Vec F S2000x128 .f32) (x1 : Vec F S2000x1 .i32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc1__pool_kernel i arg1 harg1 arg2 harg2 arg3 harg3) K } := by
  refine ⟨?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 4000000 in
/-- LATER POINTS (the guard fails): the point's sums are added to what the block holds, xo2. -/
noncomputable def kernelRun1_B (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond1_0 i) (x0 : Vec F S2000x128 .f32) (x1 : Vec F S2000x1 .i32) (xo2 : Vec F S1024x128 .f32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc1__pool_kernel i arg1 harg1 arg2 harg2 arg3 harg3) K } := by
  refine ⟨?_, fun E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The first point's stores cover the block. -/
theorem cover1_A_2 (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond1_0 i) (x0 : Vec F S2000x128 .f32) (x1 : Vec F S2000x1 .i32) (y : S1024x128.Idx) :
    ∃ pc ∈ (kernelRun1_A c i arg1 harg1 arg2 harg2 arg3 harg3 hc0 x0 x1).1, y ∈ pc.1.set :=
  View.cover_of_tiledL (kernelRun1_A c i arg1 harg1 arg2 harg2 arg3 harg3 hc0 x0 x1).1 S1024x128.size (by sl_kernel_rfl) y

/-- What the first point leaves in the block. -/
def out1_A_2 (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond1_0 i) (x0 : Vec F S2000x128 .f32) (x1 : Vec F S2000x1 .i32) : Vec F S1024x128 .f32 :=
  VO1_2.read (Elt F) (VO1_2.writes (Elt F) VO1_2.junk (kernelRun1_A c i arg1 harg1 arg2 harg2 arg3 harg3 hc0 x0 x1).1)

/-- A later point's store covers the block. -/
theorem cover1_B_2 (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond1_0 i) (x0 : Vec F S2000x128 .f32) (x1 : Vec F S2000x1 .i32) (xo2 : Vec F S1024x128 .f32) (y : S1024x128.Idx) :
    ∃ pc ∈ (kernelRun1_B c i arg1 harg1 arg2 harg2 arg3 harg3 hc0 x0 x1 xo2).1, y ∈ pc.1.set :=
  View.cover_of_tiledL (kernelRun1_B c i arg1 harg1 arg2 harg2 arg3 harg3 hc0 x0 x1 xo2).1 S1024x128.size (by sl_kernel_rfl) y

/-- What a later point leaves in the block, over what it held. -/
def out1_B_2 (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond1_0 i) (x0 : Vec F S2000x128 .f32) (x1 : Vec F S2000x1 .i32) (xo2 : Vec F S1024x128 .f32) : Vec F S1024x128 .f32 :=
  VO1_2.read (Elt F) (VO1_2.writes (Elt F) VO1_2.junk (kernelRun1_B c i arg1 harg1 arg2 harg2 arg3 harg3 hc0 x0 x1 xo2).1)

/-! ## What the block holds after each point -/

/-- THE ACCUMULATION: after point 0 the first case's contents; after point n + 1 the later case's over what point n left. -/
def outsAt1 (c : Dev nD) : (n : ℕ) → n < cfg1.N → Vec F S1024x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 50 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 50 = 0) :
    outsAt1 V c t.val t.isLt = out1_A_2 c (grid1.coords t) (ms1_0 t) (hs1_0 t) (ms1_1 t) (hs1_1 t) (ms1_2 t) (hs1_2 t)
      ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 50 = 0) :
    outsAt1 V c t.val t.isLt = out1_B_2 c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later point the output's buffer holds what the body left at the point before: it is not written back between. -/
theorem before1_2_B (c : Dev nD) (t : Fin cfg1.N) (h0 : ¬t.val % 50 = 0) (d) :
    (dat1 V c).before 2 t d = (outsAt1 V c (t.val - 1) (Nat.lt_of_le_of_lt (Nat.sub_le _ _) t.isLt)) := by
  have hN : t.val < 50 := lt_of_lt_of_eq t.isLt (show cfg1.N = 50 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 50 := lt_of_lt_of_eq t.isLt (show cfg1.N = 50 from N_1)
  by_cases h0 : t.val % 50 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KI.Gin2.lean ====
/-
  One graph-convolution layer's dense half as a pipelined region (region 2 of the program): rows of the node
  features h and of the neighbour sums, 4000 at a time over 25 grid points, go through
  relu(relu((h + nb) · W1 + b1) · W2 + b2); the two weight matrices and the two bias rows are the same block at
  every point. Here: each window's block at a point, what the body leaves in the output's buffer as a function of
  the six input blocks, the body's triple, the pipeline's proof data and its obligation at every point.
  Everything is stated at any float instance F, over the contents V the region finds.
-/
import proofs.«410827_j82411832476193_1_alg».proof.Proof.Gen.KernelIdeal.Launch
import proofs.«410827_j82411832476193_1_alg».proof.Proof.Gen.KernelIdeal.Skeleton
import proofs.«410827_j82411832476193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not: where it is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not: where it is not
    fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not: where it is not
    fetched its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not: where it is not
    fetched its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, fetched there or not: where it is not
    fetched its block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev rA2 : Rect S4000x128 := Rect.unit (s := S4000x128) ![0, 0] S4000x128.size inb_S4000x128_S4000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The output's buffer after the body: its one store, of the layer's arithmetic on the six loaded blocks. -/
def out2_6 (x0 : Vec F S4000x128 .f32) (x1 : Vec F S4000x128 .f32) (x2 : Vec F S128x128 .f32) (x3 : Vec F S1x128 .f32)
    (x4 : Vec F S128x128 .f32) (x5 : Vec F S1x128 .f32) : Vec F S4000x128 .f32 :=
  View.canon [⟨rA2, k2_pay1 (View.ld x0 rA2) (View.ld x1 rA2) (View.ld x2 rW2) (View.ld x3 rB2) (View.ld x4 rW2) (View.ld x5 rB2)⟩]

/-- The store covers the buffer. -/
theorem cover2_6 (p0 : Vec F S4000x128 .f32) (y : S4000x128.Idx) :
    ∃ pc ∈ ([⟨rA2, p0⟩] : List (View.Piece (Elt F) S4000x128 .f32)), y ∈ pc.1.set :=
  View.cover_of_tiled [⟨rA2, p0⟩] S4000x128.size (by rfl) y

/-! ## The body's triple -/

set_option maxHeartbeats 4000000 in
/-- On whole buffers, the inputs' holding x0 … x5 and the output's anything, the body runs to its continuation with the
    inputs' as they were and the output's at out2_6 of them. -/
theorem sound_kernel2 (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S1x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- Region 2's proof data on core c: the arrays as the region finds them; after the body at point t each input's buffer
    at its block and the output's at out2_6 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation the pipeline asks, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.KI.Pool3.lean ====
/-
  One layer's graph pooling as a pipelined region (region 3 of the program): 50 grid points, each taking 2000 rows
  of the layer's output and their graph ids; the one output block, 1024 padded graph rows, stays in its buffer
  over the whole grid and is written back after the last point. Point 0 first clears the block; every point then
  adds, for each graph row g, the rows of its 2000 whose id equals g (an equality mask times the rows, summed by
  the matrix unit). Here: the two control cases' runs, what the block holds after each point (a recursion on the
  point), the pipeline's proof data and its obligation. At any float instance F, over the contents V found at entry.
-/
import proofs.«410827_j82411832476193_1_alg».proof.Proof.Gen.KernelIdeal.Launch
import proofs.«410827_j82411832476193_1_alg».proof.Proof.Gen.KernelIdeal.Skeleton
import proofs.«410827_j82411832476193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch: "is this the first point?" -/

/-- The guard of the clearing branch, as the body computes it from the grid coordinate. -/
abbrev cond3_0 (i : grid3.Coords) : Prop := (Scalar.cmpi .ne (Scalar.extui (Scalar.cmpi .eq (BitVec.ofNat 32 (i 0).val) 0#32)) 0#32) = 1#1
/-- It holds at point 0 only. -/
theorem hcond3_0 : ∀ t : Fin cfg3.N, cond3_0 (grid3.coords t) ↔ t.val % 50 = 0 :=
  (by decide +kernel : ∀ t : Fin grid3.N, cond3_0 (grid3.coords t) ↔ t.val % 50 = 0)

/-- A buffer of the output window, through which its contents are stated (which one does not matter). -/
abbrev VO3_2 : View sig .tc .vmem S1024x128 .f32 := (Memref.whole cc3_stg2_0 : Memref sig .tc .vmem S1024x128 .f32).view
/-- Each window's current buffer at point t, as the pipeline passes it to the body. -/
abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)

/-! ## The body's run in each case: the pieces its stores leave in the output's buffer -/

set_option maxHeartbeats 4000000 in
/-- FIRST POINT (the guard holds): the block is cleared, then the point's sums are added to the cleared block. The
    output's buffer may hold anything before. -/
noncomputable def kernelRun3_A (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond3_0 i) (x0 : Vec F S2000x128 .f32) (x1 : Vec F S2000x1 .i32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc3__pool_kernel i arg1 harg1 arg2 harg2 arg3 harg3) K } := by
  refine ⟨?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 4000000 in
/-- LATER POINTS (the guard fails): the point's sums are added to what the block holds, xo2. -/
noncomputable def kernelRun3_B (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond3_0 i) (x0 : Vec F S2000x128 .f32) (x1 : Vec F S2000x1 .i32) (xo2 : Vec F S1024x128 .f32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc3__pool_kernel i arg1 harg1 arg2 harg2 arg3 harg3) K } := by
  refine ⟨?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The first point's stores cover the block. -/
theorem cover3_A_2 (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond3_0 i) (x0 : Vec F S2000x128 .f32) (x1 : Vec F S2000x1 .i32) (y : S1024x128.Idx) :
    ∃ pc ∈ (kernelRun3_A c i arg1 harg1 arg2 harg2 arg3 harg3 hc0 x0 x1).1, y ∈ pc.1.set :=
  View.cover_of_tiledL (kernelRun3_A c i arg1 harg1 arg2 harg2 arg3 harg3 hc0 x0 x1).1 S1024x128.size (by sl_kernel_rfl) y

/-- What the first point leaves in the block. -/
def out3_A_2 (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond3_0 i) (x0 : Vec F S2000x128 .f32) (x1 : Vec F S2000x1 .i32) : Vec F S1024x128 .f32 :=
  VO3_2.read (Elt F) (VO3_2.writes (Elt F) VO3_2.junk (kernelRun3_A c i arg1 harg1 arg2 harg2 arg3 harg3 hc0 x0 x1).1)

/-- A later point's store covers the block. -/
theorem cover3_B_2 (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond3_0 i) (x0 : Vec F S2000x128 .f32) (x1 : Vec F S2000x1 .i32) (xo2 : Vec F S1024x128 .f32) (y : S1024x128.Idx) :
    ∃ pc ∈ (kernelRun3_B c i arg1 harg1 arg2 harg2 arg3 harg3 hc0 x0 x1 xo2).1, y ∈ pc.1.set :=
  View.cover_of_tiledL (kernelRun3_B c i arg1 harg1 arg2 harg2 arg3 harg3 hc0 x0 x1 xo2).1 S1024x128.size (by sl_kernel_rfl) y

/-- What a later point leaves in the block, over what it held. -/
def out3_B_2 (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond3_0 i) (x0 : Vec F S2000x128 .f32) (x1 : Vec F S2000x1 .i32) (xo2 : Vec F S1024x128 .f32) : Vec F S1024x128 .f32 :=
  VO3_2.read (Elt F) (VO3_2.writes (Elt F) VO3_2.junk (kernelRun3_B c i arg1 harg1 arg2 harg2 arg3 harg3 hc0 x0 x1 xo2).1)

/-! ## What the block holds after each point -/

/-- THE ACCUMULATION: after point 0 the first case's contents; after point n + 1 the later case's over what point n left. -/
def outsAt3 (c : Dev nD) : (n : ℕ) → n < cfg3.N → Vec F S1024x128 .f32
  | 0, hn => out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩)
      ((hcond3_0 ⟨0, hn⟩).mpr (Nat.zero_mod _)) (iblk3 V c 0 ⟨0, hn⟩) (iblk3 V c 1 ⟨0, hn⟩)
  | n + 1, hn =>
    if h0 : (n + 1) % 50 = 0 then
      out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩)
        ((hcond3_0 ⟨n + 1, hn⟩).mpr h0) (iblk3 V c 0 ⟨n + 1, hn⟩) (iblk3 V c 1 ⟨n + 1, hn⟩)
    else
      out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩)
        (fun h => h0 ((hcond3_0 ⟨n + 1, hn⟩).mp h)) (iblk3 V c 0 ⟨n + 1, hn⟩) (iblk3 V c 1 ⟨n + 1, hn⟩) (outsAt3 c n (Nat.lt_of_succ_lt hn))

theorem outsAt3_A (c : Dev nD) (t : Fin cfg3.N) (h0 : t.val % 50 = 0) :
    outsAt3 V c t.val t.isLt = out3_A_2 c (grid3.coords t) (ms3_0 t) (hs3_0 t) (ms3_1 t) (hs3_1 t) (ms3_2 t) (hs3_2 t)
      ((hcond3_0 t).mpr h0) (iblk3 V c 0 t) (iblk3 V c 1 t) := by
  obtain ⟨n, hn⟩ := t
  cases n with
  | zero => exact rfl
  | succ n => exact (dif_pos h0).trans rfl

theorem outsAt3_B (c : Dev nD) (t : Fin cfg3.N) (h0 : ¬t.val % 50 = 0) :
    outsAt3 V c t.val t.isLt = out3_B_2 c (grid3.coords t) (ms3_0 t) (hs3_0 t) (ms3_1 t) (hs3_1 t) (ms3_2 t) (hs3_2 t)
      (fun h => h0 ((hcond3_0 t).mp h)) (iblk3 V c 0 t) (iblk3 V c 1 t)
      (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
/-- At a later point the output's buffer holds what the body left at the point before: it is not written back between. -/
theorem before3_2_B (c : Dev nD) (t : Fin cfg3.N) (h0 : ¬t.val % 50 = 0) (d) :
    (dat3 V c).before 2 t d = (outsAt3 V c (t.val - 1) (Nat.lt_of_le_of_lt (Nat.sub_le _ _) t.isLt)) := by
  have hN : t.val < 50 := lt_of_lt_of_eq t.isLt (show cfg3.N = 50 from N_3)
  rw [Dat.before_out_kept _ 2 rfl t (by omega) (Bool.eq_false_iff.mpr fun h => by have := (flush3_2 _).mp h; dsimp only at this; omega)
    (fun _ => rfl) (fun _ _ => rfl)]
  dsimp only [dat3]

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  have hN : t.val < 50 := lt_of_lt_of_eq t.isLt (show cfg3.N = 50 from N_3)
  by_cases h0 : t.val % 50 = 0
  · rw [outsAt3_A V c t h0]
    unfold out3_A_2
    iintro ⟨HΦ, Ho, ⟨%d0, H0⟩, ⟨%d1, H1⟩, ⟨%d2, H2⟩⟩
    iapply ((kernelRun3_A c (grid3.coords t) _ _ _ _ _ _ ((hcond3_0 t).mpr h0) (iblk3 V c 0 t) (iblk3 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover3_A_2 c _ _ _ _ _ _ _ _ _ _)
  · rw [outsAt3_B V c t h0]
    simp only [before3_2_B V c t h0]
    unfold out3_B_2
    iintro ⟨HΦ, Ho, ⟨%d0, H0⟩, ⟨%d1, H1⟩, ⟨%d2, H2⟩⟩
    iapply ((kernelRun3_B c (grid3.coords t) _ _ _ _ _ _ (fun h => h0 ((hcond3_0 t).mp h)) (iblk3 V c 0 t) (iblk3 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover3_B_2 c _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.KernelIdeal.Run

end
-- ==== Proof.KI.Gin4.lean ====
/-
  One graph-convolution layer's dense half as a pipelined region (region 4 of the program): rows of the node
  features h and of the neighbour sums, 4000 at a time over 25 grid points, go through
  relu(relu((h + nb) · W1 + b1) · W2 + b2); the two weight matrices and the two bias rows are the same block at
  every point. Here: each window's block at a point, what the body leaves in the output's buffer as a function of
  the six input blocks, the body's triple, the pipeline's proof data and its obligation at every point.
  Everything is stated at any float instance F, over the contents V the region finds.
-/
import proofs.«410827_j82411832476193_1_alg».proof.Proof.Gen.KernelIdeal.Launch
import proofs.«410827_j82411832476193_1_alg».proof.Proof.Gen.KernelIdeal.Skeleton
import proofs.«410827_j82411832476193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, fetched there or not: where it is not
    fetched its block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, fetched there or not: where it is not
    fetched its block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, fetched there or not: where it is not
    fetched its block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current buffer holds its block at every point, fetched there or not: where it is not
    fetched its block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current buffer holds its block at every point, fetched there or not: where it is not
    fetched its block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current buffer holds its block at every point, fetched there or not: where it is not
    fetched its block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev rA4 : Rect S4000x128 := Rect.unit (s := S4000x128) ![0, 0] S4000x128.size inb_S4000x128_S4000x128_0_0
abbrev rW4 : Rect S128x128 := Rect.unit (s := S128x128) ![0, 0] S128x128.size inb_S128x128_S128x128_0_0
abbrev rB4 : Rect S1x128 := Rect.unit (s := S1x128) ![0, 0] S1x128.size inb_S1x128_S1x128_0_0

/-- The output's buffer after the body: its one store, of the layer's arithmetic on the six loaded blocks. -/
def out4_6 (x0 : Vec F S4000x128 .f32) (x1 : Vec F S4000x128 .f32) (x2 : Vec F S128x128 .f32) (x3 : Vec F S1x128 .f32)
    (x4 : Vec F S128x128 .f32) (x5 : Vec F S1x128 .f32) : Vec F S4000x128 .f32 :=
  View.canon [⟨rA4, k4_pay1 (View.ld x0 rA4) (View.ld x1 rA4) (View.ld x2 rW4) (View.ld x3 rB4) (View.ld x4 rW4) (View.ld x5 rB4)⟩]

/-- The store covers the buffer. -/
theorem cover4_6 (p0 : Vec F S4000x128 .f32) (y : S4000x128.Idx) :
    ∃ pc ∈ ([⟨rA4, p0⟩] : List (View.Piece (Elt F) S4000x128 .f32)), y ∈ pc.1.set :=
  View.cover_of_tiled [⟨rA4, p0⟩] S4000x128.size (by rfl) y

/-! ## The body's triple -/

set_option maxHeartbeats 4000000 in
/-- On whole buffers, the inputs' holding x0 … x5 and the output's anything, the body runs to its continuation with the
    inputs' as they were and the output's at out4_6 of them. -/
theorem sound_kernel4 (c : Dev nD) (E : Set ℕ) (i : grid4.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S1x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__gin_layer_kernel i arg1 harg1 arg2 harg2 arg3 harg3 arg4 harg4 arg5 harg5 arg6 harg6 arg7 harg7) K := by
  simp only [cc4__gin_layer_kernel_eq_skeleton]; unfold cc4__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- Region 4's proof data on core c: the arrays as the region finds them; after the body at point t each input's buffer
    at its block and the output's at out4_6 of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by
  dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation the pipeline asks, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Run

end
-- ==== Proof.KI.Pool5.lean ====
/-
  One layer's graph pooling as a pipelined region (region 5 of the program): 50 grid points, each taking 2000 rows
  of the layer's output and their graph ids; the one output block, 1024 padded graph rows, stays in its buffer
  over the whole grid and is written back after the last point. Point 0 first clears the block; every point then
  adds, for each graph row g, the rows of its 2000 whose id equals g (an equality mask times the rows, summed by
  the matrix unit). Here: the two control cases' runs, what the block holds after each point (a recursion on the
  point), the pipeline's proof data and its obligation. At any float instance F, over the contents V found at entry.
-/
import proofs.«410827_j82411832476193_1_alg».proof.Proof.Gen.KernelIdeal.Launch
import proofs.«410827_j82411832476193_1_alg».proof.Proof.Gen.KernelIdeal.Skeleton
import proofs.«410827_j82411832476193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch: "is this the first point?" -/

/-- The guard of the clearing branch, as the body computes it from the grid coordinate. -/
abbrev cond5_0 (i : grid5.Coords) : Prop := (Scalar.cmpi .ne (Scalar.extui (Scalar.cmpi .eq (BitVec.ofNat 32 (i 0).val) 0#32)) 0#32) = 1#1
/-- It holds at point 0 only. -/
theorem hcond5_0 : ∀ t : Fin cfg5.N, cond5_0 (grid5.coords t) ↔ t.val % 50 = 0 :=
  (by decide +kernel : ∀ t : Fin grid5.N, cond5_0 (grid5.coords t) ↔ t.val % 50 = 0)

/-- A buffer of the output window, through which its contents are stated (which one does not matter). -/
abbrev VO5_2 : View sig .tc .vmem S1024x128 .f32 := (Memref.whole cc5_stg2_0 : Memref sig .tc .vmem S1024x128 .f32).view
/-- Each window's current buffer at point t, as the pipeline passes it to the body. -/
abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x1 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x128 .f32 := win5_2.stage (cfg5.slots t 2)
abbrev hs5_2 (t : Fin cfg5.N) : (ms5_2 t).IsWhole := hstage5_2 ((cfg5.slots t 2).cast nbuf5_2)

/-! ## The body's run in each case: the pieces its stores leave in the output's buffer -/

set_option maxHeartbeats 4000000 in
/-- FIRST POINT (the guard holds): the block is cleared, then the point's sums are added to the cleared block. The
    output's buffer may hold anything before. -/
noncomputable def kernelRun5_A (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond5_0 i) (x0 : Vec F S2000x128 .f32) (x1 : Vec F S2000x1 .i32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc5__pool_kernel i arg1 harg1 arg2 harg2 arg3 harg3) K } := by
  refine ⟨?_, fun E K => ?run⟩
  case run =>
    simp only [cc5__pool_kernel_eq_skeleton]; unfold cc5__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 4000000 in
/-- LATER POINTS (the guard fails): the point's sums are added to what the block holds, xo2. -/
noncomputable def kernelRun5_B (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond5_0 i) (x0 : Vec F S2000x128 .f32) (x1 : Vec F S2000x1 .i32) (xo2 : Vec F S1024x128 .f32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc5__pool_kernel i arg1 harg1 arg2 harg2 arg3 harg3) K } := by
  refine ⟨?_, fun E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The first point's stores cover the block. -/
theorem cover5_A_2 (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond5_0 i) (x0 : Vec F S2000x128 .f32) (x1 : Vec F S2000x1 .i32) (y : S1024x128.Idx) :
    ∃ pc ∈ (kernelRun5_A c i arg1 harg1 arg2 harg2 arg3 harg3 hc0 x0 x1).1, y ∈ pc.1.set :=
  View.cover_of_tiledL (kernelRun5_A c i arg1 harg1 arg2 harg2 arg3 harg3 hc0 x0 x1).1 S1024x128.size (by sl_kernel_rfl) y

/-- What the first point leaves in the block. -/
def out5_A_2 (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond5_0 i) (x0 : Vec F S2000x128 .f32) (x1 : Vec F S2000x1 .i32) : Vec F S1024x128 .f32 :=
  VO5_2.read (Elt F) (VO5_2.writes (Elt F) VO5_2.junk (kernelRun5_A c i arg1 harg1 arg2 harg2 arg3 harg3 hc0 x0 x1).1)

/-- A later point's store covers the block. -/
theorem cover5_B_2 (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond5_0 i) (x0 : Vec F S2000x128 .f32) (x1 : Vec F S2000x1 .i32) (xo2 : Vec F S1024x128 .f32) (y : S1024x128.Idx) :
    ∃ pc ∈ (kernelRun5_B c i arg1 harg1 arg2 harg2 arg3 harg3 hc0 x0 x1 xo2).1, y ∈ pc.1.set :=
  View.cover_of_tiledL (kernelRun5_B c i arg1 harg1 arg2 harg2 arg3 harg3 hc0 x0 x1 xo2).1 S1024x128.size (by sl_kernel_rfl) y

/-- What a later point leaves in the block, over what it held. -/
def out5_B_2 (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond5_0 i) (x0 : Vec F S2000x128 .f32) (x1 : Vec F S2000x1 .i32) (xo2 : Vec F S1024x128 .f32) : Vec F S1024x128 .f32 :=
  VO5_2.read (Elt F) (VO5_2.writes (Elt F) VO5_2.junk (kernelRun5_B c i arg1 harg1 arg2 harg2 arg3 harg3 hc0 x0 x1 xo2).1)

/-! ## What the block holds after each point -/

/-- THE ACCUMULATION: after point 0 the first case's contents; after point n + 1 the later case's over what point n left. -/
def outsAt5 (c : Dev nD) : (n : ℕ) → n < cfg5.N → Vec F S1024x128 .f32
  | 0, hn => out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩)
      ((hcond5_0 ⟨0, hn⟩).mpr (Nat.zero_mod _)) (iblk5 V c 0 ⟨0, hn⟩) (iblk5 V c 1 ⟨0, hn⟩)
  | n + 1, hn =>
    if h0 : (n + 1) % 50 = 0 then
      out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩)
        ((hcond5_0 ⟨n + 1, hn⟩).mpr h0) (iblk5 V c 0 ⟨n + 1, hn⟩) (iblk5 V c 1 ⟨n + 1, hn⟩)
    else
      out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩)
        (fun h => h0 ((hcond5_0 ⟨n + 1, hn⟩).mp h)) (iblk5 V c 0 ⟨n + 1, hn⟩) (iblk5 V c 1 ⟨n + 1, hn⟩) (outsAt5 c n (Nat.lt_of_succ_lt hn))

theorem outsAt5_A (c : Dev nD) (t : Fin cfg5.N) (h0 : t.val % 50 = 0) :
    outsAt5 V c t.val t.isLt = out5_A_2 c (grid5.coords t) (ms5_0 t) (hs5_0 t) (ms5_1 t) (hs5_1 t) (ms5_2 t) (hs5_2 t)
      ((hcond5_0 t).mpr h0) (iblk5 V c 0 t) (iblk5 V c 1 t) := by
  obtain ⟨n, hn⟩ := t
  cases n with
  | zero => exact rfl
  | succ n => exact (dif_pos h0).trans rfl

theorem outsAt5_B (c : Dev nD) (t : Fin cfg5.N) (h0 : ¬t.val % 50 = 0) :
    outsAt5 V c t.val t.isLt = out5_B_2 c (grid5.coords t) (ms5_0 t) (hs5_0 t) (ms5_1 t) (hs5_1 t) (ms5_2 t) (hs5_2 t)
      (fun h => h0 ((hcond5_0 t).mp h)) (iblk5 V c 0 t) (iblk5 V c 1 t)
      (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
/-- At a later point the output's buffer holds what the body left at the point before: it is not written back between. -/
theorem before5_2_B (c : Dev nD) (t : Fin cfg5.N) (h0 : ¬t.val % 50 = 0) (d) :
    (dat5 V c).before 2 t d = (outsAt5 V c (t.val - 1) (Nat.lt_of_le_of_lt (Nat.sub_le _ _) t.isLt)) := by
  have hN : t.val < 50 := lt_of_lt_of_eq t.isLt (show cfg5.N = 50 from N_5)
  rw [Dat.before_out_kept _ 2 rfl t (by omega) (Bool.eq_false_iff.mpr fun h => by have := (flush5_2 _).mp h; dsimp only at this; omega)
    (fun _ => rfl) (fun _ _ => rfl)]
  dsimp only [dat5]

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t))

set_option maxHeartbeats 1600000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  have hN : t.val < 50 := lt_of_lt_of_eq t.isLt (show cfg5.N = 50 from N_5)
  by_cases h0 : t.val % 50 = 0
  · rw [outsAt5_A V c t h0]
    unfold out5_A_2
    iintro ⟨HΦ, Ho, ⟨%d0, H0⟩, ⟨%d1, H1⟩, ⟨%d2, H2⟩⟩
    iapply ((kernelRun5_A c (grid5.coords t) _ _ _ _ _ _ ((hcond5_0 t).mpr h0) (iblk5 V c 0 t) (iblk5 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_A_2 c _ _ _ _ _ _ _ _ _ _)
  · rw [outsAt5_B V c t h0]
    simp only [before5_2_B V c t h0]
    unfold out5_B_2
    iintro ⟨HΦ, Ho, ⟨%d0, H0⟩, ⟨%d1, H1⟩, ⟨%d2, H2⟩⟩
    iapply ((kernelRun5_B c (grid5.coords t) _ _ _ _ _ _ (fun h => h0 ((hcond5_0 t).mp h)) (iblk5 V c 0 t) (iblk5 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_B_2 c _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

end Cert.KernelIdeal.Run

end
-- ==== Proof.KI.Proj6.lean ====
/-
  The projection head as a region (region 6 of the program, one grid point): the 1000 pooled rows of width 384,
  two weight matrices and two bias rows, each taken whole, go through relu(p · W1 + b1) · W2 + b2. Here: each
  window's block, what the body leaves in the output's buffer as a function of the five input blocks, the body's
  triple, the pipeline's proof data and its obligation. At any float instance F, over the contents V found at entry.
-/
import proofs.«410827_j82411832476193_1_alg».proof.Proof.Gen.KernelIdeal.Launch
import proofs.«410827_j82411832476193_1_alg».proof.Proof.Gen.KernelIdeal.Skeleton
import proofs.«410827_j82411832476193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev r6_S1000x384 : Rect S1000x384 := Rect.unit (s := S1000x384) ![0, 0] S1000x384.size inb_S1000x384_S1000x384_0_0
abbrev r6_S384x128 : Rect S384x128 := Rect.unit (s := S384x128) ![0, 0] S384x128.size inb_S384x128_S384x128_0_0
abbrev r6_S1x128 : Rect S1x128 := Rect.unit (s := S1x128) ![0, 0] S1x128.size inb_S1x128_S1x128_0_0
abbrev r6_S128x128 : Rect S128x128 := Rect.unit (s := S128x128) ![0, 0] S128x128.size inb_S128x128_S128x128_0_0
abbrev r6_S1000x128 : Rect S1000x128 := Rect.unit (s := S1000x128) ![0, 0] S1000x128.size inb_S1000x128_S1000x128_0_0

/-- The output's buffer after the body: its one store, of the body's arithmetic on the loaded blocks. -/
def out6_5 (x0 : Vec F S1000x384 .f32) (x1 : Vec F S384x128 .f32) (x2 : Vec F S1x128 .f32) (x3 : Vec F S128x128 .f32) (x4 : Vec F S1x128 .f32) : Vec F S1000x128 .f32 :=
  View.canon [⟨r6_S1000x128, k6_pay1 (View.ld x0 r6_S1000x384) (View.ld x1 r6_S384x128) (View.ld x2 r6_S1x128) (View.ld x3 r6_S128x128) (View.ld x4 r6_S1x128)⟩]

/-- The store covers the buffer. -/
theorem cover6_5 (p0 : Vec F S1000x128 .f32) (y : S1000x128.Idx) :
    ∃ pc ∈ ([⟨r6_S1000x128, p0⟩] : List (View.Piece (Elt F) S1000x128 .f32)), y ∈ pc.1.set :=
  View.cover_of_tiled [⟨r6_S1000x128, p0⟩] S1000x128.size (by rfl) y

/-! ## The body's triple -/

set_option maxHeartbeats 4000000 in
/-- On whole buffers, the inputs' holding their read contents and the output's anything, the body runs to its
    continuation with the inputs' as they were and the output's at out6_5 of them. -/
theorem sound_kernel6 (c : Dev nD) (E : Set ℕ) (i : grid6.Coords)
    (arg1 : Memref sig .tc .vmem S1000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1000x128 .f32) (harg6 : arg6.IsWhole)
    (x0 : Vec F S1000x384 .f32) (x1 : Vec F S384x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__proj_kernel i arg1 harg1 arg2 harg2 arg3 harg3 arg4 harg4 arg5 harg5 arg6 harg6) K := by
  simp only [cc6__proj_kernel_eq_skeleton]; unfold cc6__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The region's proof data on core c: the arrays as the region finds them; after the body at point t each input's buffer
    at its block and the output's at out6_5 of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline asks, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Run

end
-- ==== Proof.KI.Run.lean ====
/-
  The whole program as a run: four stretches of host operations and seven pipelined regions, in @main's order. The
  contents of every buffer at each of the twelve boundaries are a fold from the launch memory: a host stretch applies
  its operations, a region replaces its output's array by what its write-backs leave and keeps every other buffer.
  From one region record per pallas_call (its proof data entered at the boundary's contents, its body obligation) and
  one host segment per stretch, every weakly fair execution terminates and ends with every unscoped buffer at the
  last boundary's contents. Two readings of that: each argument array ends as launched, and the result buffer holds
  what the last region leaves. At any float instance F.
-/
import proofs.«410827_j82411832476193_1_alg».proof.Proof.KI.Gin0
import proofs.«410827_j82411832476193_1_alg».proof.Proof.KI.Pool1
import proofs.«410827_j82411832476193_1_alg».proof.Proof.KI.Gin2
import proofs.«410827_j82411832476193_1_alg».proof.Proof.KI.Pool3
import proofs.«410827_j82411832476193_1_alg».proof.Proof.KI.Gin4
import proofs.«410827_j82411832476193_1_alg».proof.Proof.KI.Pool5
import proofs.«410827_j82411832476193_1_alg».proof.Proof.KI.Proj6
import proofs.«410827_j82411832476193_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)

/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer the stretch does not write is as before it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes one buffer only, its output's array: an array it stages as an input ends as entered. -/
theorem keep0 (c : Dev nD) (b : Ref sig .tc) (hb : b ≠ main_v21) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    have hw := not_not.mp hw
    subst hw
    have hin : (cfg0.win w).isOut = false := by
      revert hb; revert w; decide
    exact (W2_arr m ρ c w).trans (((dat0 (V1 m ρ) c).arrAt_in w hin _).trans (A_eq0 (V1 m ρ) c w))

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- Region 1 changes one buffer only, its output's array: an array it stages as an input ends as entered. -/
theorem keep1 (c : Dev nD) (b : Ref sig .tc) (hb : b ≠ main_v22) :
    W3 m ρ c (Proc.devRef .tc b) = W2 m ρ c (Proc.devRef .tc b) := by
  by_cases h : ∀ w, Pipeline.arrRef spec1 w ≠ b
  · exact W3_of_ne m ρ c b h
  · obtain ⟨w, hw⟩ := not_forall.mp h
    have hw := not_not.mp hw
    subst hw
    have hin : (cfg1.win w).isOut = false := by
      revert hb; revert w; decide
    exact (W3_arr m ρ c w).trans (((dat1 (V2 m ρ) c).arrAt_in w hin _).trans (A_eq1 (V2 m ρ) c w))

/-- After the host stretch hostOps2. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- A buffer the stretch does not write is as before it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h

/-- At region 2's exit: its arrays at what the pipeline leaves (the inputs as entered, the output's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- Region 2 changes one buffer only, its output's array: an array it stages as an input ends as entered. -/
theorem keep2 (c : Dev nD) (b : Ref sig .tc) (hb : b ≠ main_v44) :
    W5 m ρ c (Proc.devRef .tc b) = W4 m ρ c (Proc.devRef .tc b) := by
  by_cases h : ∀ w, Pipeline.arrRef spec2 w ≠ b
  · exact W5_of_ne m ρ c b h
  · obtain ⟨w, hw⟩ := not_forall.mp h
    have hw := not_not.mp hw
    subst hw
    have hin : (cfg2.win w).isOut = false := by
      revert hb; revert w; decide
    exact (W5_arr m ρ c w).trans (((dat2 (V4 m ρ) c).arrAt_in w hin _).trans (A_eq2 (V4 m ρ) c w))

/-- At region 3's exit: its arrays at what the pipeline leaves (the inputs as entered, the output's write-backs folded),
    every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)
/-- Region 3 changes one buffer only, its output's array: an array it stages as an input ends as entered. -/
theorem keep3 (c : Dev nD) (b : Ref sig .tc) (hb : b ≠ main_v45) :
    W6 m ρ c (Proc.devRef .tc b) = W5 m ρ c (Proc.devRef .tc b) := by
  by_cases h : ∀ w, Pipeline.arrRef spec3 w ≠ b
  · exact W6_of_ne m ρ c b h
  · obtain ⟨w, hw⟩ := not_forall.mp h
    have hw := not_not.mp hw
    subst hw
    have hin : (cfg3.win w).isOut = false := by
      revert hb; revert w; decide
    exact (W6_arr m ρ c w).trans (((dat3 (V5 m ρ) c).arrAt_in w hin _).trans (A_eq3 (V5 m ρ) c w))

/-- After the host stretch hostOps4. -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
/-- A buffer the stretch does not write is as before it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h

/-- At region 4's exit: its arrays at what the pipeline leaves (the inputs as entered, the output's write-backs folded),
    every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- Region 4 changes one buffer only, its output's array: an array it stages as an input ends as entered. -/
theorem keep4 (c : Dev nD) (b : Ref sig .tc) (hb : b ≠ main_v67) :
    W8 m ρ c (Proc.devRef .tc b) = W7 m ρ c (Proc.devRef .tc b) := by
  by_cases h : ∀ w, Pipeline.arrRef spec4 w ≠ b
  · exact W8_of_ne m ρ c b h
  · obtain ⟨w, hw⟩ := not_forall.mp h
    have hw := not_not.mp hw
    subst hw
    have hin : (cfg4.win w).isOut = false := by
      revert hb; revert w; decide
    exact (W8_arr m ρ c w).trans (((dat4 (V7 m ρ) c).arrAt_in w hin _).trans (A_eq4 (V7 m ρ) c w))

/-- At region 5's exit: its arrays at what the pipeline leaves (the inputs as entered, the output's write-backs folded),
    every other buffer as entered. -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)
/-- Region 5 changes one buffer only, its output's array: an array it stages as an input ends as entered. -/
theorem keep5 (c : Dev nD) (b : Ref sig .tc) (hb : b ≠ main_v68) :
    W9 m ρ c (Proc.devRef .tc b) = W8 m ρ c (Proc.devRef .tc b) := by
  by_cases h : ∀ w, Pipeline.arrRef spec5 w ≠ b
  · exact W9_of_ne m ρ c b h
  · obtain ⟨w, hw⟩ := not_forall.mp h
    have hw := not_not.mp hw
    subst hw
    have hin : (cfg5.win w).isOut = false := by
      revert hb; revert w; decide
    exact (W9_arr m ρ c w).trans (((dat5 (V8 m ρ) c).arrAt_in w hin _).trans (A_eq5 (V8 m ρ) c w))

/-- After the host stretch hostOps6. -/
abbrev W10 : Dev nD → Valuation τ sig (Elt F) := fun c => StableHlo.after hostOps6 (W9 m ρ c)
abbrev V10 : (c : Dev nD) → (b : Ref sig .tc) → Buf (Elt F) ((c : Thread nD τ).loc b) := fun c b => W10 m ρ c b
/-- A buffer the stretch does not write is as before it. -/
theorem W10_of (c : Dev nD) (r : Ref sig .tc) (h : r ∉ hostOps6_W) : W10 m ρ c (Proc.devRef .tc r) = W9 m ρ c (Proc.devRef .tc r) :=
  StableHlo.after_of_writes_sub hostOps6 _ hostOps6_writes h

/-- At region 6's exit: its arrays at what the pipeline leaves (the inputs as entered, the output's write-backs folded),
    every other buffer as entered. -/
def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
abbrev V11 : (c : Dev nD) → (b : Ref sig .tc) → Buf (Elt F) ((c : Thread nD τ).loc b) := fun c b => W11 m ρ c b
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)
/-- Region 6 changes one buffer only, its output's array: an array it stages as an input ends as entered. -/
theorem keep6 (c : Dev nD) (b : Ref sig .tc) (hb : b ≠ main_v73) :
    W11 m ρ c (Proc.devRef .tc b) = W10 m ρ c (Proc.devRef .tc b) := by
  by_cases h : ∀ w, Pipeline.arrRef spec6 w ≠ b
  · exact W11_of_ne m ρ c b h
  · obtain ⟨w, hw⟩ := not_forall.mp h
    have hw := not_not.mp hw
    subst hw
    have hin : (cfg6.win w).isOut = false := by
      revert hb; revert w; decide
    exact (W11_arr m ρ c w).trans (((dat6 (V10 m ρ) c).arrAt_in w hin _).trans (A_eq6 (V10 m ρ) c w))

/-! ## A buffer nothing writes ends as launched -/

/-- A buffer that no host stretch writes and that is no region's output holds at the end what it held at launch. -/
theorem W11_untouched (c : Dev nD) (b : Ref sig .tc) (h0 : b ∉ hostOps0_W) (h2 : b ∉ hostOps2_W) (h4 : b ∉ hostOps4_W) (h6 : b ∉ hostOps6_W)
    (hb : b ∉ ([main_v21, main_v22, main_v44, main_v45, main_v67, main_v68, main_v73] : List (Ref sig .tc))) :
    W11 m ρ c (Proc.devRef .tc b) = m ((c : Thread nD τ).loc b) := by
  simp only [List.mem_cons, List.not_mem_nil, or_false, not_or] at hb
  obtain ⟨e0, e1, e2, e3, e4, e5, e6⟩ := hb
  calc W11 m ρ c (Proc.devRef .tc b)
    _ = W10 m ρ c (Proc.devRef .tc b) := keep6 m ρ c b e6
    _ = W9 m ρ c (Proc.devRef .tc b) := W10_of m ρ c b h6
    _ = W8 m ρ c (Proc.devRef .tc b) := keep5 m ρ c b e5
    _ = W7 m ρ c (Proc.devRef .tc b) := keep4 m ρ c b e4
    _ = W6 m ρ c (Proc.devRef .tc b) := W7_of m ρ c b h4
    _ = W5 m ρ c (Proc.devRef .tc b) := keep3 m ρ c b e3
    _ = W4 m ρ c (Proc.devRef .tc b) := keep2 m ρ c b e2
    _ = W3 m ρ c (Proc.devRef .tc b) := W4_of m ρ c b h2
    _ = W2 m ρ c (Proc.devRef .tc b) := keep1 m ρ c b e1
    _ = W1 m ρ c (Proc.devRef .tc b) := keep0 m ρ c b e0
    _ = W0 m ρ c (Proc.devRef .tc b) := W1_of m ρ c b h0
    _ = m ((c : Thread nD τ).loc b) := rfl

theorem W11_main_arg0 (c : Dev nD) : W11 m ρ c (Proc.devRef .tc main_arg0) = m ((c : Thread nD τ).loc main_arg0) :=
  W11_untouched m ρ c main_arg0 (by decide) (by decide) (by decide) (by decide) (by decide)
theorem W11_main_arg1 (c : Dev nD) : W11 m ρ c (Proc.devRef .tc main_arg1) = m ((c : Thread nD τ).loc main_arg1) :=
  W11_untouched m ρ c main_arg1 (by decide) (by decide) (by decide) (by decide) (by decide)
theorem W11_main_arg2 (c : Dev nD) : W11 m ρ c (Proc.devRef .tc main_arg2) = m ((c : Thread nD τ).loc main_arg2) :=
  W11_untouched m ρ c main_arg2 (by decide) (by decide) (by decide) (by decide) (by decide)
theorem W11_main_arg3 (c : Dev nD) : W11 m ρ c (Proc.devRef .tc main_arg3) = m ((c : Thread nD τ).loc main_arg3) :=
  W11_untouched m ρ c main_arg3 (by decide) (by decide) (by decide) (by decide) (by decide)
theorem W11_main_arg4 (c : Dev nD) : W11 m ρ c (Proc.devRef .tc main_arg4) = m ((c : Thread nD τ).loc main_arg4) :=
  W11_untouched m ρ c main_arg4 (by decide) (by decide) (by decide) (by decide) (by decide)
theorem W11_main_arg5 (c : Dev nD) : W11 m ρ c (Proc.devRef .tc main_arg5) = m ((c : Thread nD τ).loc main_arg5) :=
  W11_untouched m ρ c main_arg5 (by decide) (by decide) (by decide) (by decide) (by decide)
theorem W11_main_arg6 (c : Dev nD) : W11 m ρ c (Proc.devRef .tc main_arg6) = m ((c : Thread nD τ).loc main_arg6) :=
  W11_untouched m ρ c main_arg6 (by decide) (by decide) (by decide) (by decide) (by decide)
theorem W11_main_arg7 (c : Dev nD) : W11 m ρ c (Proc.devRef .tc main_arg7) = m ((c : Thread nD τ).loc main_arg7) :=
  W11_untouched m ρ c main_arg7 (by decide) (by decide) (by decide) (by decide) (by decide)
theorem W11_main_arg8 (c : Dev nD) : W11 m ρ c (Proc.devRef .tc main_arg8) = m ((c : Thread nD τ).loc main_arg8) :=
  W11_untouched m ρ c main_arg8 (by decide) (by decide) (by decide) (by decide) (by decide)
theorem W11_main_arg9 (c : Dev nD) : W11 m ρ c (Proc.devRef .tc main_arg9) = m ((c : Thread nD τ).loc main_arg9) :=
  W11_untouched m ρ c main_arg9 (by decide) (by decide) (by decide) (by decide) (by decide)
theorem W11_main_arg10 (c : Dev nD) : W11 m ρ c (Proc.devRef .tc main_arg10) = m ((c : Thread nD τ).loc main_arg10) :=
  W11_untouched m ρ c main_arg10 (by decide) (by decide) (by decide) (by decide) (by decide)
theorem W11_main_arg11 (c : Dev nD) : W11 m ρ c (Proc.devRef .tc main_arg11) = m ((c : Thread nD τ).loc main_arg11) :=
  W11_untouched m ρ c main_arg11 (by decide) (by decide) (by decide) (by decide) (by decide)

/-- The result buffer ends at what the last region's write-back leaves. -/
theorem W11_result (c : Dev nD) : W11 m ρ c (Proc.devRef .tc main_v73) = (dat6 (V10 m ρ) c).arrAt 5 cfg6.N :=
  W11_arr m ρ c 5

/-! ## The proof data family and the thread state -/

abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V8 m ρ) c
  | ⟨6, _⟩ => fun c => dat6 (V10 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at W1, left with them at W2. Its arrays are
    split out of the unscoped buffers and put back at their exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W2, left with them at W3. Its arrays are
    split out of the unscoped buffers and put back at their exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W4, left with them at W5. Its arrays are
    split out of the unscoped buffers and put back at their exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W5, left with them at W6. Its arrays are
    split out of the unscoped buffers and put back at their exit contents; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at W7, left with them at W8. Its arrays are
    split out of the unscoped buffers and put back at their exit contents; the generator register goes into the
    pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at W8, left with them at W9. Its arrays are
    split out of the unscoped buffers and put back at their exit contents; the generator register goes into the
    pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at W10, left with them at W11. Its arrays are
    split out of the unscoped buffers and put back at their exit contents; the generator register goes into the
    pipeline's invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .region (reg5 m ρ),
    .host (hseg hostOps6 hostOps6_sub hostOps6_fresh (W9 m ρ)),
    .region (reg6 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final memory has every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c),
    (h c _ (mem_uc main_arg8 (by decide))).trans (W11_main_arg8 m ρ c),
    (h c _ (mem_uc main_arg9 (by decide))).trans (W11_main_arg9 m ρ c),
    (h c _ (mem_uc main_arg10 (by decide))).trans (W11_main_arg10 m ρ c),
    (h c _ (mem_uc main_arg11 (by decide))).trans (W11_main_arg11 m ρ c)⟩) (run m ρ)

/-- THE RESULT: the result buffer ends at what the last region leaves, and every argument array as launched. -/
theorem run_result : θ_run defs (onTc (τ := τ) (main (F := F))) ⟨m, fun _ => 0, ρ⟩ (fun r => ∀ c : Dev nD,
      r.2.mem ((c.tc : Thread nD τ).loc main_v73) = (dat6 (V10 m ρ) c).arrAt 5 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v73 (by decide))).trans (W11_result m ρ c),
    (h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c),
    (h c _ (mem_uc main_arg8 (by decide))).trans (W11_main_arg8 m ρ c),
    (h c _ (mem_uc main_arg9 (by decide))).trans (W11_main_arg9 m ρ c),
    (h c _ (mem_uc main_arg10 (by decide))).trans (W11_main_arg10 m ρ c),
    (h c _ (mem_uc main_arg11 (by decide))).trans (W11_main_arg11 m ρ c)⟩) (run m ρ)

end Cert.KernelIdeal.Run

end
-- ==== Proof.K.Gin0.lean ====
/-
  One graph-convolution layer's dense half as a pipelined region (region 0 of the program): rows of the node
  features h and of the neighbour sums, 4000 at a time over 25 grid points, go through
  relu(relu((h + nb) · W1 + b1) · W2 + b2); the two weight matrices and the two bias rows are the same block at
  every point. Here: each window's block at a point, what the body leaves in the output's buffer as a function of
  the six input blocks, the body's triple, the pipeline's proof data and its obligation at every point.
  Everything is stated at any float instance F, over the contents V the region finds.
-/
import proofs.«410827_j82411832476193_1_alg».proof.Proof.Gen.Kernel.Launch
import proofs.«410827_j82411832476193_1_alg».proof.Proof.Gen.Kernel.Skeleton
import proofs.«410827_j82411832476193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not
    fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not
    fetched its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: where it is not
    fetched its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not: where it is not
    fetched its block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rA0 : Rect S4000x128 := Rect.unit (s := S4000x128) ![0, 0] S4000x128.size inb_S4000x128_S4000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output's buffer after the body: its one store, of the layer's arithmetic on the six loaded blocks. -/
def out0_6 (x0 : Vec F S4000x128 .f32) (x1 : Vec F S4000x128 .f32) (x2 : Vec F S128x128 .f32) (x3 : Vec F S1x128 .f32)
    (x4 : Vec F S128x128 .f32) (x5 : Vec F S1x128 .f32) : Vec F S4000x128 .f32 :=
  View.canon [⟨rA0, k0_pay1 (View.ld x0 rA0) (View.ld x1 rA0) (View.ld x2 rW0) (View.ld x3 rB0) (View.ld x4 rW0) (View.ld x5 rB0)⟩]

/-- The store covers the buffer. -/
theorem cover0_6 (p0 : Vec F S4000x128 .f32) (y : S4000x128.Idx) :
    ∃ pc ∈ ([⟨rA0, p0⟩] : List (View.Piece (Elt F) S4000x128 .f32)), y ∈ pc.1.set :=
  View.cover_of_tiled [⟨rA0, p0⟩] S4000x128.size (by rfl) y

/-! ## The body's triple -/

set_option maxHeartbeats 4000000 in
/-- On whole buffers, the inputs' holding x0 … x5 and the output's anything, the body runs to its continuation with the
    inputs' as they were and the output's at out0_6 of them. -/
theorem sound_kernel0 (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S1x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- Region 0's proof data on core c: the arrays as the region finds them; after the body at point t each input's buffer
    at its block and the output's at out0_6 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation the pipeline asks, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.K.Pool1.lean ====
/-
  One layer's graph pooling as a pipelined region (region 1 of the program): 50 grid points, each taking 2000 rows
  of the layer's output and their graph ids; the one output block, 1024 padded graph rows, stays in its buffer
  over the whole grid and is written back after the last point. Point 0 first clears the block; every point then
  adds, for each graph row g, the rows of its 2000 whose id equals g (an equality mask times the rows, summed by
  the matrix unit). Here: the two control cases' runs, what the block holds after each point (a recursion on the
  point), the pipeline's proof data and its obligation. At any float instance F, over the contents V found at entry.
-/
import proofs.«410827_j82411832476193_1_alg».proof.Proof.Gen.Kernel.Launch
import proofs.«410827_j82411832476193_1_alg».proof.Proof.Gen.Kernel.Skeleton
import proofs.«410827_j82411832476193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch: "is this the first point?" -/

/-- The guard of the clearing branch, as the body computes it from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 50 = 0 :=
  (by decide +kernel : ∀ t : Fin grid1.N, cond1_0 (grid1.coords t) ↔ t.val % 50 = 0)

/-- A buffer of the output window, through which its contents are stated (which one does not matter). -/
abbrev VO1_2 : View sig .tc .vmem S1024x128 .f32 := (Memref.whole cc1_stg2_0 : Memref sig .tc .vmem S1024x128 .f32).view
/-- Each window's current buffer at point t, as the pipeline passes it to the body. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)

/-! ## The body's run in each case: the pieces its stores leave in the output's buffer -/

set_option maxHeartbeats 4000000 in
/-- FIRST POINT (the guard holds): the block is cleared, then the point's sums are added to the cleared block. The
    output's buffer may hold anything before. -/
noncomputable def kernelRun1_A (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond1_0 i) (x0 : Vec F S2000x128 .f32) (x1 : Vec F S2000x1 .i32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc1__pool_kernel i arg1 harg1 arg2 harg2 arg3 harg3) K } := by
  refine ⟨?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 4000000 in
/-- LATER POINTS (the guard fails): the point's sums are added to what the block holds, xo2. -/
noncomputable def kernelRun1_B (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond1_0 i) (x0 : Vec F S2000x128 .f32) (x1 : Vec F S2000x1 .i32) (xo2 : Vec F S1024x128 .f32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc1__pool_kernel i arg1 harg1 arg2 harg2 arg3 harg3) K } := by
  refine ⟨?_, fun E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The first point's stores cover the block. -/
theorem cover1_A_2 (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond1_0 i) (x0 : Vec F S2000x128 .f32) (x1 : Vec F S2000x1 .i32) (y : S1024x128.Idx) :
    ∃ pc ∈ (kernelRun1_A c i arg1 harg1 arg2 harg2 arg3 harg3 hc0 x0 x1).1, y ∈ pc.1.set :=
  View.cover_of_tiledL (kernelRun1_A c i arg1 harg1 arg2 harg2 arg3 harg3 hc0 x0 x1).1 S1024x128.size (by sl_kernel_rfl) y

/-- What the first point leaves in the block. -/
def out1_A_2 (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond1_0 i) (x0 : Vec F S2000x128 .f32) (x1 : Vec F S2000x1 .i32) : Vec F S1024x128 .f32 :=
  VO1_2.read (Elt F) (VO1_2.writes (Elt F) VO1_2.junk (kernelRun1_A c i arg1 harg1 arg2 harg2 arg3 harg3 hc0 x0 x1).1)

/-- A later point's store covers the block. -/
theorem cover1_B_2 (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond1_0 i) (x0 : Vec F S2000x128 .f32) (x1 : Vec F S2000x1 .i32) (xo2 : Vec F S1024x128 .f32) (y : S1024x128.Idx) :
    ∃ pc ∈ (kernelRun1_B c i arg1 harg1 arg2 harg2 arg3 harg3 hc0 x0 x1 xo2).1, y ∈ pc.1.set :=
  View.cover_of_tiledL (kernelRun1_B c i arg1 harg1 arg2 harg2 arg3 harg3 hc0 x0 x1 xo2).1 S1024x128.size (by sl_kernel_rfl) y

/-- What a later point leaves in the block, over what it held. -/
def out1_B_2 (c : Dev nD) (i : grid1.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond1_0 i) (x0 : Vec F S2000x128 .f32) (x1 : Vec F S2000x1 .i32) (xo2 : Vec F S1024x128 .f32) : Vec F S1024x128 .f32 :=
  VO1_2.read (Elt F) (VO1_2.writes (Elt F) VO1_2.junk (kernelRun1_B c i arg1 harg1 arg2 harg2 arg3 harg3 hc0 x0 x1 xo2).1)

/-! ## What the block holds after each point -/

/-- THE ACCUMULATION: after point 0 the first case's contents; after point n + 1 the later case's over what point n left. -/
def outsAt1 (c : Dev nD) : (n : ℕ) → n < cfg1.N → Vec F S1024x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 50 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 50 = 0) :
    outsAt1 V c t.val t.isLt = out1_A_2 c (grid1.coords t) (ms1_0 t) (hs1_0 t) (ms1_1 t) (hs1_1 t) (ms1_2 t) (hs1_2 t)
      ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 50 = 0) :
    outsAt1 V c t.val t.isLt = out1_B_2 c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later point the output's buffer holds what the body left at the point before: it is not written back between. -/
theorem before1_2_B (c : Dev nD) (t : Fin cfg1.N) (h0 : ¬t.val % 50 = 0) (d) :
    (dat1 V c).before 2 t d = (outsAt1 V c (t.val - 1) (Nat.lt_of_le_of_lt (Nat.sub_le _ _) t.isLt)) := by
  have hN : t.val < 50 := lt_of_lt_of_eq t.isLt (show cfg1.N = 50 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 50 := lt_of_lt_of_eq t.isLt (show cfg1.N = 50 from N_1)
  by_cases h0 : t.val % 50 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.K.Gin2.lean ====
/-
  One graph-convolution layer's dense half as a pipelined region (region 2 of the program): rows of the node
  features h and of the neighbour sums, 4000 at a time over 25 grid points, go through
  relu(relu((h + nb) · W1 + b1) · W2 + b2); the two weight matrices and the two bias rows are the same block at
  every point. Here: each window's block at a point, what the body leaves in the output's buffer as a function of
  the six input blocks, the body's triple, the pipeline's proof data and its obligation at every point.
  Everything is stated at any float instance F, over the contents V the region finds.
-/
import proofs.«410827_j82411832476193_1_alg».proof.Proof.Gen.Kernel.Launch
import proofs.«410827_j82411832476193_1_alg».proof.Proof.Gen.Kernel.Skeleton
import proofs.«410827_j82411832476193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not: where it is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not: where it is not
    fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not: where it is not
    fetched its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not: where it is not
    fetched its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, fetched there or not: where it is not
    fetched its block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev rA2 : Rect S4000x128 := Rect.unit (s := S4000x128) ![0, 0] S4000x128.size inb_S4000x128_S4000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The output's buffer after the body: its one store, of the layer's arithmetic on the six loaded blocks. -/
def out2_6 (x0 : Vec F S4000x128 .f32) (x1 : Vec F S4000x128 .f32) (x2 : Vec F S128x128 .f32) (x3 : Vec F S1x128 .f32)
    (x4 : Vec F S128x128 .f32) (x5 : Vec F S1x128 .f32) : Vec F S4000x128 .f32 :=
  View.canon [⟨rA2, k2_pay1 (View.ld x0 rA2) (View.ld x1 rA2) (View.ld x2 rW2) (View.ld x3 rB2) (View.ld x4 rW2) (View.ld x5 rB2)⟩]

/-- The store covers the buffer. -/
theorem cover2_6 (p0 : Vec F S4000x128 .f32) (y : S4000x128.Idx) :
    ∃ pc ∈ ([⟨rA2, p0⟩] : List (View.Piece (Elt F) S4000x128 .f32)), y ∈ pc.1.set :=
  View.cover_of_tiled [⟨rA2, p0⟩] S4000x128.size (by rfl) y

/-! ## The body's triple -/

set_option maxHeartbeats 4000000 in
/-- On whole buffers, the inputs' holding x0 … x5 and the output's anything, the body runs to its continuation with the
    inputs' as they were and the output's at out2_6 of them. -/
theorem sound_kernel2 (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S1x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- Region 2's proof data on core c: the arrays as the region finds them; after the body at point t each input's buffer
    at its block and the output's at out2_6 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation the pipeline asks, at every point. -/
theorem body_obligation2 (c : Dev nD) : BodyObligation (dat2 (F := F) V c) (defs₀ (F := F)) Variants.none () Set.univ := fun t => by
  rw [bigSep_W2, bigSep_W2]
  exact sound_body2 V c t

end Cert.Kernel.Run

end
-- ==== Proof.K.Pool3.lean ====
/-
  One layer's graph pooling as a pipelined region (region 3 of the program): 50 grid points, each taking 2000 rows
  of the layer's output and their graph ids; the one output block, 1024 padded graph rows, stays in its buffer
  over the whole grid and is written back after the last point. Point 0 first clears the block; every point then
  adds, for each graph row g, the rows of its 2000 whose id equals g (an equality mask times the rows, summed by
  the matrix unit). Here: the two control cases' runs, what the block holds after each point (a recursion on the
  point), the pipeline's proof data and its obligation. At any float instance F, over the contents V found at entry.
-/
import proofs.«410827_j82411832476193_1_alg».proof.Proof.Gen.Kernel.Launch
import proofs.«410827_j82411832476193_1_alg».proof.Proof.Gen.Kernel.Skeleton
import proofs.«410827_j82411832476193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch: "is this the first point?" -/

/-- The guard of the clearing branch, as the body computes it from the grid coordinate. -/
abbrev cond3_0 (i : grid3.Coords) : Prop := (Scalar.cmpi .ne (Scalar.extui (Scalar.cmpi .eq (BitVec.ofNat 32 (i 0).val) 0#32)) 0#32) = 1#1
/-- It holds at point 0 only. -/
theorem hcond3_0 : ∀ t : Fin cfg3.N, cond3_0 (grid3.coords t) ↔ t.val % 50 = 0 :=
  (by decide +kernel : ∀ t : Fin grid3.N, cond3_0 (grid3.coords t) ↔ t.val % 50 = 0)

/-- A buffer of the output window, through which its contents are stated (which one does not matter). -/
abbrev VO3_2 : View sig .tc .vmem S1024x128 .f32 := (Memref.whole cc3_stg2_0 : Memref sig .tc .vmem S1024x128 .f32).view
/-- Each window's current buffer at point t, as the pipeline passes it to the body. -/
abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)

/-! ## The body's run in each case: the pieces its stores leave in the output's buffer -/

set_option maxHeartbeats 4000000 in
/-- FIRST POINT (the guard holds): the block is cleared, then the point's sums are added to the cleared block. The
    output's buffer may hold anything before. -/
noncomputable def kernelRun3_A (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond3_0 i) (x0 : Vec F S2000x128 .f32) (x1 : Vec F S2000x1 .i32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc3__pool_kernel i arg1 harg1 arg2 harg2 arg3 harg3) K } := by
  refine ⟨?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 4000000 in
/-- LATER POINTS (the guard fails): the point's sums are added to what the block holds, xo2. -/
noncomputable def kernelRun3_B (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond3_0 i) (x0 : Vec F S2000x128 .f32) (x1 : Vec F S2000x1 .i32) (xo2 : Vec F S1024x128 .f32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc3__pool_kernel i arg1 harg1 arg2 harg2 arg3 harg3) K } := by
  refine ⟨?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The first point's stores cover the block. -/
theorem cover3_A_2 (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond3_0 i) (x0 : Vec F S2000x128 .f32) (x1 : Vec F S2000x1 .i32) (y : S1024x128.Idx) :
    ∃ pc ∈ (kernelRun3_A c i arg1 harg1 arg2 harg2 arg3 harg3 hc0 x0 x1).1, y ∈ pc.1.set :=
  View.cover_of_tiledL (kernelRun3_A c i arg1 harg1 arg2 harg2 arg3 harg3 hc0 x0 x1).1 S1024x128.size (by sl_kernel_rfl) y

/-- What the first point leaves in the block. -/
def out3_A_2 (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond3_0 i) (x0 : Vec F S2000x128 .f32) (x1 : Vec F S2000x1 .i32) : Vec F S1024x128 .f32 :=
  VO3_2.read (Elt F) (VO3_2.writes (Elt F) VO3_2.junk (kernelRun3_A c i arg1 harg1 arg2 harg2 arg3 harg3 hc0 x0 x1).1)

/-- A later point's store covers the block. -/
theorem cover3_B_2 (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond3_0 i) (x0 : Vec F S2000x128 .f32) (x1 : Vec F S2000x1 .i32) (xo2 : Vec F S1024x128 .f32) (y : S1024x128.Idx) :
    ∃ pc ∈ (kernelRun3_B c i arg1 harg1 arg2 harg2 arg3 harg3 hc0 x0 x1 xo2).1, y ∈ pc.1.set :=
  View.cover_of_tiledL (kernelRun3_B c i arg1 harg1 arg2 harg2 arg3 harg3 hc0 x0 x1 xo2).1 S1024x128.size (by sl_kernel_rfl) y

/-- What a later point leaves in the block, over what it held. -/
def out3_B_2 (c : Dev nD) (i : grid3.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond3_0 i) (x0 : Vec F S2000x128 .f32) (x1 : Vec F S2000x1 .i32) (xo2 : Vec F S1024x128 .f32) : Vec F S1024x128 .f32 :=
  VO3_2.read (Elt F) (VO3_2.writes (Elt F) VO3_2.junk (kernelRun3_B c i arg1 harg1 arg2 harg2 arg3 harg3 hc0 x0 x1 xo2).1)

/-! ## What the block holds after each point -/

/-- THE ACCUMULATION: after point 0 the first case's contents; after point n + 1 the later case's over what point n left. -/
def outsAt3 (c : Dev nD) : (n : ℕ) → n < cfg3.N → Vec F S1024x128 .f32
  | 0, hn => out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩)
      ((hcond3_0 ⟨0, hn⟩).mpr (Nat.zero_mod _)) (iblk3 V c 0 ⟨0, hn⟩) (iblk3 V c 1 ⟨0, hn⟩)
  | n + 1, hn =>
    if h0 : (n + 1) % 50 = 0 then
      out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩)
        ((hcond3_0 ⟨n + 1, hn⟩).mpr h0) (iblk3 V c 0 ⟨n + 1, hn⟩) (iblk3 V c 1 ⟨n + 1, hn⟩)
    else
      out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩)
        (fun h => h0 ((hcond3_0 ⟨n + 1, hn⟩).mp h)) (iblk3 V c 0 ⟨n + 1, hn⟩) (iblk3 V c 1 ⟨n + 1, hn⟩) (outsAt3 c n (Nat.lt_of_succ_lt hn))

theorem outsAt3_A (c : Dev nD) (t : Fin cfg3.N) (h0 : t.val % 50 = 0) :
    outsAt3 V c t.val t.isLt = out3_A_2 c (grid3.coords t) (ms3_0 t) (hs3_0 t) (ms3_1 t) (hs3_1 t) (ms3_2 t) (hs3_2 t)
      ((hcond3_0 t).mpr h0) (iblk3 V c 0 t) (iblk3 V c 1 t) := by
  obtain ⟨n, hn⟩ := t
  cases n with
  | zero => exact rfl
  | succ n => exact (dif_pos h0).trans rfl

theorem outsAt3_B (c : Dev nD) (t : Fin cfg3.N) (h0 : ¬t.val % 50 = 0) :
    outsAt3 V c t.val t.isLt = out3_B_2 c (grid3.coords t) (ms3_0 t) (hs3_0 t) (ms3_1 t) (hs3_1 t) (ms3_2 t) (hs3_2 t)
      (fun h => h0 ((hcond3_0 t).mp h)) (iblk3 V c 0 t) (iblk3 V c 1 t)
      (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
/-- At a later point the output's buffer holds what the body left at the point before: it is not written back between. -/
theorem before3_2_B (c : Dev nD) (t : Fin cfg3.N) (h0 : ¬t.val % 50 = 0) (d) :
    (dat3 V c).before 2 t d = (outsAt3 V c (t.val - 1) (Nat.lt_of_le_of_lt (Nat.sub_le _ _) t.isLt)) := by
  have hN : t.val < 50 := lt_of_lt_of_eq t.isLt (show cfg3.N = 50 from N_3)
  rw [Dat.before_out_kept _ 2 rfl t (by omega) (Bool.eq_false_iff.mpr fun h => by have := (flush3_2 _).mp h; dsimp only at this; omega)
    (fun _ => rfl) (fun _ _ => rfl)]
  dsimp only [dat3]

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  have hN : t.val < 50 := lt_of_lt_of_eq t.isLt (show cfg3.N = 50 from N_3)
  by_cases h0 : t.val % 50 = 0
  · rw [outsAt3_A V c t h0]
    unfold out3_A_2
    iintro ⟨HΦ, Ho, ⟨%d0, H0⟩, ⟨%d1, H1⟩, ⟨%d2, H2⟩⟩
    iapply ((kernelRun3_A c (grid3.coords t) _ _ _ _ _ _ ((hcond3_0 t).mpr h0) (iblk3 V c 0 t) (iblk3 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover3_A_2 c _ _ _ _ _ _ _ _ _ _)
  · rw [outsAt3_B V c t h0]
    simp only [before3_2_B V c t h0]
    unfold out3_B_2
    iintro ⟨HΦ, Ho, ⟨%d0, H0⟩, ⟨%d1, H1⟩, ⟨%d2, H2⟩⟩
    iapply ((kernelRun3_B c (grid3.coords t) _ _ _ _ _ _ (fun h => h0 ((hcond3_0 t).mp h)) (iblk3 V c 0 t) (iblk3 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover3_B_2 c _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.Kernel.Run

end
-- ==== Proof.K.Gin4.lean ====
/-
  One graph-convolution layer's dense half as a pipelined region (region 4 of the program): rows of the node
  features h and of the neighbour sums, 4000 at a time over 25 grid points, go through
  relu(relu((h + nb) · W1 + b1) · W2 + b2); the two weight matrices and the two bias rows are the same block at
  every point. Here: each window's block at a point, what the body leaves in the output's buffer as a function of
  the six input blocks, the body's triple, the pipeline's proof data and its obligation at every point.
  Everything is stated at any float instance F, over the contents V the region finds.
-/
import proofs.«410827_j82411832476193_1_alg».proof.Proof.Gen.Kernel.Launch
import proofs.«410827_j82411832476193_1_alg».proof.Proof.Gen.Kernel.Skeleton
import proofs.«410827_j82411832476193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, fetched there or not: where it is not
    fetched its block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, fetched there or not: where it is not
    fetched its block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, fetched there or not: where it is not
    fetched its block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current buffer holds its block at every point, fetched there or not: where it is not
    fetched its block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current buffer holds its block at every point, fetched there or not: where it is not
    fetched its block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current buffer holds its block at every point, fetched there or not: where it is not
    fetched its block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev rA4 : Rect S4000x128 := Rect.unit (s := S4000x128) ![0, 0] S4000x128.size inb_S4000x128_S4000x128_0_0
abbrev rW4 : Rect S128x128 := Rect.unit (s := S128x128) ![0, 0] S128x128.size inb_S128x128_S128x128_0_0
abbrev rB4 : Rect S1x128 := Rect.unit (s := S1x128) ![0, 0] S1x128.size inb_S1x128_S1x128_0_0

/-- The output's buffer after the body: its one store, of the layer's arithmetic on the six loaded blocks. -/
def out4_6 (x0 : Vec F S4000x128 .f32) (x1 : Vec F S4000x128 .f32) (x2 : Vec F S128x128 .f32) (x3 : Vec F S1x128 .f32)
    (x4 : Vec F S128x128 .f32) (x5 : Vec F S1x128 .f32) : Vec F S4000x128 .f32 :=
  View.canon [⟨rA4, k4_pay1 (View.ld x0 rA4) (View.ld x1 rA4) (View.ld x2 rW4) (View.ld x3 rB4) (View.ld x4 rW4) (View.ld x5 rB4)⟩]

/-- The store covers the buffer. -/
theorem cover4_6 (p0 : Vec F S4000x128 .f32) (y : S4000x128.Idx) :
    ∃ pc ∈ ([⟨rA4, p0⟩] : List (View.Piece (Elt F) S4000x128 .f32)), y ∈ pc.1.set :=
  View.cover_of_tiled [⟨rA4, p0⟩] S4000x128.size (by rfl) y

/-! ## The body's triple -/

set_option maxHeartbeats 4000000 in
/-- On whole buffers, the inputs' holding x0 … x5 and the output's anything, the body runs to its continuation with the
    inputs' as they were and the output's at out4_6 of them. -/
theorem sound_kernel4 (c : Dev nD) (E : Set ℕ) (i : grid4.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S1x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__gin_layer_kernel i arg1 harg1 arg2 harg2 arg3 harg3 arg4 harg4 arg5 harg5 arg6 harg6 arg7 harg7) K := by
  simp only [cc4__gin_layer_kernel_eq_skeleton]; unfold cc4__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- Region 4's proof data on core c: the arrays as the region finds them; after the body at point t each input's buffer
    at its block and the output's at out4_6 of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by
  dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation the pipeline asks, at every point. -/
theorem body_obligation4 (c : Dev nD) : BodyObligation (dat4 (F := F) V c) (defs₀ (F := F)) Variants.none () Set.univ := fun t => by
  rw [bigSep_W4, bigSep_W4]
  exact sound_body4 V c t

end Cert.Kernel.Run

end
-- ==== Proof.K.Pool5.lean ====
/-
  One layer's graph pooling as a pipelined region (region 5 of the program): 50 grid points, each taking 2000 rows
  of the layer's output and their graph ids; the one output block, 1024 padded graph rows, stays in its buffer
  over the whole grid and is written back after the last point. Point 0 first clears the block; every point then
  adds, for each graph row g, the rows of its 2000 whose id equals g (an equality mask times the rows, summed by
  the matrix unit). Here: the two control cases' runs, what the block holds after each point (a recursion on the
  point), the pipeline's proof data and its obligation. At any float instance F, over the contents V found at entry.
-/
import proofs.«410827_j82411832476193_1_alg».proof.Proof.Gen.Kernel.Launch
import proofs.«410827_j82411832476193_1_alg».proof.Proof.Gen.Kernel.Skeleton
import proofs.«410827_j82411832476193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch: "is this the first point?" -/

/-- The guard of the clearing branch, as the body computes it from the grid coordinate. -/
abbrev cond5_0 (i : grid5.Coords) : Prop := (Scalar.cmpi .ne (Scalar.extui (Scalar.cmpi .eq (BitVec.ofNat 32 (i 0).val) 0#32)) 0#32) = 1#1
/-- It holds at point 0 only. -/
theorem hcond5_0 : ∀ t : Fin cfg5.N, cond5_0 (grid5.coords t) ↔ t.val % 50 = 0 :=
  (by decide +kernel : ∀ t : Fin grid5.N, cond5_0 (grid5.coords t) ↔ t.val % 50 = 0)

/-- A buffer of the output window, through which its contents are stated (which one does not matter). -/
abbrev VO5_2 : View sig .tc .vmem S1024x128 .f32 := (Memref.whole cc5_stg2_0 : Memref sig .tc .vmem S1024x128 .f32).view
/-- Each window's current buffer at point t, as the pipeline passes it to the body. -/
abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x1 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x128 .f32 := win5_2.stage (cfg5.slots t 2)
abbrev hs5_2 (t : Fin cfg5.N) : (ms5_2 t).IsWhole := hstage5_2 ((cfg5.slots t 2).cast nbuf5_2)

/-! ## The body's run in each case: the pieces its stores leave in the output's buffer -/

set_option maxHeartbeats 4000000 in
/-- FIRST POINT (the guard holds): the block is cleared, then the point's sums are added to the cleared block. The
    output's buffer may hold anything before. -/
noncomputable def kernelRun5_A (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond5_0 i) (x0 : Vec F S2000x128 .f32) (x1 : Vec F S2000x1 .i32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc5__pool_kernel i arg1 harg1 arg2 harg2 arg3 harg3) K } := by
  refine ⟨?_, fun E K => ?run⟩
  case run =>
    simp only [cc5__pool_kernel_eq_skeleton]; unfold cc5__pool_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 4000000 in
/-- LATER POINTS (the guard fails): the point's sums are added to what the block holds, xo2. -/
noncomputable def kernelRun5_B (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond5_0 i) (x0 : Vec F S2000x128 .f32) (x1 : Vec F S2000x1 .i32) (xo2 : Vec F S1024x128 .f32) :
    { L2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc5__pool_kernel i arg1 harg1 arg2 harg2 arg3 harg3) K } := by
  refine ⟨?_, fun E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The first point's stores cover the block. -/
theorem cover5_A_2 (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond5_0 i) (x0 : Vec F S2000x128 .f32) (x1 : Vec F S2000x1 .i32) (y : S1024x128.Idx) :
    ∃ pc ∈ (kernelRun5_A c i arg1 harg1 arg2 harg2 arg3 harg3 hc0 x0 x1).1, y ∈ pc.1.set :=
  View.cover_of_tiledL (kernelRun5_A c i arg1 harg1 arg2 harg2 arg3 harg3 hc0 x0 x1).1 S1024x128.size (by sl_kernel_rfl) y

/-- What the first point leaves in the block. -/
def out5_A_2 (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : cond5_0 i) (x0 : Vec F S2000x128 .f32) (x1 : Vec F S2000x1 .i32) : Vec F S1024x128 .f32 :=
  VO5_2.read (Elt F) (VO5_2.writes (Elt F) VO5_2.junk (kernelRun5_A c i arg1 harg1 arg2 harg2 arg3 harg3 hc0 x0 x1).1)

/-- A later point's store covers the block. -/
theorem cover5_B_2 (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond5_0 i) (x0 : Vec F S2000x128 .f32) (x1 : Vec F S2000x1 .i32) (xo2 : Vec F S1024x128 .f32) (y : S1024x128.Idx) :
    ∃ pc ∈ (kernelRun5_B c i arg1 harg1 arg2 harg2 arg3 harg3 hc0 x0 x1 xo2).1, y ∈ pc.1.set :=
  View.cover_of_tiledL (kernelRun5_B c i arg1 harg1 arg2 harg2 arg3 harg3 hc0 x0 x1 xo2).1 S1024x128.size (by sl_kernel_rfl) y

/-- What a later point leaves in the block, over what it held. -/
def out5_B_2 (c : Dev nD) (i : grid5.Coords) (arg1 : Memref sig .tc .vmem S2000x128 .f32) (harg1 : arg1.IsWhole)
    (arg2 : Memref sig .tc .vmem S2000x1 .i32) (harg2 : arg2.IsWhole) (arg3 : Memref sig .tc .vmem S1024x128 .f32) (harg3 : arg3.IsWhole)
    (hc0 : ¬cond5_0 i) (x0 : Vec F S2000x128 .f32) (x1 : Vec F S2000x1 .i32) (xo2 : Vec F S1024x128 .f32) : Vec F S1024x128 .f32 :=
  VO5_2.read (Elt F) (VO5_2.writes (Elt F) VO5_2.junk (kernelRun5_B c i arg1 harg1 arg2 harg2 arg3 harg3 hc0 x0 x1 xo2).1)

/-! ## What the block holds after each point -/

/-- THE ACCUMULATION: after point 0 the first case's contents; after point n + 1 the later case's over what point n left. -/
def outsAt5 (c : Dev nD) : (n : ℕ) → n < cfg5.N → Vec F S1024x128 .f32
  | 0, hn => out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩)
      ((hcond5_0 ⟨0, hn⟩).mpr (Nat.zero_mod _)) (iblk5 V c 0 ⟨0, hn⟩) (iblk5 V c 1 ⟨0, hn⟩)
  | n + 1, hn =>
    if h0 : (n + 1) % 50 = 0 then
      out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩)
        ((hcond5_0 ⟨n + 1, hn⟩).mpr h0) (iblk5 V c 0 ⟨n + 1, hn⟩) (iblk5 V c 1 ⟨n + 1, hn⟩)
    else
      out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩)
        (fun h => h0 ((hcond5_0 ⟨n + 1, hn⟩).mp h)) (iblk5 V c 0 ⟨n + 1, hn⟩) (iblk5 V c 1 ⟨n + 1, hn⟩) (outsAt5 c n (Nat.lt_of_succ_lt hn))

theorem outsAt5_A (c : Dev nD) (t : Fin cfg5.N) (h0 : t.val % 50 = 0) :
    outsAt5 V c t.val t.isLt = out5_A_2 c (grid5.coords t) (ms5_0 t) (hs5_0 t) (ms5_1 t) (hs5_1 t) (ms5_2 t) (hs5_2 t)
      ((hcond5_0 t).mpr h0) (iblk5 V c 0 t) (iblk5 V c 1 t) := by
  obtain ⟨n, hn⟩ := t
  cases n with
  | zero => exact rfl
  | succ n => exact (dif_pos h0).trans rfl

theorem outsAt5_B (c : Dev nD) (t : Fin cfg5.N) (h0 : ¬t.val % 50 = 0) :
    outsAt5 V c t.val t.isLt = out5_B_2 c (grid5.coords t) (ms5_0 t) (hs5_0 t) (ms5_1 t) (hs5_1 t) (ms5_2 t) (hs5_2 t)
      (fun h => h0 ((hcond5_0 t).mp h)) (iblk5 V c 0 t) (iblk5 V c 1 t)
      (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
/-- At a later point the output's buffer holds what the body left at the point before: it is not written back between. -/
theorem before5_2_B (c : Dev nD) (t : Fin cfg5.N) (h0 : ¬t.val % 50 = 0) (d) :
    (dat5 V c).before 2 t d = (outsAt5 V c (t.val - 1) (Nat.lt_of_le_of_lt (Nat.sub_le _ _) t.isLt)) := by
  have hN : t.val < 50 := lt_of_lt_of_eq t.isLt (show cfg5.N = 50 from N_5)
  rw [Dat.before_out_kept _ 2 rfl t (by omega) (Bool.eq_false_iff.mpr fun h => by have := (flush5_2 _).mp h; dsimp only at this; omega)
    (fun _ => rfl) (fun _ _ => rfl)]
  dsimp only [dat5]

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t))

set_option maxHeartbeats 1600000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  have hN : t.val < 50 := lt_of_lt_of_eq t.isLt (show cfg5.N = 50 from N_5)
  by_cases h0 : t.val % 50 = 0
  · rw [outsAt5_A V c t h0]
    unfold out5_A_2
    iintro ⟨HΦ, Ho, ⟨%d0, H0⟩, ⟨%d1, H1⟩, ⟨%d2, H2⟩⟩
    iapply ((kernelRun5_A c (grid5.coords t) _ _ _ _ _ _ ((hcond5_0 t).mpr h0) (iblk5 V c 0 t) (iblk5 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_A_2 c _ _ _ _ _ _ _ _ _ _)
  · rw [outsAt5_B V c t h0]
    simp only [before5_2_B V c t h0]
    unfold out5_B_2
    iintro ⟨HΦ, Ho, ⟨%d0, H0⟩, ⟨%d1, H1⟩, ⟨%d2, H2⟩⟩
    iapply ((kernelRun5_B c (grid5.coords t) _ _ _ _ _ _ (fun h => h0 ((hcond5_0 t).mp h)) (iblk5 V c 0 t) (iblk5 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_B_2 c _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

end Cert.Kernel.Run

end
-- ==== Proof.K.Proj6.lean ====
/-
  The projection head as a region (region 6 of the program, one grid point): the 1000 pooled rows of width 384,
  two weight matrices and two bias rows, each taken whole, go through relu(p · W1 + b1) · W2 + b2. Here: each
  window's block, what the body leaves in the output's buffer as a function of the five input blocks, the body's
  triple, the pipeline's proof data and its obligation. At any float instance F, over the contents V found at entry.
-/
import proofs.«410827_j82411832476193_1_alg».proof.Proof.Gen.Kernel.Launch
import proofs.«410827_j82411832476193_1_alg».proof.Proof.Gen.Kernel.Skeleton
import proofs.«410827_j82411832476193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents on every core when the region is entered: a parameter, fixed later by the run. -/
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev r6_S1000x384 : Rect S1000x384 := Rect.unit (s := S1000x384) ![0, 0] S1000x384.size inb_S1000x384_S1000x384_0_0
abbrev r6_S384x128 : Rect S384x128 := Rect.unit (s := S384x128) ![0, 0] S384x128.size inb_S384x128_S384x128_0_0
abbrev r6_S1x128 : Rect S1x128 := Rect.unit (s := S1x128) ![0, 0] S1x128.size inb_S1x128_S1x128_0_0
abbrev r6_S128x128 : Rect S128x128 := Rect.unit (s := S128x128) ![0, 0] S128x128.size inb_S128x128_S128x128_0_0
abbrev r6_S1000x128 : Rect S1000x128 := Rect.unit (s := S1000x128) ![0, 0] S1000x128.size inb_S1000x128_S1000x128_0_0

/-- The output's buffer after the body: its one store, of the body's arithmetic on the loaded blocks. -/
def out6_5 (x0 : Vec F S1000x384 .f32) (x1 : Vec F S384x128 .f32) (x2 : Vec F S1x128 .f32) (x3 : Vec F S128x128 .f32) (x4 : Vec F S1x128 .f32) : Vec F S1000x128 .f32 :=
  View.canon [⟨r6_S1000x128, k6_pay1 (View.ld x0 r6_S1000x384) (View.ld x1 r6_S384x128) (View.ld x2 r6_S1x128) (View.ld x3 r6_S128x128) (View.ld x4 r6_S1x128)⟩]

/-- The store covers the buffer. -/
theorem cover6_5 (p0 : Vec F S1000x128 .f32) (y : S1000x128.Idx) :
    ∃ pc ∈ ([⟨r6_S1000x128, p0⟩] : List (View.Piece (Elt F) S1000x128 .f32)), y ∈ pc.1.set :=
  View.cover_of_tiled [⟨r6_S1000x128, p0⟩] S1000x128.size (by rfl) y

/-! ## The body's triple -/

set_option maxHeartbeats 4000000 in
/-- On whole buffers, the inputs' holding their read contents and the output's anything, the body runs to its
    continuation with the inputs' as they were and the output's at out6_5 of them. -/
theorem sound_kernel6 (c : Dev nD) (E : Set ℕ) (i : grid6.Coords)
    (arg1 : Memref sig .tc .vmem S1000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1000x128 .f32) (harg6 : arg6.IsWhole)
    (x0 : Vec F S1000x384 .f32) (x1 : Vec F S384x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__proj_kernel i arg1 harg1 arg2 harg2 arg3 harg3 arg4 harg4 arg5 harg5 arg6 harg6) K := by
  simp only [cc6__proj_kernel_eq_skeleton]; unfold cc6__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The region's proof data on core c: the arrays as the region finds them; after the body at point t each input's buffer
    at its block and the output's at out6_5 of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline asks, at every point. -/
theorem body_obligation6 (c : Dev nD) : BodyObligation (dat6 (F := F) V c) (defs₀ (F := F)) Variants.none () Set.univ := fun t => by
  rw [bigSep_W6, bigSep_W6]
  exact sound_body6 V c t

end Cert.Kernel.Run

end
-- ==== Proof.K.Run.lean ====
/-
  The whole program as a run: four stretches of host operations and seven pipelined regions, in @main's order. The
  contents of every buffer at each of the twelve boundaries are a fold from the launch memory: a host stretch applies
  its operations, a region replaces its output's array by what its write-backs leave and keeps every other buffer.
  From one region record per pallas_call (its proof data entered at the boundary's contents, its body obligation) and
  one host segment per stretch, every weakly fair execution terminates and ends with every unscoped buffer at the
  last boundary's contents. Two readings of that: each argument array ends as launched, and the result buffer holds
  what the last region leaves. At any float instance F.
-/
import proofs.«410827_j82411832476193_1_alg».proof.Proof.K.Gin0
import proofs.«410827_j82411832476193_1_alg».proof.Proof.K.Pool1
import proofs.«410827_j82411832476193_1_alg».proof.Proof.K.Gin2
import proofs.«410827_j82411832476193_1_alg».proof.Proof.K.Pool3
import proofs.«410827_j82411832476193_1_alg».proof.Proof.K.Gin4
import proofs.«410827_j82411832476193_1_alg».proof.Proof.K.Pool5
import proofs.«410827_j82411832476193_1_alg».proof.Proof.K.Proj6
import proofs.«410827_j82411832476193_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)

/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer the stretch does not write is as before it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes one buffer only, its output's array: an array it stages as an input ends as entered. -/
theorem keep0 (c : Dev nD) (b : Ref sig .tc) (hb : b ≠ main_v21) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    have hw := not_not.mp hw
    subst hw
    have hin : (cfg0.win w).isOut = false := by
      revert hb; revert w; decide
    exact (W2_arr m ρ c w).trans (((dat0 (V1 m ρ) c).arrAt_in w hin _).trans (A_eq0 (V1 m ρ) c w))

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- Region 1 changes one buffer only, its output's array: an array it stages as an input ends as entered. -/
theorem keep1 (c : Dev nD) (b : Ref sig .tc) (hb : b ≠ main_v22) :
    W3 m ρ c (Proc.devRef .tc b) = W2 m ρ c (Proc.devRef .tc b) := by
  by_cases h : ∀ w, Pipeline.arrRef spec1 w ≠ b
  · exact W3_of_ne m ρ c b h
  · obtain ⟨w, hw⟩ := not_forall.mp h
    have hw := not_not.mp hw
    subst hw
    have hin : (cfg1.win w).isOut = false := by
      revert hb; revert w; decide
    exact (W3_arr m ρ c w).trans (((dat1 (V2 m ρ) c).arrAt_in w hin _).trans (A_eq1 (V2 m ρ) c w))

/-- After the host stretch hostOps2. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- A buffer the stretch does not write is as before it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h

/-- At region 2's exit: its arrays at what the pipeline leaves (the inputs as entered, the output's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- Region 2 changes one buffer only, its output's array: an array it stages as an input ends as entered. -/
theorem keep2 (c : Dev nD) (b : Ref sig .tc) (hb : b ≠ main_v44) :
    W5 m ρ c (Proc.devRef .tc b) = W4 m ρ c (Proc.devRef .tc b) := by
  by_cases h : ∀ w, Pipeline.arrRef spec2 w ≠ b
  · exact W5_of_ne m ρ c b h
  · obtain ⟨w, hw⟩ := not_forall.mp h
    have hw := not_not.mp hw
    subst hw
    have hin : (cfg2.win w).isOut = false := by
      revert hb; revert w; decide
    exact (W5_arr m ρ c w).trans (((dat2 (V4 m ρ) c).arrAt_in w hin _).trans (A_eq2 (V4 m ρ) c w))

/-- At region 3's exit: its arrays at what the pipeline leaves (the inputs as entered, the output's write-backs folded),
    every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)
/-- Region 3 changes one buffer only, its output's array: an array it stages as an input ends as entered. -/
theorem keep3 (c : Dev nD) (b : Ref sig .tc) (hb : b ≠ main_v45) :
    W6 m ρ c (Proc.devRef .tc b) = W5 m ρ c (Proc.devRef .tc b) := by
  by_cases h : ∀ w, Pipeline.arrRef spec3 w ≠ b
  · exact W6_of_ne m ρ c b h
  · obtain ⟨w, hw⟩ := not_forall.mp h
    have hw := not_not.mp hw
    subst hw
    have hin : (cfg3.win w).isOut = false := by
      revert hb; revert w; decide
    exact (W6_arr m ρ c w).trans (((dat3 (V5 m ρ) c).arrAt_in w hin _).trans (A_eq3 (V5 m ρ) c w))

/-- After the host stretch hostOps4. -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
/-- A buffer the stretch does not write is as before it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h

/-- At region 4's exit: its arrays at what the pipeline leaves (the inputs as entered, the output's write-backs folded),
    every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- Region 4 changes one buffer only, its output's array: an array it stages as an input ends as entered. -/
theorem keep4 (c : Dev nD) (b : Ref sig .tc) (hb : b ≠ main_v67) :
    W8 m ρ c (Proc.devRef .tc b) = W7 m ρ c (Proc.devRef .tc b) := by
  by_cases h : ∀ w, Pipeline.arrRef spec4 w ≠ b
  · exact W8_of_ne m ρ c b h
  · obtain ⟨w, hw⟩ := not_forall.mp h
    have hw := not_not.mp hw
    subst hw
    have hin : (cfg4.win w).isOut = false := by
      revert hb; revert w; decide
    exact (W8_arr m ρ c w).trans (((dat4 (V7 m ρ) c).arrAt_in w hin _).trans (A_eq4 (V7 m ρ) c w))

/-- At region 5's exit: its arrays at what the pipeline leaves (the inputs as entered, the output's write-backs folded),
    every other buffer as entered. -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)
/-- Region 5 changes one buffer only, its output's array: an array it stages as an input ends as entered. -/
theorem keep5 (c : Dev nD) (b : Ref sig .tc) (hb : b ≠ main_v68) :
    W9 m ρ c (Proc.devRef .tc b) = W8 m ρ c (Proc.devRef .tc b) := by
  by_cases h : ∀ w, Pipeline.arrRef spec5 w ≠ b
  · exact W9_of_ne m ρ c b h
  · obtain ⟨w, hw⟩ := not_forall.mp h
    have hw := not_not.mp hw
    subst hw
    have hin : (cfg5.win w).isOut = false := by
      revert hb; revert w; decide
    exact (W9_arr m ρ c w).trans (((dat5 (V8 m ρ) c).arrAt_in w hin _).trans (A_eq5 (V8 m ρ) c w))

/-- After the host stretch hostOps6. -/
abbrev W10 : Dev nD → Valuation τ sig (Elt F) := fun c => StableHlo.after hostOps6 (W9 m ρ c)
abbrev V10 : (c : Dev nD) → (b : Ref sig .tc) → Buf (Elt F) ((c : Thread nD τ).loc b) := fun c b => W10 m ρ c b
/-- A buffer the stretch does not write is as before it. -/
theorem W10_of (c : Dev nD) (r : Ref sig .tc) (h : r ∉ hostOps6_W) : W10 m ρ c (Proc.devRef .tc r) = W9 m ρ c (Proc.devRef .tc r) :=
  StableHlo.after_of_writes_sub hostOps6 _ hostOps6_writes h

/-- At region 6's exit: its arrays at what the pipeline leaves (the inputs as entered, the output's write-backs folded),
    every other buffer as entered. -/
def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
abbrev V11 : (c : Dev nD) → (b : Ref sig .tc) → Buf (Elt F) ((c : Thread nD τ).loc b) := fun c b => W11 m ρ c b
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)
/-- Region 6 changes one buffer only, its output's array: an array it stages as an input ends as entered. -/
theorem keep6 (c : Dev nD) (b : Ref sig .tc) (hb : b ≠ main_v73) :
    W11 m ρ c (Proc.devRef .tc b) = W10 m ρ c (Proc.devRef .tc b) := by
  by_cases h : ∀ w, Pipeline.arrRef spec6 w ≠ b
  · exact W11_of_ne m ρ c b h
  · obtain ⟨w, hw⟩ := not_forall.mp h
    have hw := not_not.mp hw
    subst hw
    have hin : (cfg6.win w).isOut = false := by
      revert hb; revert w; decide
    exact (W11_arr m ρ c w).trans (((dat6 (V10 m ρ) c).arrAt_in w hin _).trans (A_eq6 (V10 m ρ) c w))

/-! ## A buffer nothing writes ends as launched -/

/-- A buffer that no host stretch writes and that is no region's output holds at the end what it held at launch. -/
theorem W11_untouched (c : Dev nD) (b : Ref sig .tc) (h0 : b ∉ hostOps0_W) (h2 : b ∉ hostOps2_W) (h4 : b ∉ hostOps4_W) (h6 : b ∉ hostOps6_W)
    (hb : b ∉ ([main_v21, main_v22, main_v44, main_v45, main_v67, main_v68, main_v73] : List (Ref sig .tc))) :
    W11 m ρ c (Proc.devRef .tc b) = m ((c : Thread nD τ).loc b) := by
  simp only [List.mem_cons, List.not_mem_nil, or_false, not_or] at hb
  obtain ⟨e0, e1, e2, e3, e4, e5, e6⟩ := hb
  calc W11 m ρ c (Proc.devRef .tc b)
    _ = W10 m ρ c (Proc.devRef .tc b) := keep6 m ρ c b e6
    _ = W9 m ρ c (Proc.devRef .tc b) := W10_of m ρ c b h6
    _ = W8 m ρ c (Proc.devRef .tc b) := keep5 m ρ c b e5
    _ = W7 m ρ c (Proc.devRef .tc b) := keep4 m ρ c b e4
    _ = W6 m ρ c (Proc.devRef .tc b) := W7_of m ρ c b h4
    _ = W5 m ρ c (Proc.devRef .tc b) := keep3 m ρ c b e3
    _ = W4 m ρ c (Proc.devRef .tc b) := keep2 m ρ c b e2
    _ = W3 m ρ c (Proc.devRef .tc b) := W4_of m ρ c b h2
    _ = W2 m ρ c (Proc.devRef .tc b) := keep1 m ρ c b e1
    _ = W1 m ρ c (Proc.devRef .tc b) := keep0 m ρ c b e0
    _ = W0 m ρ c (Proc.devRef .tc b) := W1_of m ρ c b h0
    _ = m ((c : Thread nD τ).loc b) := rfl

theorem W11_main_arg0 (c : Dev nD) : W11 m ρ c (Proc.devRef .tc main_arg0) = m ((c : Thread nD τ).loc main_arg0) :=
  W11_untouched m ρ c main_arg0 (by decide) (by decide) (by decide) (by decide) (by decide)
theorem W11_main_arg1 (c : Dev nD) : W11 m ρ c (Proc.devRef .tc main_arg1) = m ((c : Thread nD τ).loc main_arg1) :=
  W11_untouched m ρ c main_arg1 (by decide) (by decide) (by decide) (by decide) (by decide)
theorem W11_main_arg2 (c : Dev nD) : W11 m ρ c (Proc.devRef .tc main_arg2) = m ((c : Thread nD τ).loc main_arg2) :=
  W11_untouched m ρ c main_arg2 (by decide) (by decide) (by decide) (by decide) (by decide)
theorem W11_main_arg3 (c : Dev nD) : W11 m ρ c (Proc.devRef .tc main_arg3) = m ((c : Thread nD τ).loc main_arg3) :=
  W11_untouched m ρ c main_arg3 (by decide) (by decide) (by decide) (by decide) (by decide)
theorem W11_main_arg4 (c : Dev nD) : W11 m ρ c (Proc.devRef .tc main_arg4) = m ((c : Thread nD τ).loc main_arg4) :=
  W11_untouched m ρ c main_arg4 (by decide) (by decide) (by decide) (by decide) (by decide)
theorem W11_main_arg5 (c : Dev nD) : W11 m ρ c (Proc.devRef .tc main_arg5) = m ((c : Thread nD τ).loc main_arg5) :=
  W11_untouched m ρ c main_arg5 (by decide) (by decide) (by decide) (by decide) (by decide)
theorem W11_main_arg6 (c : Dev nD) : W11 m ρ c (Proc.devRef .tc main_arg6) = m ((c : Thread nD τ).loc main_arg6) :=
  W11_untouched m ρ c main_arg6 (by decide) (by decide) (by decide) (by decide) (by decide)
theorem W11_main_arg7 (c : Dev nD) : W11 m ρ c (Proc.devRef .tc main_arg7) = m ((c : Thread nD τ).loc main_arg7) :=
  W11_untouched m ρ c main_arg7 (by decide) (by decide) (by decide) (by decide) (by decide)
theorem W11_main_arg8 (c : Dev nD) : W11 m ρ c (Proc.devRef .tc main_arg8) = m ((c : Thread nD τ).loc main_arg8) :=
  W11_untouched m ρ c main_arg8 (by decide) (by decide) (by decide) (by decide) (by decide)
theorem W11_main_arg9 (c : Dev nD) : W11 m ρ c (Proc.devRef .tc main_arg9) = m ((c : Thread nD τ).loc main_arg9) :=
  W11_untouched m ρ c main_arg9 (by decide) (by decide) (by decide) (by decide) (by decide)
theorem W11_main_arg10 (c : Dev nD) : W11 m ρ c (Proc.devRef .tc main_arg10) = m ((c : Thread nD τ).loc main_arg10) :=
  W11_untouched m ρ c main_arg10 (by decide) (by decide) (by decide) (by decide) (by decide)
theorem W11_main_arg11 (c : Dev nD) : W11 m ρ c (Proc.devRef .tc main_arg11) = m ((c : Thread nD τ).loc main_arg11) :=
  W11_untouched m ρ c main_arg11 (by decide) (by decide) (by decide) (by decide) (by decide)

/-- The result buffer ends at what the last region's write-back leaves. -/
theorem W11_result (c : Dev nD) : W11 m ρ c (Proc.devRef .tc main_v73) = (dat6 (V10 m ρ) c).arrAt 5 cfg6.N :=
  W11_arr m ρ c 5

/-! ## The proof data family and the thread state -/

abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V8 m ρ) c
  | ⟨6, _⟩ => fun c => dat6 (V10 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at W1, left with them at W2. Its arrays are
    split out of the unscoped buffers and put back at their exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W2, left with them at W3. Its arrays are
    split out of the unscoped buffers and put back at their exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W4, left with them at W5. Its arrays are
    split out of the unscoped buffers and put back at their exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W5, left with them at W6. Its arrays are
    split out of the unscoped buffers and put back at their exit contents; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at W7, left with them at W8. Its arrays are
    split out of the unscoped buffers and put back at their exit contents; the generator register goes into the
    pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at W8, left with them at W9. Its arrays are
    split out of the unscoped buffers and put back at their exit contents; the generator register goes into the
    pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at W10, left with them at W11. Its arrays are
    split out of the unscoped buffers and put back at their exit contents; the generator register goes into the
    pipeline's invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .region (reg5 m ρ),
    .host (hseg hostOps6 hostOps6_sub hostOps6_fresh (W9 m ρ)),
    .region (reg6 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final memory has every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c),
    (h c _ (mem_uc main_arg8 (by decide))).trans (W11_main_arg8 m ρ c),
    (h c _ (mem_uc main_arg9 (by decide))).trans (W11_main_arg9 m ρ c),
    (h c _ (mem_uc main_arg10 (by decide))).trans (W11_main_arg10 m ρ c),
    (h c _ (mem_uc main_arg11 (by decide))).trans (W11_main_arg11 m ρ c)⟩) (run m ρ)

/-- THE RESULT: the result buffer ends at what the last region leaves, and every argument array as launched. -/
theorem run_result : θ_run defs (onTc (τ := τ) (main (F := F))) ⟨m, fun _ => 0, ρ⟩ (fun r => ∀ c : Dev nD,
      r.2.mem ((c.tc : Thread nD τ).loc main_v73) = (dat6 (V10 m ρ) c).arrAt 5 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v73 (by decide))).trans (W11_result m ρ c),
    (h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c),
    (h c _ (mem_uc main_arg8 (by decide))).trans (W11_main_arg8 m ρ c),
    (h c _ (mem_uc main_arg9 (by decide))).trans (W11_main_arg9 m ρ c),
    (h c _ (mem_uc main_arg10 (by decide))).trans (W11_main_arg10 m ρ c),
    (h c _ (mem_uc main_arg11 (by decide))).trans (W11_main_arg11 m ρ c)⟩) (run m ρ)

end Cert.Kernel.Run

end
-- ==== Proof.KI.NbOf.lean ====
/-
  The neighbour sums of an array of node features, as the program's host operations make them: the source indices
  normalised (a negative index wraps once), the rows gathered, and scattered with addition into an array of zeros at the
  destination indices. Both programs apply this same chain; nothing here opens it.
-/
import proofs.«410827_j82411832476193_1_alg».proof.KernelIdeal
import proofs.«410827_j82411832476193_1_alg».proof.Proof.Gen.KernelIdeal

noncomputable section

namespace Cert.KernelIdeal.Run

open Cert.KernelIdeal Cert.KernelIdeal.Gen
open Idealize.ShloMosaic

variable {F : FTy → Type} [FloatOps F]

/-- The neighbour sums of h under the edge lists src and dst. -/
def nbOfK (src dst : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

end Cert.KernelIdeal.Run

end
-- ==== Proof.Spec.lean ====
/-
  What both programs compute, as functions of the argument arrays on the extended reals.

  A layer's dense half: node p, feature q of relu(relu((h + nb) · W1 + b1) · W2 + b2), the sums over the 128 hidden
  features. Pooling: graph g, feature q is the sum of the rows r of the layer's output whose graph id, read as a signed
  integer, is g (an id that is no graph's row adds to none). The head: relu(x · W1 + b1) · W2 + b2 over the three layers'
  pooled rows side by side. The neighbour sums nb of a layer's input are what one fixed chain of host operations
  (an index normalisation, a row gather, an accumulating scatter) makes of it, the same chain in both programs: it
  enters here as a parameter.
-/
import Idealize.ShloMosaic.PureOps.Ideal
import Idealize.ShloMosaic.Lib.ValueIdx

noncomputable section

open scoped BigOperators

namespace Cert.Spec

open Idealize.ShloMosaic Idealize.ShloMosaic.ValueIdx

abbrev SNodes : Shape := ⟨2, ![100000, 128]⟩
abbrev SIds : Shape := ⟨2, ![100000, 1]⟩
abbrev SW : Shape := ⟨2, ![128, 128]⟩
abbrev SRow : Shape := ⟨2, ![1, 128]⟩
abbrev SW3 : Shape := ⟨3, ![3, 128, 128]⟩
abbrev SB3 : Shape := ⟨2, ![3, 128]⟩
abbrev SVec : Shape := ⟨1, ![128]⟩
abbrev SIdVec : Shape := ⟨1, ![100000]⟩
abbrev SCat : Shape := ⟨2, ![1000, 384]⟩
abbrev SPW : Shape := ⟨2, ![384, 128]⟩
abbrev SOut : Shape := ⟨2, ![1000, 128]⟩

/-- The dense half of a layer at node p, feature q. -/
def ginAt (h nb : SNodes.Idx → EReal) (w1 : SW.Idx → EReal) (b1 : SRow.Idx → EReal) (w2 : SW.Idx → EReal) (b2 : SRow.Idx → EReal)
    (p : Fin 100000) (q : Fin 128) : EReal :=
  max ((∑ k : Fin 128, max ((∑ j : Fin 128, (h (ix2 p j) + nb (ix2 p j)) * w1 (ix2 j k)) + b1 (ix2 0 k)) 0 * w2 (ix2 k q)) + b2 (ix2 0 q)) 0

/-- The dense half of a layer, as an array. -/
def gin (h nb : SNodes.Idx → EReal) (w1 : SW.Idx → EReal) (b1 : SRow.Idx → EReal) (w2 : SW.Idx → EReal) (b2 : SRow.Idx → EReal) :
    SNodes.Idx → EReal :=
  fun i => ginAt h nb w1 b1 w2 b2 ⟨(i 0).val, idx2_lt0 i⟩ ⟨(i 1).val, idx2_lt1 i⟩

theorem gin_apply (h nb : SNodes.Idx → EReal) (w1 : SW.Idx → EReal) (b1 : SRow.Idx → EReal) (w2 : SW.Idx → EReal) (b2 : SRow.Idx → EReal)
    (p : Fin 100000) (q : Fin 128) : gin h nb w1 b1 w2 b2 (ix2 p q) = ginAt h nb w1 b1 w2 b2 p q := rfl

/-- Pooled sum of graph g (of G graph rows), feature q: the rows whose id is g. -/
def poolAt (G : Nat) (h : SNodes.Idx → EReal) (gid : IVec SIds 32) (g : Fin G) (q : Fin 128) : EReal :=
  ∑ r ∈ Finset.univ.filter (fun r : Fin 100000 => (gid (ix2 r 0)).toInt = (g.val : ℤ)), h (ix2 r q)

/-- The pooled sums as an array of G graph rows. -/
def pool (G : Nat) (h : SNodes.Idx → EReal) (gid : IVec SIds 32) : (⟨2, ![G, 128]⟩ : Shape).Idx → EReal :=
  fun i => poolAt G h gid ⟨(i 0).val, idx2_lt0 i⟩ ⟨(i 1).val, idx2_lt1 i⟩

theorem pool_apply (G : Nat) (h : SNodes.Idx → EReal) (gid : IVec SIds 32) (g : Fin G) (q : Fin 128) :
    pool G h gid (ix2 g q) = poolAt G h gid g q := rfl

/-- The first 1000 of 1024 padded graph rows are the 1000 graphs' rows. -/
theorem poolAt_pad (h : SNodes.Idx → EReal) (gid : IVec SIds 32) (g : Fin 1000) (q : Fin 128) :
    poolAt 1024 h gid ⟨g.val, by omega⟩ q = poolAt 1000 h gid g q := rfl

/-- Three arrays of 1000 rows side by side. -/
def cat3At (a b c : SOut.Idx → EReal) (p : Fin 1000) (j : Fin 384) : EReal :=
  if h1 : j.val < 128 then a (ix2 p ⟨j.val, h1⟩)
  else if h2 : j.val < 256 then b (ix2 p ⟨j.val - 128, by omega⟩)
  else c (ix2 p ⟨j.val - 256, by omega⟩)

def cat3 (a b c : SOut.Idx → EReal) : SCat.Idx → EReal :=
  fun i => cat3At a b c ⟨(i 0).val, idx2_lt0 i⟩ ⟨(i 1).val, idx2_lt1 i⟩

theorem cat3_apply (a b c : SOut.Idx → EReal) (p : Fin 1000) (j : Fin 384) : cat3 a b c (ix2 p j) = cat3At a b c p j := rfl

/-- The head at graph p, feature q. -/
def projAt (x : SCat.Idx → EReal) (w1 : SPW.Idx → EReal) (b1 : SRow.Idx → EReal) (w2 : SW.Idx → EReal) (b2 : SRow.Idx → EReal)
    (p : Fin 1000) (q : Fin 128) : EReal :=
  (∑ k : Fin 128, max ((∑ j : Fin 384, x (ix2 p j) * w1 (ix2 j k)) + b1 (ix2 0 k)) 0 * w2 (ix2 k q)) + b2 (ix2 0 q)

def proj (x : SCat.Idx → EReal) (w1 : SPW.Idx → EReal) (b1 : SRow.Idx → EReal) (w2 : SW.Idx → EReal) (b2 : SRow.Idx → EReal) :
    SOut.Idx → EReal :=
  fun i => projAt x w1 b1 w2 b2 ⟨(i 0).val, idx2_lt0 i⟩ ⟨(i 1).val, idx2_lt1 i⟩

theorem proj_apply (x : SCat.Idx → EReal) (w1 : SPW.Idx → EReal) (b1 : SRow.Idx → EReal) (w2 : SW.Idx → EReal) (b2 : SRow.Idx → EReal)
    (p : Fin 1000) (q : Fin 128) : proj x w1 b1 w2 b2 (ix2 p q) = projAt x w1 b1 w2 b2 p q := rfl

/-- Layer l's weight matrix out of the stack of three. -/
def wOf (W : SW3.Idx → EReal) (l : Fin 3) : SW.Idx → EReal := fun i => W (ix3 l ⟨(i 0).val, idx2_lt0 i⟩ ⟨(i 1).val, idx2_lt1 i⟩)
/-- Layer l's bias, as a row. -/
def bOf (B : SB3.Idx → EReal) (l : Fin 3) : SRow.Idx → EReal := fun i => B (ix2 l ⟨(i 1).val, idx2_lt1 i⟩)
/-- A bias vector as a row. -/
def rowOf (b : SVec.Idx → EReal) : SRow.Idx → EReal := fun i => b (ix1 ⟨(i 1).val, idx2_lt1 i⟩)

/-- The graph ids as a column. -/
def colOf (gid : IVec SIdVec 32) : IVec SIds 32 := fun i => gid (ix1 ⟨(i 0).val, idx2_lt0 i⟩)

/-- The whole computation: three layers, each pooled; the pooled rows side by side through the head. `nbOf` makes a
    layer's neighbour sums from its input. -/
def whole (nbOf : (SNodes.Idx → EReal) → (SNodes.Idx → EReal)) (x : SNodes.Idx → EReal) (gid : IVec SIdVec 32)
    (W1 : SW3.Idx → EReal) (B1 : SB3.Idx → EReal) (W2 : SW3.Idx → EReal) (B2 : SB3.Idx → EReal)
    (PW1 : SPW.Idx → EReal) (pb1 : SVec.Idx → EReal) (PW2 : SW.Idx → EReal) (pb2 : SVec.Idx → EReal) : SOut.Idx → EReal :=
  let h1 := gin x (nbOf x) (wOf W1 0) (bOf B1 0) (wOf W2 0) (bOf B2 0)
  let h2 := gin h1 (nbOf h1) (wOf W1 1) (bOf B1 1) (wOf W2 1) (bOf B2 1)
  let h3 := gin h2 (nbOf h2) (wOf W1 2) (bOf B1 2) (wOf W2 2) (bOf B2 2)
  proj (cat3 (pool 1000 h1 (colOf gid)) (pool 1000 h2 (colOf gid)) (pool 1000 h3 (colOf gid))) PW1 (rowOf pb1) PW2 (rowOf pb2)

end Cert.Spec

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.LibSegmentSum.lean ====
/-
  General lemmas: the host's accumulating float scatter (`x.at[idx].add(u)`, a segment sum) at the ideal instance, read at
  an index, for the two shapes a segment sum over rows takes.

  The start index is read as a SIGNED integer and is NOT clamped: an update whose row index is negative or past the
  operand's last row lands nowhere. So the operand's row `n` receives exactly the update rows `e` whose index word,
  as a signed integer, is `n`.
-/
import Idealize.ShloMosaic.PureOps.Ideal
import Idealize.ShloMosaic.Lib.ValueIdx

noncomputable section

open scoped BigOperators

namespace Cert.Lib

open Idealize.ShloMosaic Idealize.ShloMosaic.ValueIdx

namespace SegmentSum

/-! ## Rows -/

/-- The row scatter's dimension numbers as a literal record, for an operand `[N, C]`, indices `[E, 1]` and updates
    `[E, C]`; `wf` are their conditions. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the operand's row axis the window of update `(e, k')` starts at the index word `idx[e, 0]`, read signed. -/
theorem rows_start0 : (rowScatterDims N C E wf).start (ix2 e k') idx 0 = (idx (ix2 e 0)).toInt := by
  unfold ScatterDims.start
  rw [dif_pos (show (0 : Fin 2) ∈ (rowScatterDims N C E wf).scatterDimsToOperandDims from List.mem_singleton.mpr rfl)]
  -- the scatter-indices index read for component 0 of the start index of `(e, k')` is `[e, 0]`
  have hsi : (rowScatterDims N C E wf).siIdx (ix2 e k')
      ⟨List.idxOf (0 : Fin 2) (rowScatterDims N C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The column axis is not index-mapped: the window starts at `0` there. -/
theorem rows_start1 : (rowScatterDims N C E wf).start (ix2 e k') idx 1 = 0 := by
  unfold ScatterDims.start
  rw [dif_neg (show ¬ (1 : Fin 2) ∈ (rowScatterDims N C E wf).scatterDimsToOperandDims from
    fun h => absurd (List.mem_singleton.mp h) (by decide : ¬ (1 : Fin 2) = 0))]

/-- The row axis is an inserted window axis: it has no window coordinate. -/
theorem rows_window0 : (rowScatterDims N C E wf).window (ix2 e k') 0 = 0 := by
  unfold ScatterDims.window
  rw [dif_neg (show ¬ (0 : Fin 2) ∈ (rowScatterDims N C E wf).sKept from fun h => by
    have h2 := (List.mem_filter.mp h).2
    simp at h2)]

/-- The column axis is the one window axis: its window coordinate is the update's column. -/
theorem rows_window1 : (rowScatterDims N C E wf).window (ix2 e k') 1 = k'.val := by
  unfold ScatterDims.window
  rw [dif_pos (show (1 : Fin 2) ∈ (rowScatterDims N C E wf).sKept from
    List.mem_filter.mpr ⟨List.mem_finRange _, by simp⟩)]
  rfl

/-- WHERE AN UPDATE LANDS: update `(e, k')` lands at operand element `(n, k)` exactly when its index word, read signed,
    is `n` and its column is `k`. (An index word outside `[0, N)` lands nowhere, so it equals no `n`.) -/
theorem rows_resultIdx_eq_some_iff (n : Fin N) (k : Fin C) :
    (rowScatterDims N C E wf).resultIdx? (ix2 e k') idx = some (ix2 n k)
      ↔ (idx (ix2 e 0)).toInt = (n.val : ℤ) ∧ k' = k := by
  have s0 := rows_start0 wf idx e k'
  have s1 := rows_start1 wf idx e k'
  have w0 := rows_window0 wf e k'
  have w1 := rows_window1 wf e k'
  unfold ScatterDims.resultIdx?
  split
  · rename_i h
    rw [Option.some.injEq]
    constructor
    · intro hf
      -- read the equation of indices on each axis
      have h0 : ((rowScatterDims N C E wf).start (ix2 e k') idx 0
          + ((rowScatterDims N C E wf).window (ix2 e k') 0 : ℕ)).toNat = n.val :=
        congrArg (fun i : (⟨2, ![N, C]⟩ : Shape).Idx => (i 0).val) hf
      have h1 : ((rowScatterDims N C E wf).start (ix2 e k') idx 1
          + ((rowScatterDims N C E wf).window (ix2 e k') 1 : ℕ)).toNat = k.val :=
        congrArg (fun i : (⟨2, ![N, C]⟩ : Shape).Idx => (i 1).val) hf
      have p0 := (h 0).1
      rw [s0, w0] at h0 p0
      rw [s1, w1] at h1
      exact ⟨by omega, Fin.ext (by omega)⟩
    · rintro ⟨hi, rfl⟩
      funext a
      refine Fin.ext ?_
      match a with
      | ⟨0, _⟩ =>
        show ((rowScatterDims N C E wf).start (ix2 e k') idx 0
          + ((rowScatterDims N C E wf).window (ix2 e k') 0 : ℕ)).toNat = n.val
        rw [s0, w0]; omega
      | ⟨1, _⟩ =>
        show ((rowScatterDims N C E wf).start (ix2 e k') idx 1
          + ((rowScatterDims N C E wf).window (ix2 e k') 1 : ℕ)).toNat = k'.val
        rw [s1, w1]; omega
  · rename_i h
    constructor
    · intro hf; exact absurd hf (by simp)
    · -- an index word equal to `n` is in range, and a column always is: the update does land
      rintro ⟨hi, rfl⟩
      refine absurd (fun a => ?_) h
      match a with
      | ⟨0, _⟩ =>
        show 0 ≤ (rowScatterDims N C E wf).start (ix2 e k') idx 0 + ((rowScatterDims N C E wf).window (ix2 e k') 0 : ℕ)
          ∧ (rowScatterDims N C E wf).start (ix2 e k') idx 0 + ((rowScatterDims N C E wf).window (ix2 e k') 0 : ℕ)
            < (N : ℤ)
        rw [s0, w0]; have := n.isLt; omega
      | ⟨1, _⟩ =>
        show 0 ≤ (rowScatterDims N C E wf).start (ix2 e k') idx 1 + ((rowScatterDims N C E wf).window (ix2 e k') 1 : ℕ)
          ∧ (rowScatterDims N C E wf).start (ix2 e k') idx 1 + ((rowScatterDims N C E wf).window (ix2 e k') 1 : ℕ)
            < (C : ℤ)
        rw [s1, w1]; have := k'.isLt; omega

end Rows

/-! ## Flat -/

/-- The flat scatter's dimension numbers as a literal record, for an operand `[N]`, indices `[E, 1]` and updates `[E]`;
    `wf` are their conditions. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range. -/
def idxEquiv1 {n : Nat} : Fin n ≃ (⟨1, ![n]⟩ : Shape).Idx where
  toFun := ix1
  invFun i := i 0
  left_inv _ := rfl
  right_inv i := (eq_ix1 i).symm

section Flat
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at the index word `idx[e, 0]`, read signed. -/
theorem flat_start0 : (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  -- the scatter-indices index read for component 0 of the start index of `e` is `[e, 0]`
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- That axis is an inserted window axis: it has no window coordinate. -/
theorem flat_window0 : (flatScatterDims N E wf).window (ix1 e) 0 = 0 := by
  unfold ScatterDims.window
  rw [dif_neg (show ¬ (0 : Fin 1) ∈ (flatScatterDims N E wf).sKept from fun h => by
    have h2 := (List.mem_filter.mp h).2
    simp at h2)]

/-- WHERE AN UPDATE LANDS: update `e` lands at operand element `n` exactly when its index word, read signed, is `n`. -/
theorem flat_resultIdx_eq_some_iff (n : Fin N) :
    (flatScatterDims N E wf).resultIdx? (ix1 e) idx = some (ix1 n) ↔ (idx (ix2 e 0)).toInt = (n.val : ℤ) := by
  have s0 := flat_start0 wf idx e
  have w0 := flat_window0 wf e
  unfold ScatterDims.resultIdx?
  split
  · rename_i h
    rw [Option.some.injEq]
    constructor
    · intro hf
      have h0 : ((flatScatterDims N E wf).start (ix1 e) idx 0
          + ((flatScatterDims N E wf).window (ix1 e) 0 : ℕ)).toNat = n.val :=
        congrArg (fun i : (⟨1, ![N]⟩ : Shape).Idx => (i 0).val) hf
      have p0 := (h 0).1
      rw [s0, w0] at h0 p0
      omega
    · intro hi
      funext a
      refine Fin.ext ?_
      match a with
      | ⟨0, _⟩ =>
        show ((flatScatterDims N E wf).start (ix1 e) idx 0
          + ((flatScatterDims N E wf).window (ix1 e) 0 : ℕ)).toNat = n.val
        rw [s0, w0]; omega
  · rename_i h
    constructor
    · intro hf; exact absurd hf (by simp)
    · -- an index word equal to `n` is in range: the update does land
      intro hi
      refine absurd (fun a => ?_) h
      match a with
      | ⟨0, _⟩ =>
        show 0 ≤ (flatScatterDims N E wf).start (ix1 e) idx 0 + ((flatScatterDims N E wf).window (ix1 e) 0 : ℕ)
          ∧ (flatScatterDims N E wf).start (ix1 e) idx 0 + ((flatScatterDims N E wf).window (ix1 e) 0 : ℕ) < (N : ℤ)
        rw [s0, w0]; have := n.isLt; omega

end Flat

end SegmentSum

open SegmentSum

/-- ROWS: operand `[N, C]`, indices `[E, 1]`, updates `[E, C]` (update_window_dims `[1]`, inserted_window_dims `[0]`,
    scatter_dims_to_operand_dims `[0]`, index_vector_dim `1`). Element `(n, k)` is the operand's plus the sum of the
    updates' `(e, k)` over the rows `e` whose index is `n`. -/
theorem scatterAdd_rows_apply {N C E w : Nat}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ix2 e 0)).toInt = (n.val : ℤ)), upd (ix2 e k) := by
  -- a record with these fields is the literal one
  obtain ⟨uw, iw, sd, iv, wf⟩ := d
  simp only at h1 h2 h3 h4
  subst h1 h2 h3 h4
  unfold Ideal.hostScatterAdd
  congr 1
  -- both sides as sums of guarded terms; the left one over the updates' rows and columns
  rw [Finset.sum_filter, sum_idx2, Finset.sum_filter]
  refine Finset.sum_congr rfl fun e _ => ?_
  by_cases hq : (idx (ix2 e 0)).toInt = (n.val : ℤ)
  · -- a row whose index is `n` gives its column `k` and nothing else
    rw [if_pos hq, Finset.sum_eq_single k]
    · rw [if_pos ((rows_resultIdx_eq_some_iff wf idx e k n k).mpr ⟨hq, rfl⟩)]
    · intro k' _ hk'
      rw [if_neg fun h => hk' ((rows_resultIdx_eq_some_iff wf idx e k' n k).mp h).2]
    · intro h; exact absurd (Finset.mem_univ k) h
  · -- any other row gives nothing
    rw [if_neg hq]
    refine Finset.sum_eq_zero fun k' _ => ?_
    rw [if_neg fun h => hq ((rows_resultIdx_eq_some_iff wf idx e k' n k).mp h).1]

/-- FLAT: operand `[N]`, indices `[E, 1]`, updates `[E]` (no window axis, inserted_window_dims `[0]`,
    scatter_dims_to_operand_dims `[0]`, index_vector_dim `1`). Element `n` is the operand's plus the sum of the updates
    `e` whose index is `n`. -/
theorem scatterAdd_flat_apply {N E w : Nat}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  -- a record with these fields is the literal one
  obtain ⟨uw, iw, sd, iv, wf⟩ := d
  simp only at h1 h2 h3 h4
  subst h1 h2 h3 h4
  unfold Ideal.hostScatterAdd
  congr 1
  -- both sides as sums of guarded terms, matched along the bijection between update indices and rows
  rw [Finset.sum_filter, Finset.sum_filter]
  refine (Fintype.sum_equiv idxEquiv1 _ _ fun e => ?_).symm
  have hiff := flat_resultIdx_eq_some_iff wf idx e n
  show (if (idx (ix2 e 0)).toInt = (n.val : ℤ) then upd (ix1 e) else 0)
    = if (flatScatterDims N E wf).resultIdx? (ix1 e) idx = some (ix1 n) then upd (ix1 e) else 0
  by_cases hq : (idx (ix2 e 0)).toInt = (n.val : ℤ)
  · rw [if_pos hq, if_pos (hiff.mpr hq)]
  · rw [if_neg hq, if_neg fun h => hq (hiff.mp h)]

end Cert.Lib

end
-- ==== Proof.RefStages.lean ====
/-
  The reference's three kinds of stage, each as one term over array variables, read on the extended reals.

  A layer's dense half: two matrix products, each followed by a bias row and a maximum with zero, over the sum of the
  layer's input and its neighbour sums. Entry (p, q) of a product is the sum over the contracted axis; the bias array
  is a row repeated down the nodes; the zero array is zero everywhere. Pooling: an accumulating scatter of the layer's
  rows into a zero array by the graph-id column, whose entry (g, q) is zero plus the sum of the rows whose id is g.
  The head: the same two products over the three pooled arrays side by side, without the last maximum.
  The neighbour sums of a layer's input are one fixed chain of operations on it (an index normalisation, a row gather,
  an accumulating scatter into zero); it is named here and never opened.
-/
import proofs.«410827_j82411832476193_1_alg».proof.ReferenceIdeal
import proofs.«410827_j82411832476193_1_alg».proof.Proof.Spec
import proofs.«410827_j82411832476193_1_alg».proof.Proof.LibPlainMatmul
import proofs.«410827_j82411832476193_1_alg».proof.Proof.LibSegmentSum
import Idealize.ShloMosaic.PureOps.Ideal
import Idealize.ShloMosaic.PureOps.Ideal.Laws
import Idealize.ShloMosaic.Lib.ValueIdx

noncomputable section

open scoped BigOperators

namespace Cert.ReferenceIdeal.RefValue

open Cert.ReferenceIdeal Idealize.ShloMosaic Idealize.ShloMosaic.ValueIdx

variable [Facts₀]

/-- The neighbour sums of a layer's input `h`: each edge's source index is normalised (a negative one is moved up by
    the number of nodes), the source rows are gathered, and they are added into a zero array at the destination rows. -/
def nbOf (src dst : IVec S1600000 32) (h : FVec Ideal S100000x128 .f32) : FVec Ideal S100000x128 .f32 :=
  Host.scatterAdd scatter_S100000x128_S1600000x1_S1600000x128_1_0_0_1
    (broadcastInDim S100000x128 ![] Facts₀.bcast_S_S100000x128 (constant (F := Ideal) S_ .f32 0x00000000#32))
    (broadcastInDim S1600000x1 ![0] Facts₀.bcast_S1600000_S1600000x1_0 dst)
    (Host.gather gather_S100000x128_S1600000x1_S1600000x128_1_0_n_n_0_1_1128 h
      (broadcastInDim S1600000x1 ![0] Facts₀.bcast_S1600000_S1600000x1_0
        (select (cmpi .slt src (broadcastInDim S1600000 ![] Facts₀.bcast_S_S1600000 (constantI S_ 32 0#32)))
          (addi src (broadcastInDim S1600000 ![] Facts₀.bcast_S_S1600000 (constantI S_ 32 100000#32))) src)))

/-- One product of a layer followed by its bias row and the maximum with zero, at node `p`, feature `k`. -/
theorem dense_relu_apply (x : FVec Ideal S100000x128 .f32) (w : FVec Ideal S128x128 .f32)
    (bias zero : FVec Ideal S100000x128 .f32) (r : Cert.Spec.SRow.Idx → EReal)
    (hb : ∀ (p : Fin 100000) (q : Fin 128), bias (ix2 p q) = r (ix2 0 q)) (hz : ∀ i, zero i = 0)
    (p : Fin 100000) (k : Fin 128) :
    maximumf (addf (Host.dotGeneral dot_S100000x128_S128x128_S100000x128_1_0_0_1_n_n none x w) bias) zero (ix2 p k)
      = max ((∑ j : Fin 128, x (ix2 p j) * w (ix2 j k)) + r (ix2 0 k)) 0 := by
  rw [maximumf_apply, addf_apply, hz, hb]
  exact congrArg (fun t => max (t + r (ix2 0 k)) 0)
    (Cert.Lib.dotGeneral_plain_apply dot_S100000x128_S128x128_S100000x128_1_0_0_1_n_n rfl rfl rfl rfl rfl rfl
      none .single x w p k)

/-- A LAYER'S DENSE HALF is the specification's, over the layer's input, its neighbour sums, the two weight matrices
    and the two bias rows. -/
theorem ref_layer_eq (h nb : FVec Ideal S100000x128 .f32) (w1 w2 : FVec Ideal S128x128 .f32)
    (bias1 bias2 zero : FVec Ideal S100000x128 .f32) (r1 r2 : Cert.Spec.SRow.Idx → EReal)
    (hb1 : ∀ (p : Fin 100000) (q : Fin 128), bias1 (ix2 p q) = r1 (ix2 0 q))
    (hb2 : ∀ (p : Fin 100000) (q : Fin 128), bias2 (ix2 p q) = r2 (ix2 0 q))
    (hz : ∀ i, zero i = 0) :
    maximumf (addf (Host.dotGeneral dot_S100000x128_S128x128_S100000x128_1_0_0_1_n_n none
        (maximumf (addf (Host.dotGeneral dot_S100000x128_S128x128_S100000x128_1_0_0_1_n_n none (addf h nb) w1) bias1) zero)
        w2) bias2) zero
      = Cert.Spec.gin h nb w1 r1 w2 r2 := by
  funext i
  obtain ⟨p, q, rfl⟩ : ∃ (p : Fin 100000) (q : Fin 128), i = ix2 p q := ⟨i 0, i 1, eq_ix2 i⟩
  rw [Cert.Spec.gin_apply, dense_relu_apply _ w2 bias2 zero r2 hb2 hz p q]
  unfold Cert.Spec.ginAt
  refine congrArg (fun t => max (t + r2 (ix2 0 q)) 0) (Finset.sum_congr rfl fun k _ => ?_)
  rw [dense_relu_apply (addf h nb) w1 bias1 zero r1 hb1 hz p k]
  rfl

/-- POOLING: the accumulating scatter of the rows of `h` into a zero array by the id column is the specification's
    pooled sums. -/
theorem ref_pool_eq (h : FVec Ideal S100000x128 .f32) (gid : IVec S100000x1 32) (zero1000 : FVec Ideal S1000x128 .f32)
    (hz : ∀ i, zero1000 i = 0) :
    Host.scatterAdd scatter_S1000x128_S100000x1_S100000x128_1_0_0_1 zero1000 gid h = Cert.Spec.pool 1000 h gid := by
  funext i
  obtain ⟨g, q, rfl⟩ : ∃ (g : Fin 1000) (q : Fin 128), i = ix2 g q := ⟨i 0, i 1, eq_ix2 i⟩
  rw [Cert.Spec.pool_apply]
  unfold Cert.Spec.poolAt
  refine (Cert.Lib.scatterAdd_rows_apply scatter_S1000x128_S100000x1_S100000x128_1_0_0_1 rfl rfl rfl rfl
    zero1000 gid h g q).trans ?_
  rw [hz, zero_add]

/-- THE HEAD is the specification's, over the pooled rows side by side, the two weight matrices and the two bias rows. -/
theorem ref_head_eq (x : FVec Ideal S1000x384 .f32) (w1 : FVec Ideal S384x128 .f32) (w2 : FVec Ideal S128x128 .f32)
    (bias1 bias2 zero : FVec Ideal S1000x128 .f32) (r1 r2 : Cert.Spec.SRow.Idx → EReal)
    (hb1 : ∀ (p : Fin 1000) (q : Fin 128), bias1 (ix2 p q) = r1 (ix2 0 q))
    (hb2 : ∀ (p : Fin 1000) (q : Fin 128), bias2 (ix2 p q) = r2 (ix2 0 q))
    (hz : ∀ i, zero i = 0) :
    addf (Host.dotGeneral dot_S1000x128_S128x128_S1000x128_1_0_0_1_n_n none
        (maximumf (addf (Host.dotGeneral dot_S1000x384_S384x128_S1000x128_1_0_0_1_n_n none x w1) bias1) zero) w2) bias2
      = Cert.Spec.proj x w1 r1 w2 r2 := by
  funext i
  obtain ⟨p, q, rfl⟩ : ∃ (p : Fin 1000) (q : Fin 128), i = ix2 p q := ⟨i 0, i 1, eq_ix2 i⟩
  rw [Cert.Spec.proj_apply, addf_apply, hb2]
  unfold Cert.Spec.projAt
  refine congrArg (fun t => t + r2 (ix2 0 q)) ?_
  refine (Cert.Lib.dotGeneral_plain_apply dot_S1000x128_S128x128_S1000x128_1_0_0_1_n_n rfl rfl rfl rfl rfl rfl
    none .single _ w2 p q).trans (Finset.sum_congr rfl fun k _ => ?_)
  rw [maximumf_apply, addf_apply, hz, hb1]
  exact congrArg (fun t => max (t + r1 (ix2 0 k)) 0 * w2 (ix2 k q))
    (Cert.Lib.dotGeneral_plain_apply dot_S1000x384_S384x128_S1000x128_1_0_0_1_n_n rfl rfl rfl rfl rfl rfl
      none .single x w1 p k)

end Cert.ReferenceIdeal.RefValue

end
-- ==== Proof.Assemble.lean ====
/-
  The certificate's conjuncts from the three programs' runs. Each program runs to its end with its argument arrays as
  launched. At the ideal instance the kernel program's result array is what its last region leaves and the
  reference's is its operations' composed term; when each of the two is the specification's whole computation of the
  argument arrays (the neighbour sums made by the same chain of host operations on both sides), the two results are
  equal from memories that agree on the arguments.
-/
import proofs.«410827_j82411832476193_1_alg».proof.Defs
import proofs.«410827_j82411832476193_1_alg».proof.Proof.KI.Run
import proofs.«410827_j82411832476193_1_alg».proof.Proof.K.Run
import proofs.«410827_j82411832476193_1_alg».proof.Proof.KI.NbOf
import proofs.«410827_j82411832476193_1_alg».proof.Proof.Gen.ReferenceIdeal.Run
import proofs.«410827_j82411832476193_1_alg».proof.Proof.RefStages
import proofs.«410827_j82411832476193_1_alg».proof.Proof.Spec
import proofs.«410827_j82411832476193_1_alg».proof.Proof.Gen.Kernel
import proofs.«410827_j82411832476193_1_alg».proof.Proof.Gen.KernelIdeal
import proofs.«410827_j82411832476193_1_alg».proof.Proof.Gen.ReferenceIdeal
import proofs.«410827_j82411832476193_1_alg».proof.Proof.Gen.Pre_finite_inputs

set_option maxRecDepth 16384

noncomputable section

namespace Cert.Proof.Assemble

open Idealize.ShloMosaic Idealize.ShloMosaic.TcCoe Idealize.SL.Sem

/-! ## The three frames -/

/-- The word-level kernel program runs and leaves its arguments as launched. -/
theorem frame_k : Cert.frame_Kernel := fun m ρ _ => Cert.Kernel.Run.frame m ρ

/-- The kernel program at the ideal instance runs and leaves its arguments as launched. -/
theorem frame_ki : Cert.frame_KernelIdeal := fun m ρ _ => Cert.KernelIdeal.Run.frame m ρ

/-- The reference program at the ideal instance runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-! ## The neighbour sums are one function in both programs -/

/-- The kernel program's chain of host operations that makes a layer's neighbour sums and the reference's are the same
    operations with the same dimension numbers on the same shapes. -/
theorem nb_eq (src dst : IVec Cert.ReferenceIdeal.S1600000 32) (h : FVec Ideal Cert.ReferenceIdeal.S100000x128 .f32) :
    Cert.KernelIdeal.Run.nbOfK (F := Ideal) src dst h = Cert.ReferenceIdeal.RefValue.nbOf src dst h := rfl

/-! ## The two results are equal -/

/-- When the kernel program's last region leaves the specification's whole computation of the launch arguments, and the
    reference's result term is the same computation of its own, the two programs end with equal results from memories
    that agree on the arguments. -/
theorem algebraic_of
    (hk : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
          ((Cert.KernelIdeal.Run.dat6 (F := Ideal) (Cert.KernelIdeal.Run.V10 m ρ) c).arrAt 5 Cert.KernelIdeal.cfg6.N : Cert.KernelIdeal.S1000x128.Idx → EReal)
            = Cert.Spec.whole (Cert.KernelIdeal.Run.nbOfK (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
                (m ((c.tc : Thread Cert.KernelIdeal.nD Cert.KernelIdeal.τ).loc Cert.KernelIdeal.main_arg0))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
                (m ((c.tc : Thread Cert.KernelIdeal.nD Cert.KernelIdeal.τ).loc Cert.KernelIdeal.main_arg6))
                (m ((c.tc : Thread Cert.KernelIdeal.nD Cert.KernelIdeal.τ).loc Cert.KernelIdeal.main_arg7))
                (m ((c.tc : Thread Cert.KernelIdeal.nD Cert.KernelIdeal.τ).loc Cert.KernelIdeal.main_arg8))
                (m ((c.tc : Thread Cert.KernelIdeal.nD Cert.KernelIdeal.τ).loc Cert.KernelIdeal.main_arg9))
                (m ((c.tc : Thread Cert.KernelIdeal.nD Cert.KernelIdeal.τ).loc Cert.KernelIdeal.main_arg10))
                (m ((c.tc : Thread Cert.KernelIdeal.nD Cert.KernelIdeal.τ).loc Cert.KernelIdeal.main_arg11)))
    (hr : ∀ (m' : (ℓ : Loc Cert.ReferenceIdeal.nD Cert.ReferenceIdeal.τ Cert.ReferenceIdeal.sig) → Buf (Elt Ideal) ℓ) (c : Dev Cert.ReferenceIdeal.nD),
          (Cert.ReferenceIdeal.Value.res_out0 (F := Ideal) m' c : Cert.ReferenceIdeal.S1000x128.Idx → EReal)
            = Cert.Spec.whole (Cert.ReferenceIdeal.RefValue.nbOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)))
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
                (m' ((c.tc : Thread Cert.ReferenceIdeal.nD Cert.ReferenceIdeal.τ).loc Cert.ReferenceIdeal.main_arg5))
                (m' ((c.tc : Thread Cert.ReferenceIdeal.nD Cert.ReferenceIdeal.τ).loc Cert.ReferenceIdeal.main_arg6))
                (m' ((c.tc : Thread Cert.ReferenceIdeal.nD Cert.ReferenceIdeal.τ).loc Cert.ReferenceIdeal.main_arg7))
                (m' ((c.tc : Thread Cert.ReferenceIdeal.nD Cert.ReferenceIdeal.τ).loc Cert.ReferenceIdeal.main_arg8))
                (m' ((c.tc : Thread Cert.ReferenceIdeal.nD Cert.ReferenceIdeal.τ).loc Cert.ReferenceIdeal.main_arg9))
                (m' ((c.tc : Thread Cert.ReferenceIdeal.nD Cert.ReferenceIdeal.τ).loc Cert.ReferenceIdeal.main_arg10))
                (m' ((c.tc : Thread Cert.ReferenceIdeal.nD Cert.ReferenceIdeal.τ).loc Cert.ReferenceIdeal.main_arg11))) :
    Cert.algebraic_KernelIdeal_ReferenceIdeal := by
  intro m ρ m' ρ' _ hagree
  refine ⟨fun c => (Cert.KernelIdeal.Run.dat6 (F := Ideal) (Cert.KernelIdeal.Run.V10 m ρ) c).arrAt 5 Cert.KernelIdeal.cfg6.N,
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  refine (hr m' c).trans (Eq.trans ?_ (hk m ρ c).symm)
  obtain ⟨e0, e1, e2, e3, e4, e5, e6, e7, e8, e9, e10, e11⟩ := hagree c
  rw [e0, e1, e2, e3, e4, e5, e6, e7, e8, e9, e10, e11]
  exact congrArg (fun f => Cert.Spec.whole f _ _ _ _ _ _ _ _ _ _) (funext fun h => (nb_eq _ _ h).symm)

/-- The certificate's claim, from the two value equations. -/
theorem claim_of
    (hk : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
          ((Cert.KernelIdeal.Run.dat6 (F := Ideal) (Cert.KernelIdeal.Run.V10 m ρ) c).arrAt 5 Cert.KernelIdeal.cfg6.N : Cert.KernelIdeal.S1000x128.Idx → EReal)
            = Cert.Spec.whole (Cert.KernelIdeal.Run.nbOfK (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
                (m ((c.tc : Thread Cert.KernelIdeal.nD Cert.KernelIdeal.τ).loc Cert.KernelIdeal.main_arg0))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
                (m ((c.tc : Thread Cert.KernelIdeal.nD Cert.KernelIdeal.τ).loc Cert.KernelIdeal.main_arg6))
                (m ((c.tc : Thread Cert.KernelIdeal.nD Cert.KernelIdeal.τ).loc Cert.KernelIdeal.main_arg7))
                (m ((c.tc : Thread Cert.KernelIdeal.nD Cert.KernelIdeal.τ).loc Cert.KernelIdeal.main_arg8))
                (m ((c.tc : Thread Cert.KernelIdeal.nD Cert.KernelIdeal.τ).loc Cert.KernelIdeal.main_arg9))
                (m ((c.tc : Thread Cert.KernelIdeal.nD Cert.KernelIdeal.τ).loc Cert.KernelIdeal.main_arg10))
                (m ((c.tc : Thread Cert.KernelIdeal.nD Cert.KernelIdeal.τ).loc Cert.KernelIdeal.main_arg11)))
    (hr : ∀ (m' : (ℓ : Loc Cert.ReferenceIdeal.nD Cert.ReferenceIdeal.τ Cert.ReferenceIdeal.sig) → Buf (Elt Ideal) ℓ) (c : Dev Cert.ReferenceIdeal.nD),
          (Cert.ReferenceIdeal.Value.res_out0 (F := Ideal) m' c : Cert.ReferenceIdeal.S1000x128.Idx → EReal)
            = Cert.Spec.whole (Cert.ReferenceIdeal.RefValue.nbOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)))
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
                (m' ((c.tc : Thread Cert.ReferenceIdeal.nD Cert.ReferenceIdeal.τ).loc Cert.ReferenceIdeal.main_arg5))
                (m' ((c.tc : Thread Cert.ReferenceIdeal.nD Cert.ReferenceIdeal.τ).loc Cert.ReferenceIdeal.main_arg6))
                (m' ((c.tc : Thread Cert.ReferenceIdeal.nD Cert.ReferenceIdeal.τ).loc Cert.ReferenceIdeal.main_arg7))
                (m' ((c.tc : Thread Cert.ReferenceIdeal.nD Cert.ReferenceIdeal.τ).loc Cert.ReferenceIdeal.main_arg8))
                (m' ((c.tc : Thread Cert.ReferenceIdeal.nD Cert.ReferenceIdeal.τ).loc Cert.ReferenceIdeal.main_arg9))
                (m' ((c.tc : Thread Cert.ReferenceIdeal.nD Cert.ReferenceIdeal.τ).loc Cert.ReferenceIdeal.main_arg10))
                (m' ((c.tc : Thread Cert.ReferenceIdeal.nD Cert.ReferenceIdeal.τ).loc Cert.ReferenceIdeal.main_arg11))) :
    Cert.Claim :=
  ⟨Cert.Kernel.Gen.facts, Cert.KernelIdeal.Gen.facts, Cert.ReferenceIdeal.Gen.facts, Cert.Pre_finite_inputs.Gen.facts,
    frame_k, frame_ki, frame_ri, trivial, algebraic_of hk hr⟩

end Cert.Proof.Assemble

end
-- ==== Proof.KI.GinValue0.lean ====
/-
  What region 0 (a graph-convolution layer's dense half) leaves in its output's array, as one function of the arrays it
  finds. At point t the body stores, over its whole output block, relu(relu((x0 + x1) · x2 + x3) · x4 + x5) of the six
  blocks it loaded; the two row windows and the output have block (t, 0) of 4000 rows, so row r of a block is array row
  4000 t + r, and the weights and bias rows are whole arrays at every point. Hence what point t writes back is block t
  of the specification's layer function of the arrays; the 25 blocks tile the 100000 rows (row p lies in block p / 4000),
  so the array ends holding that function.
-/
import proofs.«410827_j82411832476193_1_alg».proof.Proof.KI.Gin0
import proofs.«410827_j82411832476193_1_alg».proof.Proof.Spec
import proofs.«410827_j82411832476193_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Run

open Cert.KernelIdeal Cert.KernelIdeal.Gen
open Idealize.ShloMosaic Idealize.ShloMosaic.TcCoe Idealize.ShloMosaic.ValueIdx
open Idealize.ShloMosaic.Pipeline (Dat)

/-! ## The body's arithmetic at an index -/

/-- One dense layer of the body at row r, feature q: the product with the weights summed over the 128 inputs, the bias
    row added, the negative part cut off. -/
theorem dense0_apply (a : FVec Ideal S4000x128 .bf16) (w : Vec Ideal S128x128 .f32) (b : Vec Ideal S1x128 .f32)
    (r : Fin 4000) (q : Fin 128) :
    maximumf (addf (matmul dot_S4000x128_S128x128_S4000x128_1_0_0_1_n_n none a
          (truncf .bf16 (shapeCast S128x128 w shapeCasts_S128x128_S128x128) bitsLt_bf16_f32)
          (constant (F := Ideal) S4000x128 .f32 0x00000000#32))
        (broadcastTo S4000x128 (shapeCast S1x128 b shapeCasts_S1x128_S1x128) broadcasts_S1x128_S4000x128))
      (broadcast S4000x128 (Scalar.ofBits (F := Ideal) .f32 0x00000000#32)) (ix2 r q)
      = max ((∑ k : Fin 128, a (ix2 r k) * w (ix2 k q)) + b (ix2 0 q)) 0 := by
  rw [maximumf_apply, broadcast_apply, addf_apply, shapeCast_self, shapeCast_self]
  rw [broadcastTo_1b_ab_apply]
  rw [show Scalar.ofBits (F := Ideal) .f32 0x00000000#32 = 0 from Ideal.ofBits_zero_f32]
  refine congrArg (fun s => max (s + b (ix2 0 q)) 0) ?_
  exact Cert.Lib.matmul_plain_apply dot_S4000x128_S128x128_S4000x128_1_0_0_1_n_n rfl rfl rfl rfl rfl rfl none a _ r q

/-- The body's arithmetic at row r, feature q of the block: two dense layers, the first on the sum of the two row blocks. -/
theorem payload0_apply (x0 x1 : Vec Ideal S4000x128 .f32) (x2 : Vec Ideal S128x128 .f32) (x3 : Vec Ideal S1x128 .f32)
    (x4 : Vec Ideal S128x128 .f32) (x5 : Vec Ideal S1x128 .f32) (r : Fin 4000) (q : Fin 128) :
    k0_pay1 (F := Ideal) x0 x1 x2 x3 x4 x5 (ix2 r q)
      = max ((∑ k : Fin 128, max ((∑ j : Fin 128, (x0 (ix2 r j) + x1 (ix2 r j)) * x2 (ix2 j k)) + x3 (ix2 0 k)) 0
          * x4 (ix2 k q)) + x5 (ix2 0 q)) 0 := by
  unfold k0_pay1
  refine (dense0_apply _ x4 x5 r q).trans ?_
  refine congrArg (fun s => max (s + x5 (ix2 0 q)) 0) (Finset.sum_congr rfl fun k _ => ?_)
  refine congrArg (fun s => s * x4 (ix2 k q)) ?_
  rw [truncf_apply]
  refine (dense0_apply _ x2 x3 r k).trans ?_
  refine congrArg (fun s => max (s + x3 (ix2 0 k)) 0) (Finset.sum_congr rfl fun j _ => ?_)
  rw [truncf_apply, addf_apply]
  simp only [shapeCast_self]

/-! ## The blocks at an index -/

variable (V : (c : Dev nD) → (b : Ref sig .tc) → Buf (Elt Ideal) ((c : Thread nD τ).loc b))

/-- The printed index maps at point t: the two row windows and the output's block index is (t, 0); the weights' and
    the bias rows' is (0, 0). Decided over the 25 points. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A point is below 25. -/
theorem point0_lt (t : Fin cfg0.N) : t.val < 25 := by
  have h : t.val < cfg0.N := t.isLt
  have hN : cfg0.N = 25 := N_0
  omega

/-- Row r of block t is a row of the array. -/
theorem row0_lt (t : Fin cfg0.N) (r : Fin 4000) : 4000 * t.val + r.val < 100000 := by
  have := point0_lt t; have := r.isLt; omega

/-- Row r of the block at point t is array row 4000 t + r. -/
abbrev row0 (t : Fin cfg0.N) (r : Fin 4000) : Fin 100000 := ⟨4000 * t.val + r.val, row0_lt t r⟩

/-- Window 0's block at point t, at row r, feature q: the array's row 4000 t + r. -/
theorem iblk0_0_apply (c : Dev nD) (t : Fin cfg0.N) (r : Fin 4000) (q : Fin 128) :
    (iblk0 V c 0 t : S4000x128.Idx → EReal) (ix2 r q)
      = (V c (Pipeline.arrRef spec0 0) : S100000x128.Idx → EReal) (ix2 (row0 t r) q) := by
  obtain ⟨e0, e1, -⟩ := index0 t
  unfold iblk0
  rw [View.read_apply]
  show (V c (Pipeline.arrRef spec0 0) : S100000x128.Idx → EReal) _ = _
  congr 1
  funext a
  apply Fin.ext
  match a with
  | ⟨0, _⟩ => show win0_0.index t (0 : Fin 2) * 4000 + 1 * r.val = 4000 * t.val + r.val; omega
  | ⟨1, _⟩ => show win0_0.index t (1 : Fin 2) * 128 + 1 * q.val = q.val; omega

/-- Window 1's block at point t, at row r, feature q: the array's row 4000 t + r. -/
theorem iblk0_1_apply (c : Dev nD) (t : Fin cfg0.N) (r : Fin 4000) (q : Fin 128) :
    (iblk0 V c 1 t : S4000x128.Idx → EReal) (ix2 r q)
      = (V c (Pipeline.arrRef spec0 1) : S100000x128.Idx → EReal) (ix2 (row0 t r) q) := by
  obtain ⟨-, -, e0, e1, -⟩ := index0 t
  unfold iblk0
  rw [View.read_apply]
  show (V c (Pipeline.arrRef spec0 1) : S100000x128.Idx → EReal) _ = _
  congr 1
  funext a
  apply Fin.ext
  match a with
  | ⟨0, _⟩ => show win0_1.index t (0 : Fin 2) * 4000 + 1 * r.val = 4000 * t.val + r.val; omega
  | ⟨1, _⟩ => show win0_1.index t (1 : Fin 2) * 128 + 1 * q.val = q.val; omega

/-- Window 2's block at every point is its whole array. -/
theorem iblk0_2_apply (c : Dev nD) (t : Fin cfg0.N) (j : Fin 128) (k : Fin 128) :
    (iblk0 V c 2 t : S128x128.Idx → EReal) (ix2 j k)
      = (V c (Pipeline.arrRef spec0 2) : S128x128.Idx → EReal) (ix2 j k) := by
  obtain ⟨-, -, -, -, e0, e1, -⟩ := index0 t
  unfold iblk0
  rw [View.read_apply]
  show (V c (Pipeline.arrRef spec0 2) : S128x128.Idx → EReal) _ = _
  congr 1
  funext a
  apply Fin.ext
  match a with
  | ⟨0, _⟩ => show win0_2.index t (0 : Fin 2) * 128 + 1 * j.val = j.val; omega
  | ⟨1, _⟩ => show win0_2.index t (1 : Fin 2) * 128 + 1 * k.val = k.val; omega

/-- Window 3's block at every point is its whole array, one row. -/
theorem iblk0_3_apply (c : Dev nD) (t : Fin cfg0.N) (j : Fin 1) (k : Fin 128) :
    (iblk0 V c 3 t : S1x128.Idx → EReal) (ix2 j k)
      = (V c (Pipeline.arrRef spec0 3) : S1x128.Idx → EReal) (ix2 j k) := by
  obtain ⟨-, -, -, -, -, -, e0, e1, -⟩ := index0 t
  unfold iblk0
  rw [View.read_apply]
  show (V c (Pipeline.arrRef spec0 3) : S1x128.Idx → EReal) _ = _
  congr 1
  funext a
  apply Fin.ext
  match a with
  | ⟨0, _⟩ => show win0_3.index t (0 : Fin 2) * 1 + 1 * j.val = j.val; omega
  | ⟨1, _⟩ => show win0_3.index t (1 : Fin 2) * 128 + 1 * k.val = k.val; omega

/-- Window 4's block at every point is its whole array. -/
theorem iblk0_4_apply (c : Dev nD) (t : Fin cfg0.N) (j : Fin 128) (k : Fin 128) :
    (iblk0 V c 4 t : S128x128.Idx → EReal) (ix2 j k)
      = (V c (Pipeline.arrRef spec0 4) : S128x128.Idx → EReal) (ix2 j k) := by
  obtain ⟨-, -, -, -, -, -, -, -, e0, e1, -⟩ := index0 t
  unfold iblk0
  rw [View.read_apply]
  show (V c (Pipeline.arrRef spec0 4) : S128x128.Idx → EReal) _ = _
  congr 1
  funext a
  apply Fin.ext
  match a with
  | ⟨0, _⟩ => show win0_4.index t (0 : Fin 2) * 128 + 1 * j.val = j.val; omega
  | ⟨1, _⟩ => show win0_4.index t (1 : Fin 2) * 128 + 1 * k.val = k.val; omega

/-- Window 5's block at every point is its whole array, one row. -/
theorem iblk0_5_apply (c : Dev nD) (t : Fin cfg0.N) (j : Fin 1) (k : Fin 128) :
    (iblk0 V c 5 t : S1x128.Idx → EReal) (ix2 j k)
      = (V c (Pipeline.arrRef spec0 5) : S1x128.Idx → EReal) (ix2 j k) := by
  obtain ⟨-, -, -, -, -, -, -, -, -, -, e0, e1, -⟩ := index0 t
  unfold iblk0
  rw [View.read_apply]
  show (V c (Pipeline.arrRef spec0 5) : S1x128.Idx → EReal) _ = _
  congr 1
  funext a
  apply Fin.ext
  match a with
  | ⟨0, _⟩ => show win0_5.index t (0 : Fin 2) * 1 + 1 * j.val = j.val; omega
  | ⟨1, _⟩ => show win0_5.index t (1 : Fin 2) * 128 + 1 * k.val = k.val; omega

/-- Where the output's block at point t sits in its array: row r of the block is array row 4000 t + r. -/
theorem emb0_6 (t : Fin cfg0.N) (r : Fin 4000) (q : Fin 128) :
    (((cfg0.win 6).blk t).view.emb (ix2 r q) : S100000x128.Idx) = ix2 (row0 t r) q := by
  obtain ⟨-, -, -, -, -, -, -, -, -, -, -, -, e0, e1⟩ := index0 t
  funext a
  apply Fin.ext
  match a with
  | ⟨0, _⟩ => show win0_6.index t (0 : Fin 2) * 4000 + 1 * r.val = 4000 * t.val + r.val; omega
  | ⟨1, _⟩ => show win0_6.index t (1 : Fin 2) * 128 + 1 * q.val = q.val; omega

/-- An index of the array is in point t's output block iff each coordinate is in the block's range on its axis. -/
theorem mem_blk0_6 (t : Fin cfg0.N) (i : S100000x128.Idx) :
    i ∈ ((cfg0.win 6).blk t).view.set
      ↔ ∀ a : Fin 2, win0_6.index t a * S4000x128.size a ≤ (i a).val
          ∧ (i a).val < win0_6.index t a * S4000x128.size a + S4000x128.size a := by
  show i ∈ ((View.whole (Pipeline.arrRef spec0 6)).slice (win0_6.rect t)).set ↔ _
  rw [View.set_slice_whole, Rect.mem_set_unit]
  exact Iff.rfl

/-- Every index of the output's array is in the block of the point its row falls to: row p is in block p / 4000. -/
theorem cover0 (i : S100000x128.Idx) :
    ∃ t : Fin cfg0.N, (cfg0.win 6).flush t = true ∧ i ∈ ((cfg0.win 6).blk t).view.set := by
  have hN : cfg0.N = 25 := N_0
  have hi0 : (i 0).val < 100000 := idx2_lt0 i
  have hi1 : (i 1).val < 128 := idx2_lt1 i
  let t : Fin cfg0.N := ⟨(i 0).val / 4000, by omega⟩
  have ht : t.val = (i 0).val / 4000 := rfl
  obtain ⟨-, -, -, -, -, -, -, -, -, -, -, -, e0, e1⟩ := index0 t
  refine ⟨t, flush0_6 t, ?_⟩
  rw [mem_blk0_6]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-! ## What a point writes back, and the array after the last point -/

theorem hz0 : (![0, 0] : Fin 2 → Nat) = fun _ => 0 := funext fun a => by fin_cases a <;> rfl

/-- What the body leaves in the output's buffer at point t, at row r, feature q: the layer's dense half at array row
    4000 t + r. -/
theorem out0_6_apply (c : Dev nD) (t : Fin cfg0.N) (r : Fin 4000) (q : Fin 128) :
    (out0_6 (F := Ideal) (iblk0 V c 0 t) (iblk0 V c 1 t) (iblk0 V c 2 t) (iblk0 V c 3 t) (iblk0 V c 4 t) (iblk0 V c 5 t)
        : S4000x128.Idx → EReal) (ix2 r q)
      = Cert.Spec.ginAt (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (row0 t r) q := by
  unfold out0_6
  rw [View.canon_unit_zero hz0]
  simp only [View.ld_unit_zero (S := S4000x128) hz0, View.ld_unit_zero (S := S128x128) hz0, View.ld_unit_zero (S := S1x128) hz0]
  refine (payload0_apply _ _ _ _ _ _ r q).trans ?_
  unfold Cert.Spec.ginAt
  simp only [iblk0_0_apply V c t, iblk0_1_apply V c t, iblk0_2_apply V c t, iblk0_3_apply V c t, iblk0_4_apply V c t,
    iblk0_5_apply V c t]

/-- What point t writes back is block t of the layer's dense half of the arrays the region finds. -/
theorem flushed0_eq (c : Dev nD) (t : Fin cfg0.N) :
    (dat0 (F := Ideal) V c).flushed 6 t
      = ((cfg0.win 6).blk t).view.read (Elt Ideal)
          (Cert.Spec.gin (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5))) := by
  show (cfg0.win 6).cut (grid0.coords t) ((dat0 (F := Ideal) V c).after 6 t) = _
  rw [after0_6]
  funext j
  obtain ⟨r, q, rfl⟩ : ∃ (r : Fin 4000) (q : Fin 128), j = ix2 r q := ⟨j 0, j 1, eq_ix2 j⟩
  rw [View.read_apply]
  show (out0_6 (F := Ideal) (iblk0 V c 0 t) (iblk0 V c 1 t) (iblk0 V c 2 t) (iblk0 V c 3 t) (iblk0 V c 4 t) (iblk0 V c 5 t)
        : S4000x128.Idx → EReal) (ix2 r q)
      = Cert.Spec.gin (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (((cfg0.win 6).blk t).view.emb (ix2 r q))
  rw [emb0_6 t r q, Cert.Spec.gin_apply]
  exact out0_6_apply V c t r q

/-- What region 0's write-backs leave in its output's array: the layer's dense half of the arrays it finds. -/
theorem gin0_value (V : (c : Dev nD) → (b : Ref sig .tc) → Buf (Elt Ideal) ((c : Thread nD τ).loc b)) (c : Dev nD) :
    ((dat0 (F := Ideal) V c).arrAt 6 cfg0.N : S100000x128.Idx → EReal)
      = Cert.Spec.gin (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 _ (fun t _ => flushed0_eq V c t) cover0

end Cert.KernelIdeal.Run

end
-- ==== Proof.KI.GinValue2.lean ====
/-
  What region 2 (a graph-convolution layer's dense half) leaves in its output's array, as one function of the arrays it
  finds. At point t the body stores, over its whole output block, relu(relu((x0 + x1) · x2 + x3) · x4 + x5) of the six
  blocks it loaded; the two row windows and the output have block (t, 0) of 4000 rows, so row r of a block is array row
  4000 t + r, and the weights and bias rows are whole arrays at every point. Hence what point t writes back is block t
  of the specification's layer function of the arrays; the 25 blocks tile the 100000 rows (row p lies in block p / 4000),
  so the array ends holding that function.
-/
import proofs.«410827_j82411832476193_1_alg».proof.Proof.KI.Gin2
import proofs.«410827_j82411832476193_1_alg».proof.Proof.Spec
import proofs.«410827_j82411832476193_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Run

open Cert.KernelIdeal Cert.KernelIdeal.Gen
open Idealize.ShloMosaic Idealize.ShloMosaic.TcCoe Idealize.ShloMosaic.ValueIdx
open Idealize.ShloMosaic.Pipeline (Dat)

/-! ## The body's arithmetic at an index -/

/-- One dense layer of the body at row r, feature q: the product with the weights summed over the 128 inputs, the bias
    row added, the negative part cut off. -/
theorem dense2_apply (a : FVec Ideal S4000x128 .bf16) (w : Vec Ideal S128x128 .f32) (b : Vec Ideal S1x128 .f32)
    (r : Fin 4000) (q : Fin 128) :
    maximumf (addf (matmul dot_S4000x128_S128x128_S4000x128_1_0_0_1_n_n none a
          (truncf .bf16 (shapeCast S128x128 w shapeCasts_S128x128_S128x128) bitsLt_bf16_f32)
          (constant (F := Ideal) S4000x128 .f32 0x00000000#32))
        (broadcastTo S4000x128 (shapeCast S1x128 b shapeCasts_S1x128_S1x128) broadcasts_S1x128_S4000x128))
      (broadcast S4000x128 (Scalar.ofBits (F := Ideal) .f32 0x00000000#32)) (ix2 r q)
      = max ((∑ k : Fin 128, a (ix2 r k) * w (ix2 k q)) + b (ix2 0 q)) 0 := by
  rw [maximumf_apply, broadcast_apply, addf_apply, shapeCast_self, shapeCast_self]
  rw [broadcastTo_1b_ab_apply]
  rw [show Scalar.ofBits (F := Ideal) .f32 0x00000000#32 = 0 from Ideal.ofBits_zero_f32]
  refine congrArg (fun s => max (s + b (ix2 0 q)) 0) ?_
  exact Cert.Lib.matmul_plain_apply dot_S4000x128_S128x128_S4000x128_1_0_0_1_n_n rfl rfl rfl rfl rfl rfl none a _ r q

/-- The body's arithmetic at row r, feature q of the block: two dense layers, the first on the sum of the two row blocks. -/
theorem payload2_apply (x0 x1 : Vec Ideal S4000x128 .f32) (x2 : Vec Ideal S128x128 .f32) (x3 : Vec Ideal S1x128 .f32)
    (x4 : Vec Ideal S128x128 .f32) (x5 : Vec Ideal S1x128 .f32) (r : Fin 4000) (q : Fin 128) :
    k2_pay1 (F := Ideal) x0 x1 x2 x3 x4 x5 (ix2 r q)
      = max ((∑ k : Fin 128, max ((∑ j : Fin 128, (x0 (ix2 r j) + x1 (ix2 r j)) * x2 (ix2 j k)) + x3 (ix2 0 k)) 0
          * x4 (ix2 k q)) + x5 (ix2 0 q)) 0 := by
  unfold k2_pay1
  refine (dense2_apply _ x4 x5 r q).trans ?_
  refine congrArg (fun s => max (s + x5 (ix2 0 q)) 0) (Finset.sum_congr rfl fun k _ => ?_)
  refine congrArg (fun s => s * x4 (ix2 k q)) ?_
  rw [truncf_apply]
  refine (dense2_apply _ x2 x3 r k).trans ?_
  refine congrArg (fun s => max (s + x3 (ix2 0 k)) 0) (Finset.sum_congr rfl fun j _ => ?_)
  rw [truncf_apply, addf_apply]
  simp only [shapeCast_self]

/-! ## The blocks at an index -/

variable (V : (c : Dev nD) → (b : Ref sig .tc) → Buf (Elt Ideal) ((c : Thread nD τ).loc b))

/-- The printed index maps at point t: the two row windows and the output's block index is (t, 0); the weights' and
    the bias rows' is (0, 0). Decided over the 25 points. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A point is below 25. -/
theorem point2_lt (t : Fin cfg2.N) : t.val < 25 := by
  have h : t.val < cfg2.N := t.isLt
  have hN : cfg2.N = 25 := N_2
  omega

/-- Row r of block t is a row of the array. -/
theorem row2_lt (t : Fin cfg2.N) (r : Fin 4000) : 4000 * t.val + r.val < 100000 := by
  have := point2_lt t; have := r.isLt; omega

/-- Row r of the block at point t is array row 4000 t + r. -/
abbrev row2 (t : Fin cfg2.N) (r : Fin 4000) : Fin 100000 := ⟨4000 * t.val + r.val, row2_lt t r⟩

/-- Window 0's block at point t, at row r, feature q: the array's row 4000 t + r. -/
theorem iblk2_0_apply (c : Dev nD) (t : Fin cfg2.N) (r : Fin 4000) (q : Fin 128) :
    (iblk2 V c 0 t : S4000x128.Idx → EReal) (ix2 r q)
      = (V c (Pipeline.arrRef spec2 0) : S100000x128.Idx → EReal) (ix2 (row2 t r) q) := by
  obtain ⟨e0, e1, -⟩ := index2 t
  unfold iblk2
  rw [View.read_apply]
  show (V c (Pipeline.arrRef spec2 0) : S100000x128.Idx → EReal) _ = _
  congr 1
  funext a
  apply Fin.ext
  match a with
  | ⟨0, _⟩ => show win2_0.index t (0 : Fin 2) * 4000 + 1 * r.val = 4000 * t.val + r.val; omega
  | ⟨1, _⟩ => show win2_0.index t (1 : Fin 2) * 128 + 1 * q.val = q.val; omega

/-- Window 1's block at point t, at row r, feature q: the array's row 4000 t + r. -/
theorem iblk2_1_apply (c : Dev nD) (t : Fin cfg2.N) (r : Fin 4000) (q : Fin 128) :
    (iblk2 V c 1 t : S4000x128.Idx → EReal) (ix2 r q)
      = (V c (Pipeline.arrRef spec2 1) : S100000x128.Idx → EReal) (ix2 (row2 t r) q) := by
  obtain ⟨-, -, e0, e1, -⟩ := index2 t
  unfold iblk2
  rw [View.read_apply]
  show (V c (Pipeline.arrRef spec2 1) : S100000x128.Idx → EReal) _ = _
  congr 1
  funext a
  apply Fin.ext
  match a with
  | ⟨0, _⟩ => show win2_1.index t (0 : Fin 2) * 4000 + 1 * r.val = 4000 * t.val + r.val; omega
  | ⟨1, _⟩ => show win2_1.index t (1 : Fin 2) * 128 + 1 * q.val = q.val; omega

/-- Window 2's block at every point is its whole array. -/
theorem iblk2_2_apply (c : Dev nD) (t : Fin cfg2.N) (j : Fin 128) (k : Fin 128) :
    (iblk2 V c 2 t : S128x128.Idx → EReal) (ix2 j k)
      = (V c (Pipeline.arrRef spec2 2) : S128x128.Idx → EReal) (ix2 j k) := by
  obtain ⟨-, -, -, -, e0, e1, -⟩ := index2 t
  unfold iblk2
  rw [View.read_apply]
  show (V c (Pipeline.arrRef spec2 2) : S128x128.Idx → EReal) _ = _
  congr 1
  funext a
  apply Fin.ext
  match a with
  | ⟨0, _⟩ => show win2_2.index t (0 : Fin 2) * 128 + 1 * j.val = j.val; omega
  | ⟨1, _⟩ => show win2_2.index t (1 : Fin 2) * 128 + 1 * k.val = k.val; omega

/-- Window 3's block at every point is its whole array, one row. -/
theorem iblk2_3_apply (c : Dev nD) (t : Fin cfg2.N) (j : Fin 1) (k : Fin 128) :
    (iblk2 V c 3 t : S1x128.Idx → EReal) (ix2 j k)
      = (V c (Pipeline.arrRef spec2 3) : S1x128.Idx → EReal) (ix2 j k) := by
  obtain ⟨-, -, -, -, -, -, e0, e1, -⟩ := index2 t
  unfold iblk2
  rw [View.read_apply]
  show (V c (Pipeline.arrRef spec2 3) : S1x128.Idx → EReal) _ = _
  congr 1
  funext a
  apply Fin.ext
  match a with
  | ⟨0, _⟩ => show win2_3.index t (0 : Fin 2) * 1 + 1 * j.val = j.val; omega
  | ⟨1, _⟩ => show win2_3.index t (1 : Fin 2) * 128 + 1 * k.val = k.val; omega

/-- Window 4's block at every point is its whole array. -/
theorem iblk2_4_apply (c : Dev nD) (t : Fin cfg2.N) (j : Fin 128) (k : Fin 128) :
    (iblk2 V c 4 t : S128x128.Idx → EReal) (ix2 j k)
      = (V c (Pipeline.arrRef spec2 4) : S128x128.Idx → EReal) (ix2 j k) := by
  obtain ⟨-, -, -, -, -, -, -, -, e0, e1, -⟩ := index2 t
  unfold iblk2
  rw [View.read_apply]
  show (V c (Pipeline.arrRef spec2 4) : S128x128.Idx → EReal) _ = _
  congr 1
  funext a
  apply Fin.ext
  match a with
  | ⟨0, _⟩ => show win2_4.index t (0 : Fin 2) * 128 + 1 * j.val = j.val; omega
  | ⟨1, _⟩ => show win2_4.index t (1 : Fin 2) * 128 + 1 * k.val = k.val; omega

/-- Window 5's block at every point is its whole array, one row. -/
theorem iblk2_5_apply (c : Dev nD) (t : Fin cfg2.N) (j : Fin 1) (k : Fin 128) :
    (iblk2 V c 5 t : S1x128.Idx → EReal) (ix2 j k)
      = (V c (Pipeline.arrRef spec2 5) : S1x128.Idx → EReal) (ix2 j k) := by
  obtain ⟨-, -, -, -, -, -, -, -, -, -, e0, e1, -⟩ := index2 t
  unfold iblk2
  rw [View.read_apply]
  show (V c (Pipeline.arrRef spec2 5) : S1x128.Idx → EReal) _ = _
  congr 1
  funext a
  apply Fin.ext
  match a with
  | ⟨0, _⟩ => show win2_5.index t (0 : Fin 2) * 1 + 1 * j.val = j.val; omega
  | ⟨1, _⟩ => show win2_5.index t (1 : Fin 2) * 128 + 1 * k.val = k.val; omega

/-- Where the output's block at point t sits in its array: row r of the block is array row 4000 t + r. -/
theorem emb2_6 (t : Fin cfg2.N) (r : Fin 4000) (q : Fin 128) :
    (((cfg2.win 6).blk t).view.emb (ix2 r q) : S100000x128.Idx) = ix2 (row2 t r) q := by
  obtain ⟨-, -, -, -, -, -, -, -, -, -, -, -, e0, e1⟩ := index2 t
  funext a
  apply Fin.ext
  match a with
  | ⟨0, _⟩ => show win2_6.index t (0 : Fin 2) * 4000 + 1 * r.val = 4000 * t.val + r.val; omega
  | ⟨1, _⟩ => show win2_6.index t (1 : Fin 2) * 128 + 1 * q.val = q.val; omega

/-- An index of the array is in point t's output block iff each coordinate is in the block's range on its axis. -/
theorem mem_blk2_6 (t : Fin cfg2.N) (i : S100000x128.Idx) :
    i ∈ ((cfg2.win 6).blk t).view.set
      ↔ ∀ a : Fin 2, win2_6.index t a * S4000x128.size a ≤ (i a).val
          ∧ (i a).val < win2_6.index t a * S4000x128.size a + S4000x128.size a := by
  show i ∈ ((View.whole (Pipeline.arrRef spec2 6)).slice (win2_6.rect t)).set ↔ _
  rw [View.set_slice_whole, Rect.mem_set_unit]
  exact Iff.rfl

/-- Every index of the output's array is in the block of the point its row falls to: row p is in block p / 4000. -/
theorem cover2 (i : S100000x128.Idx) :
    ∃ t : Fin cfg2.N, (cfg2.win 6).flush t = true ∧ i ∈ ((cfg2.win 6).blk t).view.set := by
  have hN : cfg2.N = 25 := N_2
  have hi0 : (i 0).val < 100000 := idx2_lt0 i
  have hi1 : (i 1).val < 128 := idx2_lt1 i
  let t : Fin cfg2.N := ⟨(i 0).val / 4000, by omega⟩
  have ht : t.val = (i 0).val / 4000 := rfl
  obtain ⟨-, -, -, -, -, -, -, -, -, -, -, -, e0, e1⟩ := index2 t
  refine ⟨t, flush2_6 t, ?_⟩
  rw [mem_blk2_6]
  intro a
  match a with
  | ⟨0, _⟩ =>
    show win2_6.index t (0 : Fin 2) * 4000 ≤ (i 0).val ∧ (i 0).val < win2_6.index t (0 : Fin 2) * 4000 + 4000
    omega
  | ⟨1, _⟩ =>
    show win2_6.index t (1 : Fin 2) * 128 ≤ (i 1).val ∧ (i 1).val < win2_6.index t (1 : Fin 2) * 128 + 128
    omega

/-! ## What a point writes back, and the array after the last point -/

theorem hz2 : (![0, 0] : Fin 2 → Nat) = fun _ => 0 := funext fun a => by fin_cases a <;> rfl

/-- What the body leaves in the output's buffer at point t, at row r, feature q: the layer's dense half at array row
    4000 t + r. -/
theorem out2_6_apply (c : Dev nD) (t : Fin cfg2.N) (r : Fin 4000) (q : Fin 128) :
    (out2_6 (F := Ideal) (iblk2 V c 0 t) (iblk2 V c 1 t) (iblk2 V c 2 t) (iblk2 V c 3 t) (iblk2 V c 4 t) (iblk2 V c 5 t)
        : S4000x128.Idx → EReal) (ix2 r q)
      = Cert.Spec.ginAt (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (row2 t r) q := by
  unfold out2_6
  rw [View.canon_unit_zero hz2]
  simp only [View.ld_unit_zero (S := S4000x128) hz2, View.ld_unit_zero (S := S128x128) hz2, View.ld_unit_zero (S := S1x128) hz2]
  refine (payload2_apply _ _ _ _ _ _ r q).trans ?_
  unfold Cert.Spec.ginAt
  simp only [iblk2_0_apply V c t, iblk2_1_apply V c t, iblk2_2_apply V c t, iblk2_3_apply V c t, iblk2_4_apply V c t,
    iblk2_5_apply V c t]

/-- What point t writes back is block t of the layer's dense half of the arrays the region finds. -/
theorem flushed2_eq (c : Dev nD) (t : Fin cfg2.N) :
    (dat2 (F := Ideal) V c).flushed 6 t
      = ((cfg2.win 6).blk t).view.read (Elt Ideal)
          (Cert.Spec.gin (V c (Pipeline.arrRef spec2 0)) (V c (Pipeline.arrRef spec2 1)) (V c (Pipeline.arrRef spec2 2))
            (V c (Pipeline.arrRef spec2 3)) (V c (Pipeline.arrRef spec2 4)) (V c (Pipeline.arrRef spec2 5))) := by
  show (cfg2.win 6).cut (grid2.coords t) ((dat2 (F := Ideal) V c).after 6 t) = _
  rw [after2_6]
  funext j
  obtain ⟨r, q, rfl⟩ : ∃ (r : Fin 4000) (q : Fin 128), j = ix2 r q := ⟨j 0, j 1, eq_ix2 j⟩
  rw [View.read_apply]
  show (out2_6 (F := Ideal) (iblk2 V c 0 t) (iblk2 V c 1 t) (iblk2 V c 2 t) (iblk2 V c 3 t) (iblk2 V c 4 t) (iblk2 V c 5 t)
        : S4000x128.Idx → EReal) (ix2 r q)
      = Cert.Spec.gin (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (((cfg2.win 6).blk t).view.emb (ix2 r q))
  rw [emb2_6 t r q, Cert.Spec.gin_apply]
  exact out2_6_apply V c t r q

/-- What region 2's write-backs leave in its output's array: the layer's dense half of the arrays it finds. -/
theorem gin2_value (V : (c : Dev nD) → (b : Ref sig .tc) → Buf (Elt Ideal) ((c : Thread nD τ).loc b)) (c : Dev nD) :
    ((dat2 (F := Ideal) V c).arrAt 6 cfg2.N : S100000x128.Idx → EReal)
      = Cert.Spec.gin (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 (F := Ideal) V c).arrAt_eq_of_cover 6 _ (fun t _ => flushed2_eq V c t) cover2

end Cert.KernelIdeal.Run

end
-- ==== Proof.KI.GinValue4.lean ====
/-
  What region 4 (a graph-convolution layer's dense half) leaves in its output's array, as one function of the arrays it
  finds. At point t the body stores, over its whole output block, relu(relu((x0 + x1) · x2 + x3) · x4 + x5) of the six
  blocks it loaded; the two row windows and the output have block (t, 0) of 4000 rows, so row r of a block is array row
  4000 t + r, and the weights and bias rows are whole arrays at every point. Hence what point t writes back is block t
  of the specification's layer function of the arrays; the 25 blocks tile the 100000 rows (row p lies in block p / 4000),
  so the array ends holding that function.
-/
import proofs.«410827_j82411832476193_1_alg».proof.Proof.KI.Gin4
import proofs.«410827_j82411832476193_1_alg».proof.Proof.Spec
import proofs.«410827_j82411832476193_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Run

open Cert.KernelIdeal Cert.KernelIdeal.Gen
open Idealize.ShloMosaic Idealize.ShloMosaic.TcCoe Idealize.ShloMosaic.ValueIdx
open Idealize.ShloMosaic.Pipeline (Dat)

/-! ## The body's arithmetic at an index -/

/-- One dense layer of the body at row r, feature q: the product with the weights summed over the 128 inputs, the bias
    row added, the negative part cut off. -/
theorem dense4_apply (a : FVec Ideal S4000x128 .bf16) (w : Vec Ideal S128x128 .f32) (b : Vec Ideal S1x128 .f32)
    (r : Fin 4000) (q : Fin 128) :
    maximumf (addf (matmul dot_S4000x128_S128x128_S4000x128_1_0_0_1_n_n none a
          (truncf .bf16 (shapeCast S128x128 w shapeCasts_S128x128_S128x128) bitsLt_bf16_f32)
          (constant (F := Ideal) S4000x128 .f32 0x00000000#32))
        (broadcastTo S4000x128 (shapeCast S1x128 b shapeCasts_S1x128_S1x128) broadcasts_S1x128_S4000x128))
      (broadcast S4000x128 (Scalar.ofBits (F := Ideal) .f32 0x00000000#32)) (ix2 r q)
      = max ((∑ k : Fin 128, a (ix2 r k) * w (ix2 k q)) + b (ix2 0 q)) 0 := by
  rw [maximumf_apply, broadcast_apply, addf_apply, shapeCast_self, shapeCast_self]
  rw [broadcastTo_1b_ab_apply]
  rw [show Scalar.ofBits (F := Ideal) .f32 0x00000000#32 = 0 from Ideal.ofBits_zero_f32]
  refine congrArg (fun s => max (s + b (ix2 0 q)) 0) ?_
  exact Cert.Lib.matmul_plain_apply dot_S4000x128_S128x128_S4000x128_1_0_0_1_n_n rfl rfl rfl rfl rfl rfl none a _ r q

/-- The body's arithmetic at row r, feature q of the block: two dense layers, the first on the sum of the two row blocks. -/
theorem payload4_apply (x0 x1 : Vec Ideal S4000x128 .f32) (x2 : Vec Ideal S128x128 .f32) (x3 : Vec Ideal S1x128 .f32)
    (x4 : Vec Ideal S128x128 .f32) (x5 : Vec Ideal S1x128 .f32) (r : Fin 4000) (q : Fin 128) :
    k4_pay1 (F := Ideal) x0 x1 x2 x3 x4 x5 (ix2 r q)
      = max ((∑ k : Fin 128, max ((∑ j : Fin 128, (x0 (ix2 r j) + x1 (ix2 r j)) * x2 (ix2 j k)) + x3 (ix2 0 k)) 0
          * x4 (ix2 k q)) + x5 (ix2 0 q)) 0 := by
  unfold k4_pay1
  refine (dense4_apply _ x4 x5 r q).trans ?_
  refine congrArg (fun s => max (s + x5 (ix2 0 q)) 0) (Finset.sum_congr rfl fun k _ => ?_)
  refine congrArg (fun s => s * x4 (ix2 k q)) ?_
  rw [truncf_apply]
  refine (dense4_apply _ x2 x3 r k).trans ?_
  refine congrArg (fun s => max (s + x3 (ix2 0 k)) 0) (Finset.sum_congr rfl fun j _ => ?_)
  rw [truncf_apply, addf_apply]
  simp only [shapeCast_self]

/-! ## The blocks at an index -/

variable (V : (c : Dev nD) → (b : Ref sig .tc) → Buf (Elt Ideal) ((c : Thread nD τ).loc b))

/-- The printed index maps at point t: the two row windows and the output's block index is (t, 0); the weights' and
    the bias rows' is (0, 0). Decided over the 25 points. -/
theorem index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- A point is below 25. -/
theorem point4_lt (t : Fin cfg4.N) : t.val < 25 := by
  have h : t.val < cfg4.N := t.isLt
  have hN : cfg4.N = 25 := N_4
  omega

/-- Row r of block t is a row of the array. -/
theorem row4_lt (t : Fin cfg4.N) (r : Fin 4000) : 4000 * t.val + r.val < 100000 := by
  have := point4_lt t; have := r.isLt; omega

/-- Row r of the block at point t is array row 4000 t + r. -/
abbrev row4 (t : Fin cfg4.N) (r : Fin 4000) : Fin 100000 := ⟨4000 * t.val + r.val, row4_lt t r⟩

/-- Window 0's block at point t, at row r, feature q: the array's row 4000 t + r. -/
theorem iblk4_0_apply (c : Dev nD) (t : Fin cfg4.N) (r : Fin 4000) (q : Fin 128) :
    (iblk4 V c 0 t : S4000x128.Idx → EReal) (ix2 r q)
      = (V c (Pipeline.arrRef spec4 0) : S100000x128.Idx → EReal) (ix2 (row4 t r) q) := by
  obtain ⟨e0, e1, -⟩ := index4 t
  unfold iblk4
  rw [View.read_apply]
  show (V c (Pipeline.arrRef spec4 0) : S100000x128.Idx → EReal) _ = _
  congr 1
  funext a
  apply Fin.ext
  match a with
  | ⟨0, _⟩ => show win4_0.index t (0 : Fin 2) * 4000 + 1 * r.val = 4000 * t.val + r.val; omega
  | ⟨1, _⟩ => show win4_0.index t (1 : Fin 2) * 128 + 1 * q.val = q.val; omega

/-- Window 1's block at point t, at row r, feature q: the array's row 4000 t + r. -/
theorem iblk4_1_apply (c : Dev nD) (t : Fin cfg4.N) (r : Fin 4000) (q : Fin 128) :
    (iblk4 V c 1 t : S4000x128.Idx → EReal) (ix2 r q)
      = (V c (Pipeline.arrRef spec4 1) : S100000x128.Idx → EReal) (ix2 (row4 t r) q) := by
  obtain ⟨-, -, e0, e1, -⟩ := index4 t
  unfold iblk4
  rw [View.read_apply]
  show (V c (Pipeline.arrRef spec4 1) : S100000x128.Idx → EReal) _ = _
  congr 1
  funext a
  apply Fin.ext
  match a with
  | ⟨0, _⟩ => show win4_1.index t (0 : Fin 2) * 4000 + 1 * r.val = 4000 * t.val + r.val; omega
  | ⟨1, _⟩ => show win4_1.index t (1 : Fin 2) * 128 + 1 * q.val = q.val; omega

/-- Window 2's block at every point is its whole array. -/
theorem iblk4_2_apply (c : Dev nD) (t : Fin cfg4.N) (j : Fin 128) (k : Fin 128) :
    (iblk4 V c 2 t : S128x128.Idx → EReal) (ix2 j k)
      = (V c (Pipeline.arrRef spec4 2) : S128x128.Idx → EReal) (ix2 j k) := by
  obtain ⟨-, -, -, -, e0, e1, -⟩ := index4 t
  unfold iblk4
  rw [View.read_apply]
  show (V c (Pipeline.arrRef spec4 2) : S128x128.Idx → EReal) _ = _
  congr 1
  funext a
  apply Fin.ext
  match a with
  | ⟨0, _⟩ => show win4_2.index t (0 : Fin 2) * 128 + 1 * j.val = j.val; omega
  | ⟨1, _⟩ => show win4_2.index t (1 : Fin 2) * 128 + 1 * k.val = k.val; omega

/-- Window 3's block at every point is its whole array, one row. -/
theorem iblk4_3_apply (c : Dev nD) (t : Fin cfg4.N) (j : Fin 1) (k : Fin 128) :
    (iblk4 V c 3 t : S1x128.Idx → EReal) (ix2 j k)
      = (V c (Pipeline.arrRef spec4 3) : S1x128.Idx → EReal) (ix2 j k) := by
  obtain ⟨-, -, -, -, -, -, e0, e1, -⟩ := index4 t
  unfold iblk4
  rw [View.read_apply]
  show (V c (Pipeline.arrRef spec4 3) : S1x128.Idx → EReal) _ = _
  congr 1
  funext a
  apply Fin.ext
  match a with
  | ⟨0, _⟩ => show win4_3.index t (0 : Fin 2) * 1 + 1 * j.val = j.val; omega
  | ⟨1, _⟩ => show win4_3.index t (1 : Fin 2) * 128 + 1 * k.val = k.val; omega

/-- Window 4's block at every point is its whole array. -/
theorem iblk4_4_apply (c : Dev nD) (t : Fin cfg4.N) (j : Fin 128) (k : Fin 128) :
    (iblk4 V c 4 t : S128x128.Idx → EReal) (ix2 j k)
      = (V c (Pipeline.arrRef spec4 4) : S128x128.Idx → EReal) (ix2 j k) := by
  obtain ⟨-, -, -, -, -, -, -, -, e0, e1, -⟩ := index4 t
  unfold iblk4
  rw [View.read_apply]
  show (V c (Pipeline.arrRef spec4 4) : S128x128.Idx → EReal) _ = _
  congr 1
  funext a
  apply Fin.ext
  match a with
  | ⟨0, _⟩ => show win4_4.index t (0 : Fin 2) * 128 + 1 * j.val = j.val; omega
  | ⟨1, _⟩ => show win4_4.index t (1 : Fin 2) * 128 + 1 * k.val = k.val; omega

/-- Window 5's block at every point is its whole array, one row. -/
theorem iblk4_5_apply (c : Dev nD) (t : Fin cfg4.N) (j : Fin 1) (k : Fin 128) :
    (iblk4 V c 5 t : S1x128.Idx → EReal) (ix2 j k)
      = (V c (Pipeline.arrRef spec4 5) : S1x128.Idx → EReal) (ix2 j k) := by
  obtain ⟨-, -, -, -, -, -, -, -, -, -, e0, e1, -⟩ := index4 t
  unfold iblk4
  rw [View.read_apply]
  show (V c (Pipeline.arrRef spec4 5) : S1x128.Idx → EReal) _ = _
  congr 1
  funext a
  apply Fin.ext
  match a with
  | ⟨0, _⟩ => show win4_5.index t (0 : Fin 2) * 1 + 1 * j.val = j.val; omega
  | ⟨1, _⟩ => show win4_5.index t (1 : Fin 2) * 128 + 1 * k.val = k.val; omega

/-- Where the output's block at point t sits in its array: row r of the block is array row 4000 t + r. -/
theorem emb4_6 (t : Fin cfg4.N) (r : Fin 4000) (q : Fin 128) :
    (((cfg4.win 6).blk t).view.emb (ix2 r q) : S100000x128.Idx) = ix2 (row4 t r) q := by
  obtain ⟨-, -, -, -, -, -, -, -, -, -, -, -, e0, e1⟩ := index4 t
  funext a
  apply Fin.ext
  match a with
  | ⟨0, _⟩ => show win4_6.index t (0 : Fin 2) * 4000 + 1 * r.val = 4000 * t.val + r.val; omega
  | ⟨1, _⟩ => show win4_6.index t (1 : Fin 2) * 128 + 1 * q.val = q.val; omega

/-- An index of the array is in point t's output block iff each coordinate is in the block's range on its axis. -/
theorem mem_blk4_6 (t : Fin cfg4.N) (i : S100000x128.Idx) :
    i ∈ ((cfg4.win 6).blk t).view.set
      ↔ ∀ a : Fin 2, win4_6.index t a * S4000x128.size a ≤ (i a).val
          ∧ (i a).val < win4_6.index t a * S4000x128.size a + S4000x128.size a := by
  show i ∈ ((View.whole (Pipeline.arrRef spec4 6)).slice (win4_6.rect t)).set ↔ _
  rw [View.set_slice_whole, Rect.mem_set_unit]
  exact Iff.rfl

/-- Every index of the output's array is in the block of the point its row falls to: row p is in block p / 4000. -/
theorem cover4 (i : S100000x128.Idx) :
    ∃ t : Fin cfg4.N, (cfg4.win 6).flush t = true ∧ i ∈ ((cfg4.win 6).blk t).view.set := by
  have hN : cfg4.N = 25 := N_4
  have hi0 : (i 0).val < 100000 := idx2_lt0 i
  have hi1 : (i 1).val < 128 := idx2_lt1 i
  let t : Fin cfg4.N := ⟨(i 0).val / 4000, by omega⟩
  have ht : t.val = (i 0).val / 4000 := rfl
  obtain ⟨-, -, -, -, -, -, -, -, -, -, -, -, e0, e1⟩ := index4 t
  refine ⟨t, flush4_6 t, ?_⟩
  rw [mem_blk4_6]
  intro a
  match a with
  | ⟨0, _⟩ =>
    show win4_6.index t (0 : Fin 2) * 4000 ≤ (i 0).val ∧ (i 0).val < win4_6.index t (0 : Fin 2) * 4000 + 4000
    omega
  | ⟨1, _⟩ =>
    show win4_6.index t (1 : Fin 2) * 128 ≤ (i 1).val ∧ (i 1).val < win4_6.index t (1 : Fin 2) * 128 + 128
    omega

/-! ## What a point writes back, and the array after the last point -/

theorem hz4 : (![0, 0] : Fin 2 → Nat) = fun _ => 0 := funext fun a => by fin_cases a <;> rfl

/-- What the body leaves in the output's buffer at point t, at row r, feature q: the layer's dense half at array row
    4000 t + r. -/
theorem out4_6_apply (c : Dev nD) (t : Fin cfg4.N) (r : Fin 4000) (q : Fin 128) :
    (out4_6 (F := Ideal) (iblk4 V c 0 t) (iblk4 V c 1 t) (iblk4 V c 2 t) (iblk4 V c 3 t) (iblk4 V c 4 t) (iblk4 V c 5 t)
        : S4000x128.Idx → EReal) (ix2 r q)
      = Cert.Spec.ginAt (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) (row4 t r) q := by
  unfold out4_6
  rw [View.canon_unit_zero hz4]
  simp only [View.ld_unit_zero (S := S4000x128) hz4, View.ld_unit_zero (S := S128x128) hz4, View.ld_unit_zero (S := S1x128) hz4]
  refine (payload4_apply _ _ _ _ _ _ r q).trans ?_
  unfold Cert.Spec.ginAt
  simp only [iblk4_0_apply V c t, iblk4_1_apply V c t, iblk4_2_apply V c t, iblk4_3_apply V c t, iblk4_4_apply V c t,
    iblk4_5_apply V c t]

/-- What point t writes back is block t of the layer's dense half of the arrays the region finds. -/
theorem flushed4_eq (c : Dev nD) (t : Fin cfg4.N) :
    (dat4 (F := Ideal) V c).flushed 6 t
      = ((cfg4.win 6).blk t).view.read (Elt Ideal)
          (Cert.Spec.gin (V c (Pipeline.arrRef spec4 0)) (V c (Pipeline.arrRef spec4 1)) (V c (Pipeline.arrRef spec4 2))
            (V c (Pipeline.arrRef spec4 3)) (V c (Pipeline.arrRef spec4 4)) (V c (Pipeline.arrRef spec4 5))) := by
  show (cfg4.win 6).cut (grid4.coords t) ((dat4 (F := Ideal) V c).after 6 t) = _
  rw [after4_6]
  funext j
  obtain ⟨r, q, rfl⟩ : ∃ (r : Fin 4000) (q : Fin 128), j = ix2 r q := ⟨j 0, j 1, eq_ix2 j⟩
  rw [View.read_apply]
  show (out4_6 (F := Ideal) (iblk4 V c 0 t) (iblk4 V c 1 t) (iblk4 V c 2 t) (iblk4 V c 3 t) (iblk4 V c 4 t) (iblk4 V c 5 t)
        : S4000x128.Idx → EReal) (ix2 r q)
      = Cert.Spec.gin (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (((cfg4.win 6).blk t).view.emb (ix2 r q))
  rw [emb4_6 t r q, Cert.Spec.gin_apply]
  exact out4_6_apply V c t r q

/-- What region 4's write-backs leave in its output's array: the layer's dense half of the arrays it finds. -/
theorem gin4_value (V : (c : Dev nD) → (b : Ref sig .tc) → Buf (Elt Ideal) ((c : Thread nD τ).loc b)) (c : Dev nD) :
    ((dat4 (F := Ideal) V c).arrAt 6 cfg4.N : S100000x128.Idx → EReal)
      = Cert.Spec.gin (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) :=
  (dat4 (F := Ideal) V c).arrAt_eq_of_cover 6 _ (fun t _ => flushed4_eq V c t) cover4

end Cert.KernelIdeal.Run

end
-- ==== Proof.KI.PoolValue1.lean ====
/-
  One layer's graph pooling (region 1 of the program), as a value: what its output array holds after the run.

  The region walks the 100000 rows of the layer's output in 50 blocks of 2000, with their graph ids. Its one output
  block, 1024 padded graph rows by 128 features, stays in its buffer over the whole grid and is written back once,
  after the last point. Point 0 clears the block; every point then adds to entry (g, q) the sum over its 2000 rows r
  of mask(r, g) · h(r, q), where mask(r, g) is 1 if row r's id word equals the word of g and 0 otherwise: since
  0 · x = 0 and 1 · x = x for every extended real, that is the sum of h(r, q) over the block's rows with id g, with
  no finiteness asked. By induction on the point the block holds, after point n, the sum over the rows below
  2000 · (n + 1) with id g; after point 49 that is every row, the specification's pooled sum.
-/
import proofs.«410827_j82411832476193_1_alg».proof.Proof.KI.Pool1
import proofs.«410827_j82411832476193_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Run

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-! ## The two control cases' stores, read back as the body's arithmetic -/

/-- The zero offsets of the body's loads and stores, as the function they are. -/
theorem hz1 : (![0, 0] : Fin 2 → Nat) = fun _ => 0 := funext fun a => by fin_cases a <;> rfl

/-- FIRST POINT: the body stores the zero block, loads it back, and stores the arithmetic over it; the later store
    covers the block. -/
theorem piece1_A (c : Dev nD) (i : grid1.Coords) (a1 : Memref sig .tc .vmem S2000x128 .f32) (h1 : a1.IsWhole)
    (a2 : Memref sig .tc .vmem S2000x1 .i32) (h2 : a2.IsWhole) (a3 : Memref sig .tc .vmem S1024x128 .f32) (h3 : a3.IsWhole)
    (hc : cond1_0 i) (x0 : Vec F S2000x128 .f32) (x1 : Vec F S2000x1 .i32) :
    out1_A_2 c i a1 h1 a2 h2 a3 h3 hc x0 x1 = k1_pay2 x1 x0 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1024x128) hz1]
  simp only [View.readAt_eq_ld, h1.read_unread, h2.read_unread, View.ld_unit_zero (S := S2000x128) hz1,
    View.ld_unit_zero (S := S2000x1) hz1, View.readCov_unit_zero (S := S1024x128) _ hz1]

/-- LATER POINTS: one covering store of the arithmetic over what the block held. -/
theorem piece1_B (c : Dev nD) (i : grid1.Coords) (a1 : Memref sig .tc .vmem S2000x128 .f32) (h1 : a1.IsWhole)
    (a2 : Memref sig .tc .vmem S2000x1 .i32) (h2 : a2.IsWhole) (a3 : Memref sig .tc .vmem S1024x128 .f32) (h3 : a3.IsWhole)
    (hc : ¬cond1_0 i) (x0 : Vec F S2000x128 .f32) (x1 : Vec F S2000x1 .i32) (xo : Vec F S1024x128 .f32) :
    out1_B_2 c i a1 h1 a2 h2 a3 h3 hc x0 x1 xo = k1_pay2 x1 x0 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz1]
  simp only [View.readAt_eq_ld, h1.read_unread, h2.read_unread, h3.read_unread, View.ld_unit_zero (S := S2000x128) hz1,
    View.ld_unit_zero (S := S2000x1) hz1, View.ld_unit_zero (S := S1024x128) hz1]

/-! ## The body's arithmetic at an index, on the extended reals -/

/-- The matrix unit's product here contracts the ROW axis of both operands: the left operand's row is the
    contracted coordinate, -/
theorem dot1_lhs_0 (i : S1024x128.Idx) (k : dot_S2000x1024_S2000x128_S1024x128_0_0_1_1_n_n.contr.Idx) :
    (dot_S2000x1024_S2000x128_S1024x128_0_0_1_1_n_n.lhsIdx i k 0).val = (k ⟨0, Nat.one_pos⟩).val :=
  dot_S2000x1024_S2000x128_S1024x128_0_0_1_1_n_n.lhsIdx_val_of_single rfl i k

/-- its column the result's row, -/
theorem dot1_lhs_1 (i : S1024x128.Idx) (k : dot_S2000x1024_S2000x128_S1024x128_0_0_1_1_n_n.contr.Idx) :
    (dot_S2000x1024_S2000x128_S1024x128_0_0_1_1_n_n.lhsIdx i k 1).val = (i 0).val := by
  rw [DotDims.lhsIdx, dif_neg (show ¬(1 : Fin 2) ∈ dot_S2000x1024_S2000x128_S1024x128_0_0_1_1_n_n.lhsBatch from List.not_mem_nil),
    dif_pos (show (1 : Fin 2) ∈ dot_S2000x1024_S2000x128_S1024x128_0_0_1_1_n_n.lhsNonContracting from List.mem_singleton.mpr rfl)]
  rfl

/-- the right operand's row the contracted coordinate, -/
theorem dot1_rhs_0 (i : S1024x128.Idx) (k : dot_S2000x1024_S2000x128_S1024x128_0_0_1_1_n_n.contr.Idx) :
    (dot_S2000x1024_S2000x128_S1024x128_0_0_1_1_n_n.rhsIdx i k 0).val = (k ⟨0, Nat.one_pos⟩).val :=
  dot_S2000x1024_S2000x128_S1024x128_0_0_1_1_n_n.rhsIdx_val_of_single rfl i k

/-- and its column the result's column. -/
theorem dot1_rhs_1 (i : S1024x128.Idx) (k : dot_S2000x1024_S2000x128_S1024x128_0_0_1_1_n_n.contr.Idx) :
    (dot_S2000x1024_S2000x128_S1024x128_0_0_1_1_n_n.rhsIdx i k 1).val = (i 1).val := by
  rw [DotDims.rhsIdx, dif_neg (show ¬(1 : Fin 2) ∈ dot_S2000x1024_S2000x128_S1024x128_0_0_1_1_n_n.rhsBatch from List.not_mem_nil),
    dif_pos (show (1 : Fin 2) ∈ dot_S2000x1024_S2000x128_S1024x128_0_0_1_1_n_n.rhsNonContracting from List.mem_singleton.mpr rfl)]
  rfl

/-- So entry (g, q) of the product into the zero block is the sum over the 2000 rows r of l[r, g] · m[r, q]. -/
theorem matmul1_apply {φ₁ φ₂ : FTy} (l : FVec Ideal S2000x1024 φ₁) (m : FVec Ideal S2000x128 φ₂) (g : Fin 1024) (q : Fin 128) :
    FloatOps.matmul dot_S2000x1024_S2000x128_S1024x128_0_0_1_1_n_n none l m (constant S1024x128 .f32 0x00000000#32) (ix2 g q)
      = ∑ r : Fin 2000, l (ix2 r g) * m (ix2 r q) := by
  rw [Ideal.matmul_constant_zero_apply,
    ← Equiv.sum_comp (contrEquiv1 dot_S2000x1024_S2000x128_S1024x128_0_0_1_1_n_n 2000 rfl rfl).symm]
  refine Finset.sum_congr rfl fun r _ => ?_
  have hr := contrEquiv1_symm_val dot_S2000x1024_S2000x128_S1024x128_0_0_1_1_n_n 2000 rfl rfl r
  have el : dot_S2000x1024_S2000x128_S1024x128_0_0_1_1_n_n.lhsIdx (ix2 g q)
      ((contrEquiv1 dot_S2000x1024_S2000x128_S1024x128_0_0_1_1_n_n 2000 rfl rfl).symm r) = ix2 r g :=
    funext fun a => Fin.ext (by
      match a with
      | ⟨0, _⟩ => exact (dot1_lhs_0 _ _).trans hr
      | ⟨1, _⟩ => exact dot1_lhs_1 _ _)
  have er : dot_S2000x1024_S2000x128_S1024x128_0_0_1_1_n_n.rhsIdx (ix2 g q)
      ((contrEquiv1 dot_S2000x1024_S2000x128_S1024x128_0_0_1_1_n_n 2000 rfl rfl).symm r) = ix2 r q :=
    funext fun a => Fin.ext (by
      match a with
      | ⟨0, _⟩ => exact (dot1_rhs_0 _ _).trans hr
      | ⟨1, _⟩ => exact dot1_rhs_1 _ _)
  rw [el, er]

/-- The equality mask as a number: 1 where the two words are equal, 0 elsewhere. -/
theorem mask1_val (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · have e : IntOp.cmpi .eq a b = 1#1 := by subst h; simp [IntOp.cmpi]
    rw [if_pos h, e, show ((1#1 : BitVec 1).setWidth 32).toInt = 1 from by decide]
    simp
  · have hb : (a == b) = false := beq_eq_false_iff_ne.mpr h
    have e : IntOp.cmpi .eq a b = 0#1 := by simp [IntOp.cmpi, hb]
    rw [if_neg h, e, show ((0#1 : BitVec 1).setWidth 32).toInt = 0 from by decide]
    simp

/-- The mask at row r, graph row g: the row's id word against the word of g. -/
theorem mask1_apply (v4 : Vec Ideal S2000x1 .i32) (r : Fin 2000) (g : Fin 1024) :
    cmpi .eq (broadcastTo S2000x1024 (shapeCast S2000x1 v4 shapeCasts_S2000x1_S2000x1) broadcasts_S2000x1_S2000x1024)
        (broadcastTo S2000x1024 (iota .tc S1x1024 32 [1] iota_S1x1024_d1_w32) broadcasts_S1x1024_S2000x1024) (ix2 r g)
      = IntOp.cmpi .eq (v4 (ix2 r 0)) (BitVec.ofNat 32 g.val) := by
  show IntOp.cmpi .eq _ _ = _
  rw [broadcastTo_apply _ broadcasts_S2000x1_S2000x1024 (ix2 r g) (ix2 r 0) (fun a => by
      match a with
      | ⟨0, _⟩ => rfl
      | ⟨1, _⟩ => rfl),
    broadcastTo_apply _ broadcasts_S1x1024_S2000x1024 (ix2 r g) (ix2 0 g) (fun a => by
      match a with
      | ⟨0, _⟩ => rfl
      | ⟨1, _⟩ => rfl),
    shapeCast_self, iota_single_apply]

/-- THE BODY'S ARITHMETIC at graph row g, feature q: what the block held there plus the rows of the point's 2000
    whose id word is the word of g. -/
theorem pay1_2_apply (v4 : Vec Ideal S2000x1 .i32) (v12 : Vec Ideal S2000x128 .f32) (v16 : Vec Ideal S1024x128 .f32)
    (g : Fin 1024) (q : Fin 128) :
    k1_pay2 v4 v12 v16 (ix2 g q)
      = v16 (ix2 g q) + ∑ r ∈ Finset.univ.filter (fun r : Fin 2000 => v4 (ix2 r 0) = BitVec.ofNat 32 g.val), v12 (ix2 r q) := by
  unfold k1_pay2
  refine (addf_apply _ _ (ix2 g q)).trans ?_
  refine congrArg₂ (· + ·) (congrFun (shapeCast_self v16 _) (ix2 g q)) ?_
  refine (matmul1_apply _ _ g q).trans ?_
  rw [Finset.sum_filter]
  refine Finset.sum_congr rfl fun r _ => ?_
  refine (congrArg₂ (· * ·) ((congrArg (fun w : BitVec 1 => (FloatOps.sitofp (F := Ideal) .f32 (w.setWidth 32) : EReal))
    (mask1_apply v4 r g)).trans (mask1_val _ _)) (congrFun (shapeCast_self v12 _) (ix2 r q))).trans ?_
  by_cases h : v4 (ix2 r 0) = BitVec.ofNat 32 g.val
  · rw [if_pos h, if_pos h, one_mul]
  · rw [if_neg h, if_neg h, zero_mul]

/-- The cleared block is zero everywhere. -/
theorem pay1_1_apply (j : S1024x128.Idx) : k1_pay1 (F := Ideal) j = 0 := Ideal.ofBits_zero_f32

/-! ## The running sum over the rows seen so far -/

/-- A graph row's number as a 32-bit word, read back as a signed integer, is the number: it is below 2³¹. -/
theorem word1_toInt (g : Fin 1024) : (BitVec.ofNat 32 g.val).toInt = (g.val : ℤ) := by
  have hg := g.isLt
  rw [BitVec.toInt_eq_toNat_cond, BitVec.toNat_ofNat, Nat.mod_eq_of_lt (by omega), if_pos (by omega)]

/-- So an id word equals that word exactly when the id, read as a signed integer, is the graph row's number. -/
theorem word1_iff (w : BitVec 32) (g : Fin 1024) : w = BitVec.ofNat 32 g.val ↔ w.toInt = (g.val : ℤ) :=
  ⟨fun h => h ▸ word1_toInt g, fun h => BitVec.eq_of_toInt_eq (h.trans (word1_toInt g).symm)⟩

/-- Row r of the n-th block of 2000 rows, in the array of 100000. -/
def row1 (n : ℕ) (hn : n < 50) (r : Fin 2000) : Fin 100000 := ⟨2000 * n + r.val, by have := r.isLt; omega⟩

theorem row1_inj (n : ℕ) (hn : n < 50) : Function.Injective (row1 n hn) := fun a b h => by
  have := congrArg Fin.val h
  exact Fin.ext (by simp only [row1] at this; omega)

/-- THE RUNNING SUM for graph row g, feature q, over the rows below 2000 · n: those whose id is g. -/
def acc1_sum (hh : Cert.Spec.SNodes.Idx → EReal) (gid : IVec Cert.Spec.SIds 32) (n : ℕ) (g : Fin 1024) (q : Fin 128) : EReal :=
  ∑ r ∈ Finset.univ.filter (fun r : Fin 100000 => r.val < 2000 * n ∧ (gid (ix2 r 0)).toInt = (g.val : ℤ)), hh (ix2 r q)

/-- Before any row it is zero. -/
theorem acc1_sum_zero (hh : Cert.Spec.SNodes.Idx → EReal) (gid : IVec Cert.Spec.SIds 32) (g : Fin 1024) (q : Fin 128) :
    acc1_sum hh gid 0 g q = 0 := by
  unfold acc1_sum
  rw [Finset.filter_false_of_mem (fun r _ h => absurd h.1 (by omega)), Finset.sum_empty]

/-- One more block of 2000 rows adds that block's rows with id g. -/
theorem acc1_sum_succ (hh : Cert.Spec.SNodes.Idx → EReal) (gid : IVec Cert.Spec.SIds 32) (n : ℕ) (hn : n < 50)
    (g : Fin 1024) (q : Fin 128) :
    acc1_sum hh gid (n + 1) g q = acc1_sum hh gid n g q
      + ∑ r ∈ Finset.univ.filter (fun r : Fin 2000 => (gid (ix2 (row1 n hn r) 0)).toInt = (g.val : ℤ)), hh (ix2 (row1 n hn r) q) := by
  unfold acc1_sum
  have hsplit : Finset.univ.filter (fun r : Fin 100000 => r.val < 2000 * (n + 1) ∧ (gid (ix2 r 0)).toInt = (g.val : ℤ))
      = Finset.univ.filter (fun r : Fin 100000 => r.val < 2000 * n ∧ (gid (ix2 r 0)).toInt = (g.val : ℤ))
        ∪ (Finset.univ.filter (fun r : Fin 2000 => (gid (ix2 (row1 n hn r) 0)).toInt = (g.val : ℤ))).map
            ⟨row1 n hn, row1_inj n hn⟩ := by
    ext r
    simp only [Finset.mem_union, Finset.mem_filter, Finset.mem_univ, true_and, Finset.mem_map, Function.Embedding.coeFn_mk]
    constructor
    · rintro ⟨h1, h2⟩
      by_cases h : r.val < 2000 * n
      · exact Or.inl ⟨h, h2⟩
      · have e : row1 n hn ⟨r.val - 2000 * n, by omega⟩ = r := Fin.ext (by show 2000 * n + (r.val - 2000 * n) = r.val; omega)
        exact Or.inr ⟨⟨r.val - 2000 * n, by omega⟩, by rw [e]; exact h2, e⟩
    · rintro (⟨h1, h2⟩ | ⟨r', h2, rfl⟩)
      · exact ⟨by omega, h2⟩
      · exact ⟨by show 2000 * n + r'.val < 2000 * (n + 1); have := r'.isLt; omega, h2⟩
  have hdisj : Disjoint (Finset.univ.filter (fun r : Fin 100000 => r.val < 2000 * n ∧ (gid (ix2 r 0)).toInt = (g.val : ℤ)))
      ((Finset.univ.filter (fun r : Fin 2000 => (gid (ix2 (row1 n hn r) 0)).toInt = (g.val : ℤ))).map
        ⟨row1 n hn, row1_inj n hn⟩) := by
    refine Finset.disjoint_left.mpr fun r h1 h2 => ?_
    obtain ⟨r', -, rfl⟩ := Finset.mem_map.mp h2
    have h3 : (row1 n hn r').val < 2000 * n := (Finset.mem_filter.mp h1).2.1
    have h4 : (row1 n hn r').val = 2000 * n + r'.val := rfl
    omega
  rw [hsplit, Finset.sum_union hdisj, Finset.sum_map]
  rfl

/-- After all 50 blocks it is the specification's pooled sum. -/
theorem acc1_sum_full (hh : Cert.Spec.SNodes.Idx → EReal) (gid : IVec Cert.Spec.SIds 32) (g : Fin 1024) (q : Fin 128) :
    acc1_sum hh gid 50 g q = Cert.Spec.poolAt 1024 hh gid g q := by
  unfold acc1_sum Cert.Spec.poolAt
  exact Finset.sum_congr (Finset.filter_congr fun r _ => ⟨fun h => h.2, fun h => ⟨by have := r.isLt; omega, h⟩⟩) fun _ _ => rfl

/-! ## The arrays and their blocks, by their literal types -/

variable (V : (c : Dev nD) → (b : Ref sig .tc) → Buf (Elt F) ((c : Thread nD τ).loc b))

/-- The layer's output as the region finds it, -/
abbrev harr1 (c : Dev nD) : Vec F S100000x128 .f32 := V c (Pipeline.arrRef spec1 0)
/-- the graph ids, -/
abbrev garr1 (c : Dev nD) : Vec F S100000x1 .i32 := V c (Pipeline.arrRef spec1 1)
/-- the 2000 rows of the output that point t takes, -/
abbrev hblk1 (c : Dev nD) (t : Fin cfg1.N) : Vec F S2000x128 .f32 := iblk1 V c 0 t
/-- and their 2000 ids. -/
abbrev gblk1 (c : Dev nD) (t : Fin cfg1.N) : Vec F S2000x1 .i32 := iblk1 V c 1 t

/-- The printed index maps, decided over the grid: both input windows take block (t, 0) at point t; the output's
    block is (0, 0) throughout. -/
theorem idx1_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Row r of point t's block of the output is row 2000 · t + r of the array. -/
theorem hblk1_apply (c : Dev nD) (t : Fin cfg1.N) (ht : t.val < 50) (r : Fin 2000) (q : Fin 128) :
    hblk1 V c t (ix2 r q) = harr1 V c (ix2 (row1 t.val ht r) q) := by
  obtain ⟨e0, e1, -, -, -, -⟩ := idx1_facts t
  show ((cfg1.win 0).blk t).view.read (Elt F) (V c (Pipeline.arrRef spec1 0)) (ix2 r q) = _
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * r.val = 2000 * t.val + r.val; rw [e0]; omega
  | ⟨1, _⟩ => show win1_0.index t (1 : Fin 2) * 128 + 1 * q.val = q.val; rw [e1]; omega

/-- Likewise its id. -/
theorem gblk1_apply (c : Dev nD) (t : Fin cfg1.N) (ht : t.val < 50) (r : Fin 2000) :
    gblk1 V c t (ix2 r 0) = garr1 V c (ix2 (row1 t.val ht r) 0) := by
  obtain ⟨-, -, e0, e1, -, -⟩ := idx1_facts t
  show ((cfg1.win 1).blk t).view.read (Elt F) (V c (Pipeline.arrRef spec1 1)) (ix2 r 0) = _
  rw [View.read_apply]
  show V c (Pipeline.arrRef spec1 1) _ = V c (Pipeline.arrRef spec1 1) _
  congr 1
  funext a
  apply Fin.ext
  match a with
  | ⟨0, _⟩ => show win1_1.index t (0 : Fin 2) * 2000 + 1 * r.val = 2000 * t.val + r.val; rw [e0]; omega
  | ⟨1, _⟩ => show win1_1.index t (1 : Fin 2) * 1 + 1 * 0 = 0; rw [e1]

/-! ## What the block holds after each point, as the body's arithmetic of the point's blocks -/

/-- After point 0: the arithmetic over the cleared block. -/
theorem outs1_zero (c : Dev nD) (hn : 0 < cfg1.N) :
    outsAt1 V c 0 hn = k1_pay2 (gblk1 V c ⟨0, hn⟩) (hblk1 V c ⟨0, hn⟩) (k1_pay1 (F := F)) :=
  (outsAt1_A V c ⟨0, hn⟩ (Nat.zero_mod _)).trans
    (piece1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (hblk1 V c ⟨0, hn⟩) (gblk1 V c ⟨0, hn⟩))

/-- After point n + 1: the arithmetic over what point n left. -/
theorem outs1_succ (c : Dev nD) (n : ℕ) (hn : n + 1 < cfg1.N) :
    outsAt1 V c (n + 1) hn
      = k1_pay2 (gblk1 V c ⟨n + 1, hn⟩) (hblk1 V c ⟨n + 1, hn⟩) (outsAt1 V c n (Nat.lt_of_succ_lt hn)) := by
  have hN : cfg1.N = 50 := N_1
  have hB : ¬(⟨n + 1, hn⟩ : Fin cfg1.N).val % 50 = 0 := by dsimp only; omega
  exact (outsAt1_B V c ⟨n + 1, hn⟩ hB).trans
    (piece1_B c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (fun h => hB ((hcond1_0 ⟨n + 1, hn⟩).mp h)) (hblk1 V c ⟨n + 1, hn⟩) (gblk1 V c ⟨n + 1, hn⟩)
      (outsAt1 V c n (Nat.lt_of_succ_lt hn)))

/-! ## The invariant, and the array after the run -/

section AtIdeal

variable (V : (c : Dev nD) → (b : Ref sig .tc) → Buf (Elt Ideal) ((c : Thread nD τ).loc b))

/-- The rows of point t's block whose id word is the word of g are the block's rows of the array whose id is g. -/
theorem blk1_sum (c : Dev nD) (t : Fin cfg1.N) (ht : t.val < 50) (g : Fin 1024) (q : Fin 128) :
    ∑ r ∈ Finset.univ.filter (fun r : Fin 2000 => gblk1 V c t (ix2 r 0) = BitVec.ofNat 32 g.val), hblk1 V c t (ix2 r q)
      = ∑ r ∈ Finset.univ.filter (fun r : Fin 2000 => (garr1 V c (ix2 (row1 t.val ht r) 0)).toInt = (g.val : ℤ)),
          harr1 V c (ix2 (row1 t.val ht r) q) := by
  refine Finset.sum_congr (Finset.filter_congr fun r _ => ?_) fun r _ => hblk1_apply V c t ht r q
  rw [gblk1_apply V c t ht r]
  exact word1_iff _ g

/-- THE INVARIANT: after point n the block holds, at graph row g and feature q, the sum of the rows below
    2000 · (n + 1) whose id is g. By induction on the point. -/
theorem acc1_eq (c : Dev nD) : ∀ (n : ℕ) (hn : n < cfg1.N) (g : Fin 1024) (q : Fin 128),
    outsAt1 V c n hn (ix2 g q) = acc1_sum (harr1 V c) (garr1 V c) (n + 1) g q
  | 0, hn, g, q => by
    refine (congrFun (outs1_zero V c hn) (ix2 g q)).trans ?_
    refine (pay1_2_apply (gblk1 V c ⟨0, hn⟩) (hblk1 V c ⟨0, hn⟩) (k1_pay1 (F := Ideal)) g q).trans ?_
    rw [pay1_1_apply, acc1_sum_succ _ _ 0 (by omega) g q, acc1_sum_zero]
    exact congrArg (0 + ·) (blk1_sum V c ⟨0, hn⟩ (by show 0 < 50; omega) g q)
  | n + 1, hn, g, q => by
    have hN : cfg1.N = 50 := N_1
    refine (congrFun (outs1_succ V c n hn) (ix2 g q)).trans ?_
    refine (pay1_2_apply (gblk1 V c ⟨n + 1, hn⟩) (hblk1 V c ⟨n + 1, hn⟩) (outsAt1 V c n (Nat.lt_of_succ_lt hn)) g q).trans ?_
    rw [acc1_eq c n (Nat.lt_of_succ_lt hn) g q, acc1_sum_succ _ _ (n + 1) (by omega) g q]
    exact congrArg (acc1_sum (harr1 V c) (garr1 V c) (n + 1) g q + ·) (blk1_sum V c ⟨n + 1, hn⟩ (by show n + 1 < 50; omega) g q)

/-- The output's block at every point is block (0, 0), the whole array: an index of the block is the same index of
    the array. -/
theorem emb1_out (t : Fin cfg1.N) (j : S1024x128.Idx) : ((cfg1.win 2).blk t).view.emb j = j := by
  obtain ⟨-, -, -, -, e0, e1⟩ := idx1_facts t
  funext a
  apply Fin.ext
  match a with
  | ⟨0, _⟩ => show win1_2.index t (0 : Fin 2) * 1024 + 1 * (j 0).val = (j 0).val; rw [e0]; omega
  | ⟨1, _⟩ => show win1_2.index t (1 : Fin 2) * 128 + 1 * (j 1).val = (j 1).val; rw [e1]; omega

/-- So the block of an array of that shape, read through the window, is the array. -/
theorem read1_out (t : Fin cfg1.N) (G : S1024x128.Idx → EReal) :
    ((cfg1.win 2).blk t).view.read (Elt Ideal) G = G := by
  funext j
  rw [View.read_apply]
  show G (((cfg1.win 2).blk t).view.emb j) = G j
  rw [emb1_out]

/-- AFTER THE LAST POINT the block is the specification's pooled sums. -/
theorem acc1_last (c : Dev nD) (t : Fin cfg1.N) (h49 : t.val + 1 = 50) :
    outsAt1 V c t.val t.isLt = Cert.Spec.pool 1024 (harr1 V c) (garr1 V c) := by
  funext j
  obtain ⟨g, q, rfl⟩ : ∃ (g : Fin 1024) (q : Fin 128), j = ix2 g q := ⟨j 0, j 1, eq_ix2 j⟩
  rw [acc1_eq V c t.val t.isLt g q, h49, acc1_sum_full]
  rfl

/-- WHAT THE ONE WRITE-BACK WRITES: the pooled sums, as the output's block of them. -/
theorem pool1_flushed (c : Dev nD) (t : Fin cfg1.N) (hf : (cfg1.win 2).flush t = true) :
    (dat1 (F := Ideal) V c).flushed 2 t
      = ((cfg1.win 2).blk t).view.read (Elt Ideal) (Cert.Spec.pool 1024 (harr1 V c) (garr1 V c)) := by
  have hN : cfg1.N = 50 := N_1
  have h49 : t.val + 1 = 50 := by have := (flush1_2 t).mp hf; have := t.isLt; omega
  rw [read1_out]
  show (cfg1.win 2).cut (grid1.coords t) ((dat1 V c).after 2 t) = _
  rw [after1_2]
  exact acc1_last V c t h49

/-- Every index of the array is in the block written back. -/
theorem cover1_out (t : Fin cfg1.N) (i : S1024x128.Idx) : i ∈ ((cfg1.win 2).blk t).view.set := by
  have h := ((cfg1.win 2).blk t).view.emb_mem_set i
  rw [emb1_out t i] at h
  exact h

end AtIdeal

/-- What region 1's one write-back leaves in its output's array: per padded graph row, the sum of the rows with that id. -/
theorem pool1_value (V : (c : Dev nD) → (b : Ref sig .tc) → Buf (Elt Ideal) ((c : Thread nD τ).loc b)) (c : Dev nD) :
    ((dat1 (F := Ideal) V c).arrAt 2 cfg1.N : S1024x128.Idx → EReal)
      = Cert.Spec.pool 1024 (V c (Pipeline.arrRef spec1 0)) (V c (Pipeline.arrRef spec1 1)) :=
  (dat1 (F := Ideal) V c).arrAt_eq_of_cover 2 (Cert.Spec.pool 1024 (harr1 V c) (garr1 V c)) (pool1_flushed V c) fun i =>
    ⟨⟨49, by rw [show cfg1.N = 50 from N_1]; decide⟩, (flush1_2 _).mpr rfl, cover1_out _ i⟩

end Cert.KernelIdeal.Run

end
-- ==== Proof.KI.PoolValue3.lean ====
/-
  One layer's graph pooling (region 3 of the program), as a value: what its output array holds after the run.

  The region walks the 100000 rows of the layer's output in 50 blocks of 2000, with their graph ids. Its one output
  block, 1024 padded graph rows by 128 features, stays in its buffer over the whole grid and is written back once,
  after the last point. Point 0 clears the block; every point then adds to entry (g, q) the sum over its 2000 rows r
  of mask(r, g) · h(r, q), where mask(r, g) is 1 if row r's id word equals the word of g and 0 otherwise: since
  0 · x = 0 and 1 · x = x for every extended real, that is the sum of h(r, q) over the block's rows with id g, with
  no finiteness asked. By induction on the point the block holds, after point n, the sum over the rows below
  2000 · (n + 1) with id g; after point 49 that is every row, the specification's pooled sum.
-/
import proofs.«410827_j82411832476193_1_alg».proof.Proof.KI.Pool3
import proofs.«410827_j82411832476193_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Run

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-! ## The two control cases' stores, read back as the body's arithmetic -/

/-- The zero offsets of the body's loads and stores, as the function they are. -/
theorem hz3 : (![0, 0] : Fin 2 → Nat) = fun _ => 0 := funext fun a => by fin_cases a <;> rfl

/-- FIRST POINT: the body stores the zero block, loads it back, and stores the arithmetic over it; the later store
    covers the block. -/
theorem piece3_A (c : Dev nD) (i : grid3.Coords) (a1 : Memref sig .tc .vmem S2000x128 .f32) (h1 : a1.IsWhole)
    (a2 : Memref sig .tc .vmem S2000x1 .i32) (h2 : a2.IsWhole) (a3 : Memref sig .tc .vmem S1024x128 .f32) (h3 : a3.IsWhole)
    (hc : cond3_0 i) (x0 : Vec F S2000x128 .f32) (x1 : Vec F S2000x1 .i32) :
    out3_A_2 c i a1 h1 a2 h2 a3 h3 hc x0 x1 = k3_pay2 x1 x0 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S1024x128) hz3]
  simp only [View.readAt_eq_ld, h1.read_unread, h2.read_unread, View.ld_unit_zero (S := S2000x128) hz3,
    View.ld_unit_zero (S := S2000x1) hz3, View.readCov_unit_zero (S := S1024x128) _ hz3]

/-- LATER POINTS: one covering store of the arithmetic over what the block held. -/
theorem piece3_B (c : Dev nD) (i : grid3.Coords) (a1 : Memref sig .tc .vmem S2000x128 .f32) (h1 : a1.IsWhole)
    (a2 : Memref sig .tc .vmem S2000x1 .i32) (h2 : a2.IsWhole) (a3 : Memref sig .tc .vmem S1024x128 .f32) (h3 : a3.IsWhole)
    (hc : ¬cond3_0 i) (x0 : Vec F S2000x128 .f32) (x1 : Vec F S2000x1 .i32) (xo : Vec F S1024x128 .f32) :
    out3_B_2 c i a1 h1 a2 h2 a3 h3 hc x0 x1 xo = k3_pay2 x1 x0 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz3]
  simp only [View.readAt_eq_ld, h1.read_unread, h2.read_unread, h3.read_unread, View.ld_unit_zero (S := S2000x128) hz3,
    View.ld_unit_zero (S := S2000x1) hz3, View.ld_unit_zero (S := S1024x128) hz3]

/-! ## The body's arithmetic at an index, on the extended reals -/

/-- The matrix unit's product here contracts the ROW axis of both operands: the left operand's row is the
    contracted coordinate, -/
theorem dot3_lhs_0 (i : S1024x128.Idx) (k : dot_S2000x1024_S2000x128_S1024x128_0_0_1_1_n_n.contr.Idx) :
    (dot_S2000x1024_S2000x128_S1024x128_0_0_1_1_n_n.lhsIdx i k 0).val = (k ⟨0, Nat.one_pos⟩).val :=
  dot_S2000x1024_S2000x128_S1024x128_0_0_1_1_n_n.lhsIdx_val_of_single rfl i k

/-- its column the result's row, -/
theorem dot3_lhs_1 (i : S1024x128.Idx) (k : dot_S2000x1024_S2000x128_S1024x128_0_0_1_1_n_n.contr.Idx) :
    (dot_S2000x1024_S2000x128_S1024x128_0_0_1_1_n_n.lhsIdx i k 1).val = (i 0).val := by
  rw [DotDims.lhsIdx, dif_neg (show ¬(1 : Fin 2) ∈ dot_S2000x1024_S2000x128_S1024x128_0_0_1_1_n_n.lhsBatch from List.not_mem_nil),
    dif_pos (show (1 : Fin 2) ∈ dot_S2000x1024_S2000x128_S1024x128_0_0_1_1_n_n.lhsNonContracting from List.mem_singleton.mpr rfl)]
  rfl

/-- the right operand's row the contracted coordinate, -/
theorem dot3_rhs_0 (i : S1024x128.Idx) (k : dot_S2000x1024_S2000x128_S1024x128_0_0_1_1_n_n.contr.Idx) :
    (dot_S2000x1024_S2000x128_S1024x128_0_0_1_1_n_n.rhsIdx i k 0).val = (k ⟨0, Nat.one_pos⟩).val :=
  dot_S2000x1024_S2000x128_S1024x128_0_0_1_1_n_n.rhsIdx_val_of_single rfl i k

/-- and its column the result's column. -/
theorem dot3_rhs_1 (i : S1024x128.Idx) (k : dot_S2000x1024_S2000x128_S1024x128_0_0_1_1_n_n.contr.Idx) :
    (dot_S2000x1024_S2000x128_S1024x128_0_0_1_1_n_n.rhsIdx i k 1).val = (i 1).val := by
  rw [DotDims.rhsIdx, dif_neg (show ¬(1 : Fin 2) ∈ dot_S2000x1024_S2000x128_S1024x128_0_0_1_1_n_n.rhsBatch from List.not_mem_nil),
    dif_pos (show (1 : Fin 2) ∈ dot_S2000x1024_S2000x128_S1024x128_0_0_1_1_n_n.rhsNonContracting from List.mem_singleton.mpr rfl)]
  rfl

/-- So entry (g, q) of the product into the zero block is the sum over the 2000 rows r of l[r, g] · m[r, q]. -/
theorem matmul3_apply {φ₁ φ₂ : FTy} (l : FVec Ideal S2000x1024 φ₁) (m : FVec Ideal S2000x128 φ₂) (g : Fin 1024) (q : Fin 128) :
    FloatOps.matmul dot_S2000x1024_S2000x128_S1024x128_0_0_1_1_n_n none l m (constant S1024x128 .f32 0x00000000#32) (ix2 g q)
      = ∑ r : Fin 2000, l (ix2 r g) * m (ix2 r q) := by
  rw [Ideal.matmul_constant_zero_apply,
    ← Equiv.sum_comp (contrEquiv1 dot_S2000x1024_S2000x128_S1024x128_0_0_1_1_n_n 2000 rfl rfl).symm]
  refine Finset.sum_congr rfl fun r _ => ?_
  have hr := contrEquiv1_symm_val dot_S2000x1024_S2000x128_S1024x128_0_0_1_1_n_n 2000 rfl rfl r
  have el : dot_S2000x1024_S2000x128_S1024x128_0_0_1_1_n_n.lhsIdx (ix2 g q)
      ((contrEquiv1 dot_S2000x1024_S2000x128_S1024x128_0_0_1_1_n_n 2000 rfl rfl).symm r) = ix2 r g :=
    funext fun a => Fin.ext (by
      match a with
      | ⟨0, _⟩ => exact (dot3_lhs_0 _ _).trans hr
      | ⟨1, _⟩ => exact dot3_lhs_1 _ _)
  have er : dot_S2000x1024_S2000x128_S1024x128_0_0_1_1_n_n.rhsIdx (ix2 g q)
      ((contrEquiv1 dot_S2000x1024_S2000x128_S1024x128_0_0_1_1_n_n 2000 rfl rfl).symm r) = ix2 r q :=
    funext fun a => Fin.ext (by
      match a with
      | ⟨0, _⟩ => exact (dot3_rhs_0 _ _).trans hr
      | ⟨1, _⟩ => exact dot3_rhs_1 _ _)
  rw [el, er]

/-- The equality mask as a number: 1 where the two words are equal, 0 elsewhere. -/
theorem mask3_val (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · have e : IntOp.cmpi .eq a b = 1#1 := by subst h; simp [IntOp.cmpi]
    rw [if_pos h, e, show ((1#1 : BitVec 1).setWidth 32).toInt = 1 from by decide]
    simp
  · have hb : (a == b) = false := beq_eq_false_iff_ne.mpr h
    have e : IntOp.cmpi .eq a b = 0#1 := by simp [IntOp.cmpi, hb]
    rw [if_neg h, e, show ((0#1 : BitVec 1).setWidth 32).toInt = 0 from by decide]
    simp

/-- The mask at row r, graph row g: the row's id word against the word of g. -/
theorem mask3_apply (v4 : Vec Ideal S2000x1 .i32) (r : Fin 2000) (g : Fin 1024) :
    cmpi .eq (broadcastTo S2000x1024 (shapeCast S2000x1 v4 shapeCasts_S2000x1_S2000x1) broadcasts_S2000x1_S2000x1024)
        (broadcastTo S2000x1024 (iota .tc S1x1024 32 [1] iota_S1x1024_d1_w32) broadcasts_S1x1024_S2000x1024) (ix2 r g)
      = IntOp.cmpi .eq (v4 (ix2 r 0)) (BitVec.ofNat 32 g.val) := by
  show IntOp.cmpi .eq _ _ = _
  rw [broadcastTo_apply _ broadcasts_S2000x1_S2000x1024 (ix2 r g) (ix2 r 0) (fun a => by
      match a with
      | ⟨0, _⟩ => rfl
      | ⟨1, _⟩ => rfl),
    broadcastTo_apply _ broadcasts_S1x1024_S2000x1024 (ix2 r g) (ix2 0 g) (fun a => by
      match a with
      | ⟨0, _⟩ => rfl
      | ⟨1, _⟩ => rfl),
    shapeCast_self, iota_single_apply]

/-- THE BODY'S ARITHMETIC at graph row g, feature q: what the block held there plus the rows of the point's 2000
    whose id word is the word of g. -/
theorem pay3_2_apply (v4 : Vec Ideal S2000x1 .i32) (v12 : Vec Ideal S2000x128 .f32) (v16 : Vec Ideal S1024x128 .f32)
    (g : Fin 1024) (q : Fin 128) :
    k3_pay2 v4 v12 v16 (ix2 g q)
      = v16 (ix2 g q) + ∑ r ∈ Finset.univ.filter (fun r : Fin 2000 => v4 (ix2 r 0) = BitVec.ofNat 32 g.val), v12 (ix2 r q) := by
  unfold k3_pay2
  refine (addf_apply _ _ (ix2 g q)).trans ?_
  refine congrArg₂ (· + ·) (congrFun (shapeCast_self v16 _) (ix2 g q)) ?_
  refine (matmul3_apply _ _ g q).trans ?_
  rw [Finset.sum_filter]
  refine Finset.sum_congr rfl fun r _ => ?_
  refine (congrArg₂ (· * ·) ((congrArg (fun w : BitVec 1 => (FloatOps.sitofp (F := Ideal) .f32 (w.setWidth 32) : EReal))
    (mask3_apply v4 r g)).trans (mask3_val _ _)) (congrFun (shapeCast_self v12 _) (ix2 r q))).trans ?_
  by_cases h : v4 (ix2 r 0) = BitVec.ofNat 32 g.val
  · rw [if_pos h, if_pos h, one_mul]
  · rw [if_neg h, if_neg h, zero_mul]

/-- The cleared block is zero everywhere. -/
theorem pay3_1_apply (j : S1024x128.Idx) : k3_pay1 (F := Ideal) j = 0 := Ideal.ofBits_zero_f32

/-! ## The running sum over the rows seen so far -/

/-- A graph row's number as a 32-bit word, read back as a signed integer, is the number: it is below 2³¹. -/
theorem word3_toInt (g : Fin 1024) : (BitVec.ofNat 32 g.val).toInt = (g.val : ℤ) := by
  have hg := g.isLt
  rw [BitVec.toInt_eq_toNat_cond, BitVec.toNat_ofNat, Nat.mod_eq_of_lt (by omega), if_pos (by omega)]

/-- So an id word equals that word exactly when the id, read as a signed integer, is the graph row's number. -/
theorem word3_iff (w : BitVec 32) (g : Fin 1024) : w = BitVec.ofNat 32 g.val ↔ w.toInt = (g.val : ℤ) :=
  ⟨fun h => h ▸ word3_toInt g, fun h => BitVec.eq_of_toInt_eq (h.trans (word3_toInt g).symm)⟩

/-- Row r of the n-th block of 2000 rows, in the array of 100000. -/
def row3 (n : ℕ) (hn : n < 50) (r : Fin 2000) : Fin 100000 := ⟨2000 * n + r.val, by have := r.isLt; omega⟩

theorem row3_inj (n : ℕ) (hn : n < 50) : Function.Injective (row3 n hn) := fun a b h => by
  have := congrArg Fin.val h
  exact Fin.ext (by simp only [row3] at this; omega)

/-- THE RUNNING SUM for graph row g, feature q, over the rows below 2000 · n: those whose id is g. -/
def acc3_sum (hh : Cert.Spec.SNodes.Idx → EReal) (gid : IVec Cert.Spec.SIds 32) (n : ℕ) (g : Fin 1024) (q : Fin 128) : EReal :=
  ∑ r ∈ Finset.univ.filter (fun r : Fin 100000 => r.val < 2000 * n ∧ (gid (ix2 r 0)).toInt = (g.val : ℤ)), hh (ix2 r q)

/-- Before any row it is zero. -/
theorem acc3_sum_zero (hh : Cert.Spec.SNodes.Idx → EReal) (gid : IVec Cert.Spec.SIds 32) (g : Fin 1024) (q : Fin 128) :
    acc3_sum hh gid 0 g q = 0 := by
  unfold acc3_sum
  rw [Finset.filter_false_of_mem (fun r _ h => absurd h.1 (by omega)), Finset.sum_empty]

/-- One more block of 2000 rows adds that block's rows with id g. -/
theorem acc3_sum_succ (hh : Cert.Spec.SNodes.Idx → EReal) (gid : IVec Cert.Spec.SIds 32) (n : ℕ) (hn : n < 50)
    (g : Fin 1024) (q : Fin 128) :
    acc3_sum hh gid (n + 1) g q = acc3_sum hh gid n g q
      + ∑ r ∈ Finset.univ.filter (fun r : Fin 2000 => (gid (ix2 (row3 n hn r) 0)).toInt = (g.val : ℤ)), hh (ix2 (row3 n hn r) q) := by
  unfold acc3_sum
  have hsplit : Finset.univ.filter (fun r : Fin 100000 => r.val < 2000 * (n + 1) ∧ (gid (ix2 r 0)).toInt = (g.val : ℤ))
      = Finset.univ.filter (fun r : Fin 100000 => r.val < 2000 * n ∧ (gid (ix2 r 0)).toInt = (g.val : ℤ))
        ∪ (Finset.univ.filter (fun r : Fin 2000 => (gid (ix2 (row3 n hn r) 0)).toInt = (g.val : ℤ))).map
            ⟨row3 n hn, row3_inj n hn⟩ := by
    ext r
    simp only [Finset.mem_union, Finset.mem_filter, Finset.mem_univ, true_and, Finset.mem_map, Function.Embedding.coeFn_mk]
    constructor
    · rintro ⟨h1, h2⟩
      by_cases h : r.val < 2000 * n
      · exact Or.inl ⟨h, h2⟩
      · have e : row3 n hn ⟨r.val - 2000 * n, by omega⟩ = r := Fin.ext (by show 2000 * n + (r.val - 2000 * n) = r.val; omega)
        exact Or.inr ⟨⟨r.val - 2000 * n, by omega⟩, by rw [e]; exact h2, e⟩
    · rintro (⟨h1, h2⟩ | ⟨r', h2, rfl⟩)
      · exact ⟨by omega, h2⟩
      · exact ⟨by show 2000 * n + r'.val < 2000 * (n + 1); have := r'.isLt; omega, h2⟩
  have hdisj : Disjoint (Finset.univ.filter (fun r : Fin 100000 => r.val < 2000 * n ∧ (gid (ix2 r 0)).toInt = (g.val : ℤ)))
      ((Finset.univ.filter (fun r : Fin 2000 => (gid (ix2 (row3 n hn r) 0)).toInt = (g.val : ℤ))).map
        ⟨row3 n hn, row3_inj n hn⟩) := by
    refine Finset.disjoint_left.mpr fun r h1 h2 => ?_
    obtain ⟨r', -, rfl⟩ := Finset.mem_map.mp h2
    have h3 : (row3 n hn r').val < 2000 * n := (Finset.mem_filter.mp h1).2.1
    have h4 : (row3 n hn r').val = 2000 * n + r'.val := rfl
    omega
  rw [hsplit, Finset.sum_union hdisj, Finset.sum_map]
  rfl

/-- After all 50 blocks it is the specification's pooled sum. -/
theorem acc3_sum_full (hh : Cert.Spec.SNodes.Idx → EReal) (gid : IVec Cert.Spec.SIds 32) (g : Fin 1024) (q : Fin 128) :
    acc3_sum hh gid 50 g q = Cert.Spec.poolAt 1024 hh gid g q := by
  unfold acc3_sum Cert.Spec.poolAt
  exact Finset.sum_congr (Finset.filter_congr fun r _ => ⟨fun h => h.2, fun h => ⟨by have := r.isLt; omega, h⟩⟩) fun _ _ => rfl

/-! ## The arrays and their blocks, by their literal types -/

variable (V : (c : Dev nD) → (b : Ref sig .tc) → Buf (Elt F) ((c : Thread nD τ).loc b))

/-- The layer's output as the region finds it, -/
abbrev harr3 (c : Dev nD) : Vec F S100000x128 .f32 := V c (Pipeline.arrRef spec3 0)
/-- the graph ids, -/
abbrev garr3 (c : Dev nD) : Vec F S100000x1 .i32 := V c (Pipeline.arrRef spec3 1)
/-- the 2000 rows of the output that point t takes, -/
abbrev hblk3 (c : Dev nD) (t : Fin cfg3.N) : Vec F S2000x128 .f32 := iblk3 V c 0 t
/-- and their 2000 ids. -/
abbrev gblk3 (c : Dev nD) (t : Fin cfg3.N) : Vec F S2000x1 .i32 := iblk3 V c 1 t

/-- The printed index maps, decided over the grid: both input windows take block (t, 0) at point t; the output's
    block is (0, 0) throughout. -/
theorem idx3_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- Row r of point t's block of the output is row 2000 · t + r of the array. -/
theorem hblk3_apply (c : Dev nD) (t : Fin cfg3.N) (ht : t.val < 50) (r : Fin 2000) (q : Fin 128) :
    hblk3 V c t (ix2 r q) = harr3 V c (ix2 (row3 t.val ht r) q) := by
  obtain ⟨e0, e1, -, -, -, -⟩ := idx3_facts t
  show ((cfg3.win 0).blk t).view.read (Elt F) (V c (Pipeline.arrRef spec3 0)) (ix2 r q) = _
  rw [View.read_apply]
  show V c (Pipeline.arrRef spec3 0) _ = V c (Pipeline.arrRef spec3 0) _
  congr 1
  funext a
  apply Fin.ext
  match a with
  | ⟨0, _⟩ => show win3_0.index t (0 : Fin 2) * 2000 + 1 * r.val = 2000 * t.val + r.val; rw [e0]; omega
  | ⟨1, _⟩ => show win3_0.index t (1 : Fin 2) * 128 + 1 * q.val = q.val; rw [e1]; omega

/-- Likewise its id. -/
theorem gblk3_apply (c : Dev nD) (t : Fin cfg3.N) (ht : t.val < 50) (r : Fin 2000) :
    gblk3 V c t (ix2 r 0) = garr3 V c (ix2 (row3 t.val ht r) 0) := by
  obtain ⟨-, -, e0, e1, -, -⟩ := idx3_facts t
  show ((cfg3.win 1).blk t).view.read (Elt F) (V c (Pipeline.arrRef spec3 1)) (ix2 r 0) = _
  rw [View.read_apply]
  show V c (Pipeline.arrRef spec3 1) _ = V c (Pipeline.arrRef spec3 1) _
  congr 1
  funext a
  apply Fin.ext
  match a with
  | ⟨0, _⟩ => show win3_1.index t (0 : Fin 2) * 2000 + 1 * r.val = 2000 * t.val + r.val; rw [e0]; omega
  | ⟨1, _⟩ => show win3_1.index t (1 : Fin 2) * 1 + 1 * 0 = 0; rw [e1]

/-! ## What the block holds after each point, as the body's arithmetic of the point's blocks -/

/-- After point 0: the arithmetic over the cleared block. -/
theorem outs3_zero (c : Dev nD) (hn : 0 < cfg3.N) :
    outsAt3 V c 0 hn = k3_pay2 (gblk3 V c ⟨0, hn⟩) (hblk3 V c ⟨0, hn⟩) (k3_pay1 (F := F)) :=
  (outsAt3_A V c ⟨0, hn⟩ (Nat.zero_mod _)).trans
    (piece3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩)
      ((hcond3_0 ⟨0, hn⟩).mpr (Nat.zero_mod _)) (hblk3 V c ⟨0, hn⟩) (gblk3 V c ⟨0, hn⟩))

/-- After point n + 1: the arithmetic over what point n left. -/
theorem outs3_succ (c : Dev nD) (n : ℕ) (hn : n + 1 < cfg3.N) :
    outsAt3 V c (n + 1) hn
      = k3_pay2 (gblk3 V c ⟨n + 1, hn⟩) (hblk3 V c ⟨n + 1, hn⟩) (outsAt3 V c n (Nat.lt_of_succ_lt hn)) := by
  have hN : cfg3.N = 50 := N_3
  have hB : ¬(⟨n + 1, hn⟩ : Fin cfg3.N).val % 50 = 0 := by dsimp only; omega
  exact (outsAt3_B V c ⟨n + 1, hn⟩ hB).trans
    (piece3_B c (grid3.coords ⟨n + 1, hn⟩) (ms3_0 ⟨n + 1, hn⟩) (hs3_0 ⟨n + 1, hn⟩) (ms3_1 ⟨n + 1, hn⟩) (hs3_1 ⟨n + 1, hn⟩)
      (ms3_2 ⟨n + 1, hn⟩) (hs3_2 ⟨n + 1, hn⟩) (fun h => hB ((hcond3_0 ⟨n + 1, hn⟩).mp h)) (hblk3 V c ⟨n + 1, hn⟩) (gblk3 V c ⟨n + 1, hn⟩)
      (outsAt3 V c n (Nat.lt_of_succ_lt hn)))

/-! ## The invariant, and the array after the run -/

section AtIdeal

variable (V : (c : Dev nD) → (b : Ref sig .tc) → Buf (Elt Ideal) ((c : Thread nD τ).loc b))

/-- The rows of point t's block whose id word is the word of g are the block's rows of the array whose id is g. -/
theorem blk3_sum (c : Dev nD) (t : Fin cfg3.N) (ht : t.val < 50) (g : Fin 1024) (q : Fin 128) :
    ∑ r ∈ Finset.univ.filter (fun r : Fin 2000 => gblk3 V c t (ix2 r 0) = BitVec.ofNat 32 g.val), hblk3 V c t (ix2 r q)
      = ∑ r ∈ Finset.univ.filter (fun r : Fin 2000 => (garr3 V c (ix2 (row3 t.val ht r) 0)).toInt = (g.val : ℤ)),
          harr3 V c (ix2 (row3 t.val ht r) q) := by
  refine Finset.sum_congr (Finset.filter_congr fun r _ => ?_) fun r _ => hblk3_apply V c t ht r q
  rw [gblk3_apply V c t ht r]
  exact word3_iff _ g

/-- THE INVARIANT: after point n the block holds, at graph row g and feature q, the sum of the rows below
    2000 · (n + 1) whose id is g. By induction on the point. -/
theorem acc3_eq (c : Dev nD) : ∀ (n : ℕ) (hn : n < cfg3.N) (g : Fin 1024) (q : Fin 128),
    outsAt3 V c n hn (ix2 g q) = acc3_sum (harr3 V c) (garr3 V c) (n + 1) g q
  | 0, hn, g, q => by
    refine (congrFun (outs3_zero V c hn) (ix2 g q)).trans ?_
    refine (pay3_2_apply (gblk3 V c ⟨0, hn⟩) (hblk3 V c ⟨0, hn⟩) (k3_pay1 (F := Ideal)) g q).trans ?_
    rw [pay3_1_apply, acc3_sum_succ _ _ 0 (by omega) g q, acc3_sum_zero]
    exact congrArg (0 + ·) (blk3_sum V c ⟨0, hn⟩ (by show 0 < 50; omega) g q)
  | n + 1, hn, g, q => by
    have hN : cfg3.N = 50 := N_3
    refine (congrFun (outs3_succ V c n hn) (ix2 g q)).trans ?_
    refine (pay3_2_apply (gblk3 V c ⟨n + 1, hn⟩) (hblk3 V c ⟨n + 1, hn⟩) (outsAt3 V c n (Nat.lt_of_succ_lt hn)) g q).trans ?_
    rw [acc3_eq c n (Nat.lt_of_succ_lt hn) g q, acc3_sum_succ _ _ (n + 1) (by omega) g q]
    exact congrArg (acc3_sum (harr3 V c) (garr3 V c) (n + 1) g q + ·) (blk3_sum V c ⟨n + 1, hn⟩ (by show n + 1 < 50; omega) g q)

/-- The output's block at every point is block (0, 0), the whole array: an index of the block is the same index of
    the array. -/
theorem emb3_out (t : Fin cfg3.N) (j : S1024x128.Idx) : ((cfg3.win 2).blk t).view.emb j = j := by
  obtain ⟨-, -, -, -, e0, e1⟩ := idx3_facts t
  funext a
  apply Fin.ext
  match a with
  | ⟨0, _⟩ => show win3_2.index t (0 : Fin 2) * 1024 + 1 * (j 0).val = (j 0).val; rw [e0]; omega
  | ⟨1, _⟩ => show win3_2.index t (1 : Fin 2) * 128 + 1 * (j 1).val = (j 1).val; rw [e1]; omega

/-- So the block of an array of that shape, read through the window, is the array. -/
theorem read3_out (t : Fin cfg3.N) (G : S1024x128.Idx → EReal) :
    ((cfg3.win 2).blk t).view.read (Elt Ideal) G = G := by
  funext j
  rw [View.read_apply]
  show G (((cfg3.win 2).blk t).view.emb j) = G j
  rw [emb3_out]

/-- AFTER THE LAST POINT the block is the specification's pooled sums. -/
theorem acc3_last (c : Dev nD) (t : Fin cfg3.N) (h49 : t.val + 1 = 50) :
    outsAt3 V c t.val t.isLt = Cert.Spec.pool 1024 (harr3 V c) (garr3 V c) := by
  funext j
  obtain ⟨g, q, rfl⟩ : ∃ (g : Fin 1024) (q : Fin 128), j = ix2 g q := ⟨j 0, j 1, eq_ix2 j⟩
  rw [acc3_eq V c t.val t.isLt g q, h49, acc3_sum_full]
  rfl

/-- WHAT THE ONE WRITE-BACK WRITES: the pooled sums, as the output's block of them. -/
theorem pool3_flushed (c : Dev nD) (t : Fin cfg3.N) (hf : (cfg3.win 2).flush t = true) :
    (dat3 (F := Ideal) V c).flushed 2 t
      = ((cfg3.win 2).blk t).view.read (Elt Ideal) (Cert.Spec.pool 1024 (harr3 V c) (garr3 V c)) := by
  have hN : cfg3.N = 50 := N_3
  have h49 : t.val + 1 = 50 := by have := (flush3_2 t).mp hf; have := t.isLt; omega
  rw [read3_out]
  show (cfg3.win 2).cut (grid3.coords t) ((dat3 V c).after 2 t) = _
  rw [after3_2]
  exact acc3_last V c t h49

/-- Every index of the array is in the block written back. -/
theorem cover3_out (t : Fin cfg3.N) (i : S1024x128.Idx) : i ∈ ((cfg3.win 2).blk t).view.set := by
  have h := ((cfg3.win 2).blk t).view.emb_mem_set i
  rw [emb3_out t i] at h
  exact h

end AtIdeal

/-- What region 3's one write-back leaves in its output's array: per padded graph row, the sum of the rows with that id. -/
theorem pool3_value (V : (c : Dev nD) → (b : Ref sig .tc) → Buf (Elt Ideal) ((c : Thread nD τ).loc b)) (c : Dev nD) :
    ((dat3 (F := Ideal) V c).arrAt 2 cfg3.N : S1024x128.Idx → EReal)
      = Cert.Spec.pool 1024 (V c (Pipeline.arrRef spec3 0)) (V c (Pipeline.arrRef spec3 1)) :=
  (dat3 (F := Ideal) V c).arrAt_eq_of_cover 2 (Cert.Spec.pool 1024 (harr3 V c) (garr3 V c)) (pool3_flushed V c) fun i =>
    ⟨⟨49, by rw [show cfg3.N = 50 from N_3]; decide⟩, (flush3_2 _).mpr rfl, cover3_out _ i⟩

end Cert.KernelIdeal.Run

end
-- ==== Proof.KI.PoolValue5.lean ====
/-
  One layer's graph pooling (region 5 of the program), as a value: what its output array holds after the run.

  The region walks the 100000 rows of the layer's output in 50 blocks of 2000, with their graph ids. Its one output
  block, 1024 padded graph rows by 128 features, stays in its buffer over the whole grid and is written back once,
  after the last point. Point 0 clears the block; every point then adds to entry (g, q) the sum over its 2000 rows r
  of mask(r, g) · h(r, q), where mask(r, g) is 1 if row r's id word equals the word of g and 0 otherwise: since
  0 · x = 0 and 1 · x = x for every extended real, that is the sum of h(r, q) over the block's rows with id g, with
  no finiteness asked. By induction on the point the block holds, after point n, the sum over the rows below
  2000 · (n + 1) with id g; after point 49 that is every row, the specification's pooled sum.
-/
import proofs.«410827_j82411832476193_1_alg».proof.Proof.KI.Pool5
import proofs.«410827_j82411832476193_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Run

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-! ## The two control cases' stores, read back as the body's arithmetic -/

/-- The zero offsets of the body's loads and stores, as the function they are. -/
theorem hz5 : (![0, 0] : Fin 2 → Nat) = fun _ => 0 := funext fun a => by fin_cases a <;> rfl

/-- FIRST POINT: the body stores the zero block, loads it back, and stores the arithmetic over it; the later store
    covers the block. -/
theorem piece5_A (c : Dev nD) (i : grid5.Coords) (a1 : Memref sig .tc .vmem S2000x128 .f32) (h1 : a1.IsWhole)
    (a2 : Memref sig .tc .vmem S2000x1 .i32) (h2 : a2.IsWhole) (a3 : Memref sig .tc .vmem S1024x128 .f32) (h3 : a3.IsWhole)
    (hc : cond5_0 i) (x0 : Vec F S2000x128 .f32) (x1 : Vec F S2000x1 .i32) :
    out5_A_2 c i a1 h1 a2 h2 a3 h3 hc x0 x1 = k5_pay2 x1 x0 (k5_pay1 (F := F)) := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S1024x128) hz5]
  simp only [View.readAt_eq_ld, h1.read_unread, h2.read_unread, View.ld_unit_zero (S := S2000x128) hz5,
    View.ld_unit_zero (S := S2000x1) hz5, View.readCov_unit_zero (S := S1024x128) _ hz5]

/-- LATER POINTS: one covering store of the arithmetic over what the block held. -/
theorem piece5_B (c : Dev nD) (i : grid5.Coords) (a1 : Memref sig .tc .vmem S2000x128 .f32) (h1 : a1.IsWhole)
    (a2 : Memref sig .tc .vmem S2000x1 .i32) (h2 : a2.IsWhole) (a3 : Memref sig .tc .vmem S1024x128 .f32) (h3 : a3.IsWhole)
    (hc : ¬cond5_0 i) (x0 : Vec F S2000x128 .f32) (x1 : Vec F S2000x1 .i32) (xo : Vec F S1024x128 .f32) :
    out5_B_2 c i a1 h1 a2 h2 a3 h3 hc x0 x1 xo = k5_pay2 x1 x0 xo := by
  unfold out5_B_2
  rw [View.read_writes_eq_canon _ _ _ (cover5_B_2 c i a1 h1 a2 h2 a3 h3 hc x0 x1 xo)]
  unfold kernelRun5_B
  dsimp only
  sl_unfold_words
  rw [View.canon_unit_zero hz5]
  simp only [View.readAt_eq_ld, h1.read_unread, h2.read_unread, h3.read_unread, View.ld_unit_zero (S := S2000x128) hz5,
    View.ld_unit_zero (S := S2000x1) hz5, View.ld_unit_zero (S := S1024x128) hz5]

/-! ## The body's arithmetic at an index, on the extended reals -/

/-- The matrix unit's product here contracts the ROW axis of both operands: the left operand's row is the
    contracted coordinate, -/
theorem dot5_lhs_0 (i : S1024x128.Idx) (k : dot_S2000x1024_S2000x128_S1024x128_0_0_1_1_n_n.contr.Idx) :
    (dot_S2000x1024_S2000x128_S1024x128_0_0_1_1_n_n.lhsIdx i k 0).val = (k ⟨0, Nat.one_pos⟩).val :=
  dot_S2000x1024_S2000x128_S1024x128_0_0_1_1_n_n.lhsIdx_val_of_single rfl i k

/-- its column the result's row, -/
theorem dot5_lhs_1 (i : S1024x128.Idx) (k : dot_S2000x1024_S2000x128_S1024x128_0_0_1_1_n_n.contr.Idx) :
    (dot_S2000x1024_S2000x128_S1024x128_0_0_1_1_n_n.lhsIdx i k 1).val = (i 0).val := by
  rw [DotDims.lhsIdx, dif_neg (show ¬(1 : Fin 2) ∈ dot_S2000x1024_S2000x128_S1024x128_0_0_1_1_n_n.lhsBatch from List.not_mem_nil),
    dif_pos (show (1 : Fin 2) ∈ dot_S2000x1024_S2000x128_S1024x128_0_0_1_1_n_n.lhsNonContracting from List.mem_singleton.mpr rfl)]
  rfl

/-- the right operand's row the contracted coordinate, -/
theorem dot5_rhs_0 (i : S1024x128.Idx) (k : dot_S2000x1024_S2000x128_S1024x128_0_0_1_1_n_n.contr.Idx) :
    (dot_S2000x1024_S2000x128_S1024x128_0_0_1_1_n_n.rhsIdx i k 0).val = (k ⟨0, Nat.one_pos⟩).val :=
  dot_S2000x1024_S2000x128_S1024x128_0_0_1_1_n_n.rhsIdx_val_of_single rfl i k

/-- and its column the result's column. -/
theorem dot5_rhs_1 (i : S1024x128.Idx) (k : dot_S2000x1024_S2000x128_S1024x128_0_0_1_1_n_n.contr.Idx) :
    (dot_S2000x1024_S2000x128_S1024x128_0_0_1_1_n_n.rhsIdx i k 1).val = (i 1).val := by
  rw [DotDims.rhsIdx, dif_neg (show ¬(1 : Fin 2) ∈ dot_S2000x1024_S2000x128_S1024x128_0_0_1_1_n_n.rhsBatch from List.not_mem_nil),
    dif_pos (show (1 : Fin 2) ∈ dot_S2000x1024_S2000x128_S1024x128_0_0_1_1_n_n.rhsNonContracting from List.mem_singleton.mpr rfl)]
  rfl

/-- So entry (g, q) of the product into the zero block is the sum over the 2000 rows r of l[r, g] · m[r, q]. -/
theorem matmul5_apply {φ₁ φ₂ : FTy} (l : FVec Ideal S2000x1024 φ₁) (m : FVec Ideal S2000x128 φ₂) (g : Fin 1024) (q : Fin 128) :
    FloatOps.matmul dot_S2000x1024_S2000x128_S1024x128_0_0_1_1_n_n none l m (constant S1024x128 .f32 0x00000000#32) (ix2 g q)
      = ∑ r : Fin 2000, l (ix2 r g) * m (ix2 r q) := by
  rw [Ideal.matmul_constant_zero_apply,
    ← Equiv.sum_comp (contrEquiv1 dot_S2000x1024_S2000x128_S1024x128_0_0_1_1_n_n 2000 rfl rfl).symm]
  refine Finset.sum_congr rfl fun r _ => ?_
  have hr := contrEquiv1_symm_val dot_S2000x1024_S2000x128_S1024x128_0_0_1_1_n_n 2000 rfl rfl r
  have el : dot_S2000x1024_S2000x128_S1024x128_0_0_1_1_n_n.lhsIdx (ix2 g q)
      ((contrEquiv1 dot_S2000x1024_S2000x128_S1024x128_0_0_1_1_n_n 2000 rfl rfl).symm r) = ix2 r g :=
    funext fun a => Fin.ext (by
      match a with
      | ⟨0, _⟩ => exact (dot5_lhs_0 _ _).trans hr
      | ⟨1, _⟩ => exact dot5_lhs_1 _ _)
  have er : dot_S2000x1024_S2000x128_S1024x128_0_0_1_1_n_n.rhsIdx (ix2 g q)
      ((contrEquiv1 dot_S2000x1024_S2000x128_S1024x128_0_0_1_1_n_n 2000 rfl rfl).symm r) = ix2 r q :=
    funext fun a => Fin.ext (by
      match a with
      | ⟨0, _⟩ => exact (dot5_rhs_0 _ _).trans hr
      | ⟨1, _⟩ => exact dot5_rhs_1 _ _)
  rw [el, er]

/-- The equality mask as a number: 1 where the two words are equal, 0 elsewhere. -/
theorem mask5_val (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · have e : IntOp.cmpi .eq a b = 1#1 := by subst h; simp [IntOp.cmpi]
    rw [if_pos h, e, show ((1#1 : BitVec 1).setWidth 32).toInt = 1 from by decide]
    simp
  · have hb : (a == b) = false := beq_eq_false_iff_ne.mpr h
    have e : IntOp.cmpi .eq a b = 0#1 := by simp [IntOp.cmpi, hb]
    rw [if_neg h, e, show ((0#1 : BitVec 1).setWidth 32).toInt = 0 from by decide]
    simp

/-- The mask at row r, graph row g: the row's id word against the word of g. -/
theorem mask5_apply (v4 : Vec Ideal S2000x1 .i32) (r : Fin 2000) (g : Fin 1024) :
    cmpi .eq (broadcastTo S2000x1024 (shapeCast S2000x1 v4 shapeCasts_S2000x1_S2000x1) broadcasts_S2000x1_S2000x1024)
        (broadcastTo S2000x1024 (iota .tc S1x1024 32 [1] iota_S1x1024_d1_w32) broadcasts_S1x1024_S2000x1024) (ix2 r g)
      = IntOp.cmpi .eq (v4 (ix2 r 0)) (BitVec.ofNat 32 g.val) := by
  show IntOp.cmpi .eq _ _ = _
  rw [broadcastTo_apply _ broadcasts_S2000x1_S2000x1024 (ix2 r g) (ix2 r 0) (fun a => by
      match a with
      | ⟨0, _⟩ => rfl
      | ⟨1, _⟩ => rfl),
    broadcastTo_apply _ broadcasts_S1x1024_S2000x1024 (ix2 r g) (ix2 0 g) (fun a => by
      match a with
      | ⟨0, _⟩ => rfl
      | ⟨1, _⟩ => rfl),
    shapeCast_self, iota_single_apply]

/-- THE BODY'S ARITHMETIC at graph row g, feature q: what the block held there plus the rows of the point's 2000
    whose id word is the word of g. -/
theorem pay5_2_apply (v4 : Vec Ideal S2000x1 .i32) (v12 : Vec Ideal S2000x128 .f32) (v16 : Vec Ideal S1024x128 .f32)
    (g : Fin 1024) (q : Fin 128) :
    k5_pay2 v4 v12 v16 (ix2 g q)
      = v16 (ix2 g q) + ∑ r ∈ Finset.univ.filter (fun r : Fin 2000 => v4 (ix2 r 0) = BitVec.ofNat 32 g.val), v12 (ix2 r q) := by
  unfold k5_pay2
  refine (addf_apply _ _ (ix2 g q)).trans ?_
  refine congrArg₂ (· + ·) (congrFun (shapeCast_self v16 _) (ix2 g q)) ?_
  refine (matmul5_apply _ _ g q).trans ?_
  rw [Finset.sum_filter]
  refine Finset.sum_congr rfl fun r _ => ?_
  refine (congrArg₂ (· * ·) ((congrArg (fun w : BitVec 1 => (FloatOps.sitofp (F := Ideal) .f32 (w.setWidth 32) : EReal))
    (mask5_apply v4 r g)).trans (mask5_val _ _)) (congrFun (shapeCast_self v12 _) (ix2 r q))).trans ?_
  by_cases h : v4 (ix2 r 0) = BitVec.ofNat 32 g.val
  · rw [if_pos h, if_pos h, one_mul]
  · rw [if_neg h, if_neg h, zero_mul]

/-- The cleared block is zero everywhere. -/
theorem pay5_1_apply (j : S1024x128.Idx) : k5_pay1 (F := Ideal) j = 0 := Ideal.ofBits_zero_f32

/-! ## The running sum over the rows seen so far -/

/-- A graph row's number as a 32-bit word, read back as a signed integer, is the number: it is below 2³¹. -/
theorem word5_toInt (g : Fin 1024) : (BitVec.ofNat 32 g.val).toInt = (g.val : ℤ) := by
  have hg := g.isLt
  rw [BitVec.toInt_eq_toNat_cond, BitVec.toNat_ofNat, Nat.mod_eq_of_lt (by omega), if_pos (by omega)]

/-- So an id word equals that word exactly when the id, read as a signed integer, is the graph row's number. -/
theorem word5_iff (w : BitVec 32) (g : Fin 1024) : w = BitVec.ofNat 32 g.val ↔ w.toInt = (g.val : ℤ) :=
  ⟨fun h => h ▸ word5_toInt g, fun h => BitVec.eq_of_toInt_eq (h.trans (word5_toInt g).symm)⟩

/-- Row r of the n-th block of 2000 rows, in the array of 100000. -/
def row5 (n : ℕ) (hn : n < 50) (r : Fin 2000) : Fin 100000 := ⟨2000 * n + r.val, by have := r.isLt; omega⟩

theorem row5_inj (n : ℕ) (hn : n < 50) : Function.Injective (row5 n hn) := fun a b h => by
  have := congrArg Fin.val h
  exact Fin.ext (by simp only [row5] at this; omega)

/-- THE RUNNING SUM for graph row g, feature q, over the rows below 2000 · n: those whose id is g. -/
def acc5_sum (hh : Cert.Spec.SNodes.Idx → EReal) (gid : IVec Cert.Spec.SIds 32) (n : ℕ) (g : Fin 1024) (q : Fin 128) : EReal :=
  ∑ r ∈ Finset.univ.filter (fun r : Fin 100000 => r.val < 2000 * n ∧ (gid (ix2 r 0)).toInt = (g.val : ℤ)), hh (ix2 r q)

/-- Before any row it is zero. -/
theorem acc5_sum_zero (hh : Cert.Spec.SNodes.Idx → EReal) (gid : IVec Cert.Spec.SIds 32) (g : Fin 1024) (q : Fin 128) :
    acc5_sum hh gid 0 g q = 0 := by
  unfold acc5_sum
  rw [Finset.filter_false_of_mem (fun r _ h => absurd h.1 (by omega)), Finset.sum_empty]

/-- One more block of 2000 rows adds that block's rows with id g. -/
theorem acc5_sum_succ (hh : Cert.Spec.SNodes.Idx → EReal) (gid : IVec Cert.Spec.SIds 32) (n : ℕ) (hn : n < 50)
    (g : Fin 1024) (q : Fin 128) :
    acc5_sum hh gid (n + 1) g q = acc5_sum hh gid n g q
      + ∑ r ∈ Finset.univ.filter (fun r : Fin 2000 => (gid (ix2 (row5 n hn r) 0)).toInt = (g.val : ℤ)), hh (ix2 (row5 n hn r) q) := by
  unfold acc5_sum
  have hsplit : Finset.univ.filter (fun r : Fin 100000 => r.val < 2000 * (n + 1) ∧ (gid (ix2 r 0)).toInt = (g.val : ℤ))
      = Finset.univ.filter (fun r : Fin 100000 => r.val < 2000 * n ∧ (gid (ix2 r 0)).toInt = (g.val : ℤ))
        ∪ (Finset.univ.filter (fun r : Fin 2000 => (gid (ix2 (row5 n hn r) 0)).toInt = (g.val : ℤ))).map
            ⟨row5 n hn, row5_inj n hn⟩ := by
    ext r
    simp only [Finset.mem_union, Finset.mem_filter, Finset.mem_univ, true_and, Finset.mem_map, Function.Embedding.coeFn_mk]
    constructor
    · rintro ⟨h1, h2⟩
      by_cases h : r.val < 2000 * n
      · exact Or.inl ⟨h, h2⟩
      · have e : row5 n hn ⟨r.val - 2000 * n, by omega⟩ = r := Fin.ext (by show 2000 * n + (r.val - 2000 * n) = r.val; omega)
        exact Or.inr ⟨⟨r.val - 2000 * n, by omega⟩, by rw [e]; exact h2, e⟩
    · rintro (⟨h1, h2⟩ | ⟨r', h2, rfl⟩)
      · exact ⟨by omega, h2⟩
      · exact ⟨by show 2000 * n + r'.val < 2000 * (n + 1); have := r'.isLt; omega, h2⟩
  have hdisj : Disjoint (Finset.univ.filter (fun r : Fin 100000 => r.val < 2000 * n ∧ (gid (ix2 r 0)).toInt = (g.val : ℤ)))
      ((Finset.univ.filter (fun r : Fin 2000 => (gid (ix2 (row5 n hn r) 0)).toInt = (g.val : ℤ))).map
        ⟨row5 n hn, row5_inj n hn⟩) := by
    refine Finset.disjoint_left.mpr fun r h1 h2 => ?_
    obtain ⟨r', -, rfl⟩ := Finset.mem_map.mp h2
    have h3 : (row5 n hn r').val < 2000 * n := (Finset.mem_filter.mp h1).2.1
    have h4 : (row5 n hn r').val = 2000 * n + r'.val := rfl
    omega
  rw [hsplit, Finset.sum_union hdisj, Finset.sum_map]
  rfl

/-- After all 50 blocks it is the specification's pooled sum. -/
theorem acc5_sum_full (hh : Cert.Spec.SNodes.Idx → EReal) (gid : IVec Cert.Spec.SIds 32) (g : Fin 1024) (q : Fin 128) :
    acc5_sum hh gid 50 g q = Cert.Spec.poolAt 1024 hh gid g q := by
  unfold acc5_sum Cert.Spec.poolAt
  exact Finset.sum_congr (Finset.filter_congr fun r _ => ⟨fun h => h.2, fun h => ⟨by have := r.isLt; omega, h⟩⟩) fun _ _ => rfl

/-! ## The arrays and their blocks, by their literal types -/

variable (V : (c : Dev nD) → (b : Ref sig .tc) → Buf (Elt F) ((c : Thread nD τ).loc b))

/-- The layer's output as the region finds it, -/
abbrev harr5 (c : Dev nD) : Vec F S100000x128 .f32 := V c (Pipeline.arrRef spec5 0)
/-- the graph ids, -/
abbrev garr5 (c : Dev nD) : Vec F S100000x1 .i32 := V c (Pipeline.arrRef spec5 1)
/-- the 2000 rows of the output that point t takes, -/
abbrev hblk5 (c : Dev nD) (t : Fin cfg5.N) : Vec F S2000x128 .f32 := iblk5 V c 0 t
/-- and their 2000 ids. -/
abbrev gblk5 (c : Dev nD) (t : Fin cfg5.N) : Vec F S2000x1 .i32 := iblk5 V c 1 t

/-- The printed index maps, decided over the grid: both input windows take block (t, 0) at point t; the output's
    block is (0, 0) throughout. -/
theorem idx5_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

/-- Row r of point t's block of the output is row 2000 · t + r of the array. -/
theorem hblk5_apply (c : Dev nD) (t : Fin cfg5.N) (ht : t.val < 50) (r : Fin 2000) (q : Fin 128) :
    hblk5 V c t (ix2 r q) = harr5 V c (ix2 (row5 t.val ht r) q) := by
  obtain ⟨e0, e1, -, -, -, -⟩ := idx5_facts t
  show ((cfg5.win 0).blk t).view.read (Elt F) (V c (Pipeline.arrRef spec5 0)) (ix2 r q) = _
  rw [View.read_apply]
  show V c (Pipeline.arrRef spec5 0) _ = V c (Pipeline.arrRef spec5 0) _
  congr 1
  funext a
  apply Fin.ext
  match a with
  | ⟨0, _⟩ => show win5_0.index t (0 : Fin 2) * 2000 + 1 * r.val = 2000 * t.val + r.val; rw [e0]; omega
  | ⟨1, _⟩ => show win5_0.index t (1 : Fin 2) * 128 + 1 * q.val = q.val; rw [e1]; omega

/-- Likewise its id. -/
theorem gblk5_apply (c : Dev nD) (t : Fin cfg5.N) (ht : t.val < 50) (r : Fin 2000) :
    gblk5 V c t (ix2 r 0) = garr5 V c (ix2 (row5 t.val ht r) 0) := by
  obtain ⟨-, -, e0, e1, -, -⟩ := idx5_facts t
  show ((cfg5.win 1).blk t).view.read (Elt F) (V c (Pipeline.arrRef spec5 1)) (ix2 r 0) = _
  rw [View.read_apply]
  show V c (Pipeline.arrRef spec5 1) _ = V c (Pipeline.arrRef spec5 1) _
  congr 1
  funext a
  apply Fin.ext
  match a with
  | ⟨0, _⟩ => show win5_1.index t (0 : Fin 2) * 2000 + 1 * r.val = 2000 * t.val + r.val; rw [e0]; omega
  | ⟨1, _⟩ => show win5_1.index t (1 : Fin 2) * 1 + 1 * 0 = 0; rw [e1]

/-! ## What the block holds after each point, as the body's arithmetic of the point's blocks -/

/-- After point 0: the arithmetic over the cleared block. -/
theorem outs5_zero (c : Dev nD) (hn : 0 < cfg5.N) :
    outsAt5 V c 0 hn = k5_pay2 (gblk5 V c ⟨0, hn⟩) (hblk5 V c ⟨0, hn⟩) (k5_pay1 (F := F)) :=
  (outsAt5_A V c ⟨0, hn⟩ (Nat.zero_mod _)).trans
    (piece5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩)
      ((hcond5_0 ⟨0, hn⟩).mpr (Nat.zero_mod _)) (hblk5 V c ⟨0, hn⟩) (gblk5 V c ⟨0, hn⟩))

/-- After point n + 1: the arithmetic over what point n left. -/
theorem outs5_succ (c : Dev nD) (n : ℕ) (hn : n + 1 < cfg5.N) :
    outsAt5 V c (n + 1) hn
      = k5_pay2 (gblk5 V c ⟨n + 1, hn⟩) (hblk5 V c ⟨n + 1, hn⟩) (outsAt5 V c n (Nat.lt_of_succ_lt hn)) := by
  have hN : cfg5.N = 50 := N_5
  have hB : ¬(⟨n + 1, hn⟩ : Fin cfg5.N).val % 50 = 0 := by dsimp only; omega
  exact (outsAt5_B V c ⟨n + 1, hn⟩ hB).trans
    (piece5_B c (grid5.coords ⟨n + 1, hn⟩) (ms5_0 ⟨n + 1, hn⟩) (hs5_0 ⟨n + 1, hn⟩) (ms5_1 ⟨n + 1, hn⟩) (hs5_1 ⟨n + 1, hn⟩)
      (ms5_2 ⟨n + 1, hn⟩) (hs5_2 ⟨n + 1, hn⟩) (fun h => hB ((hcond5_0 ⟨n + 1, hn⟩).mp h)) (hblk5 V c ⟨n + 1, hn⟩) (gblk5 V c ⟨n + 1, hn⟩)
      (outsAt5 V c n (Nat.lt_of_succ_lt hn)))

/-! ## The invariant, and the array after the run -/

section AtIdeal

variable (V : (c : Dev nD) → (b : Ref sig .tc) → Buf (Elt Ideal) ((c : Thread nD τ).loc b))

/-- The rows of point t's block whose id word is the word of g are the block's rows of the array whose id is g. -/
theorem blk5_sum (c : Dev nD) (t : Fin cfg5.N) (ht : t.val < 50) (g : Fin 1024) (q : Fin 128) :
    ∑ r ∈ Finset.univ.filter (fun r : Fin 2000 => gblk5 V c t (ix2 r 0) = BitVec.ofNat 32 g.val), hblk5 V c t (ix2 r q)
      = ∑ r ∈ Finset.univ.filter (fun r : Fin 2000 => (garr5 V c (ix2 (row5 t.val ht r) 0)).toInt = (g.val : ℤ)),
          harr5 V c (ix2 (row5 t.val ht r) q) := by
  refine Finset.sum_congr (Finset.filter_congr fun r _ => ?_) fun r _ => hblk5_apply V c t ht r q
  rw [gblk5_apply V c t ht r]
  exact word5_iff _ g

/-- THE INVARIANT: after point n the block holds, at graph row g and feature q, the sum of the rows below
    2000 · (n + 1) whose id is g. By induction on the point. -/
theorem acc5_eq (c : Dev nD) : ∀ (n : ℕ) (hn : n < cfg5.N) (g : Fin 1024) (q : Fin 128),
    outsAt5 V c n hn (ix2 g q) = acc5_sum (harr5 V c) (garr5 V c) (n + 1) g q
  | 0, hn, g, q => by
    refine (congrFun (outs5_zero V c hn) (ix2 g q)).trans ?_
    refine (pay5_2_apply (gblk5 V c ⟨0, hn⟩) (hblk5 V c ⟨0, hn⟩) (k5_pay1 (F := Ideal)) g q).trans ?_
    rw [pay5_1_apply, acc5_sum_succ _ _ 0 (by omega) g q, acc5_sum_zero]
    exact congrArg (0 + ·) (blk5_sum V c ⟨0, hn⟩ (by show 0 < 50; omega) g q)
  | n + 1, hn, g, q => by
    have hN : cfg5.N = 50 := N_5
    refine (congrFun (outs5_succ V c n hn) (ix2 g q)).trans ?_
    refine (pay5_2_apply (gblk5 V c ⟨n + 1, hn⟩) (hblk5 V c ⟨n + 1, hn⟩) (outsAt5 V c n (Nat.lt_of_succ_lt hn)) g q).trans ?_
    rw [acc5_eq c n (Nat.lt_of_succ_lt hn) g q, acc5_sum_succ _ _ (n + 1) (by omega) g q]
    exact congrArg (acc5_sum (harr5 V c) (garr5 V c) (n + 1) g q + ·) (blk5_sum V c ⟨n + 1, hn⟩ (by show n + 1 < 50; omega) g q)

/-- The output's block at every point is block (0, 0), the whole array: an index of the block is the same index of
    the array. -/
theorem emb5_out (t : Fin cfg5.N) (j : S1024x128.Idx) : ((cfg5.win 2).blk t).view.emb j = j := by
  obtain ⟨-, -, -, -, e0, e1⟩ := idx5_facts t
  funext a
  apply Fin.ext
  match a with
  | ⟨0, _⟩ => show win5_2.index t (0 : Fin 2) * 1024 + 1 * (j 0).val = (j 0).val; rw [e0]; omega
  | ⟨1, _⟩ => show win5_2.index t (1 : Fin 2) * 128 + 1 * (j 1).val = (j 1).val; rw [e1]; omega

/-- So the block of an array of that shape, read through the window, is the array. -/
theorem read5_out (t : Fin cfg5.N) (G : S1024x128.Idx → EReal) :
    ((cfg5.win 2).blk t).view.read (Elt Ideal) G = G := by
  funext j
  rw [View.read_apply]
  show G (((cfg5.win 2).blk t).view.emb j) = G j
  rw [emb5_out]

/-- AFTER THE LAST POINT the block is the specification's pooled sums. -/
theorem acc5_last (c : Dev nD) (t : Fin cfg5.N) (h49 : t.val + 1 = 50) :
    outsAt5 V c t.val t.isLt = Cert.Spec.pool 1024 (harr5 V c) (garr5 V c) := by
  funext j
  obtain ⟨g, q, rfl⟩ : ∃ (g : Fin 1024) (q : Fin 128), j = ix2 g q := ⟨j 0, j 1, eq_ix2 j⟩
  rw [acc5_eq V c t.val t.isLt g q, h49, acc5_sum_full]
  rfl

/-- WHAT THE ONE WRITE-BACK WRITES: the pooled sums, as the output's block of them. -/
theorem pool5_flushed (c : Dev nD) (t : Fin cfg5.N) (hf : (cfg5.win 2).flush t = true) :
    (dat5 (F := Ideal) V c).flushed 2 t
      = ((cfg5.win 2).blk t).view.read (Elt Ideal) (Cert.Spec.pool 1024 (harr5 V c) (garr5 V c)) := by
  have hN : cfg5.N = 50 := N_5
  have h49 : t.val + 1 = 50 := by have := (flush5_2 t).mp hf; have := t.isLt; omega
  rw [read5_out]
  show (cfg5.win 2).cut (grid5.coords t) ((dat5 V c).after 2 t) = _
  rw [after5_2]
  exact acc5_last V c t h49

/-- Every index of the array is in the block written back. -/
theorem cover5_out (t : Fin cfg5.N) (i : S1024x128.Idx) : i ∈ ((cfg5.win 2).blk t).view.set := by
  have h := ((cfg5.win 2).blk t).view.emb_mem_set i
  rw [emb5_out t i] at h
  exact h

end AtIdeal

/-- What region 5's one write-back leaves in its output's array: per padded graph row, the sum of the rows with that id. -/
theorem pool5_value (V : (c : Dev nD) → (b : Ref sig .tc) → Buf (Elt Ideal) ((c : Thread nD τ).loc b)) (c : Dev nD) :
    ((dat5 (F := Ideal) V c).arrAt 2 cfg5.N : S1024x128.Idx → EReal)
      = Cert.Spec.pool 1024 (V c (Pipeline.arrRef spec5 0)) (V c (Pipeline.arrRef spec5 1)) :=
  (dat5 (F := Ideal) V c).arrAt_eq_of_cover 2 (Cert.Spec.pool 1024 (harr5 V c) (garr5 V c)) (pool5_flushed V c) fun i =>
    ⟨⟨49, by rw [show cfg5.N = 50 from N_5]; decide⟩, (flush5_2 _).mpr rfl, cover5_out _ i⟩

end Cert.KernelIdeal.Run

end
-- ==== Proof.KI.ProjValue6.lean ====
/-
  The projection head's value: what region 6's one write-back leaves in its output's array is the head of the
  specification applied to the five arrays the region finds.
-/
import proofs.«410827_j82411832476193_1_alg».proof.Proof.KI.Proj6
import proofs.«410827_j82411832476193_1_alg».proof.Proof.Spec
import proofs.«410827_j82411832476193_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The body's arithmetic at an index -/

/-- Entry (p, q) of the body's stored value: the head of the specification on the five loaded blocks. -/
theorem pay6_apply (x0 : FVec Ideal S1000x384 .f32) (x1 : FVec Ideal S384x128 .f32) (x2 : FVec Ideal S1x128 .f32)
    (x3 : FVec Ideal S128x128 .f32) (x4 : FVec Ideal S1x128 .f32) (p : Fin 1000) (q : Fin 128) :
    k6_pay1 (F := Ideal) x0 x1 x2 x3 x4 (ix2 p q) = Cert.Spec.projAt x0 x1 x2 x3 x4 p q := by
  unfold k6_pay1 Cert.Spec.projAt
  refine congrArg₂ (· + ·) ?_ ?_
  · refine (Cert.Lib.matmul_plain_apply _ rfl rfl rfl rfl rfl rfl none _ _ p q).trans ?_
    refine Finset.sum_congr rfl fun k _ => ?_
    refine congrArg₂ (· * ·) ?_ rfl
    refine congrArg₂ max (congrArg₂ (· + ·) ?_ ?_) ?_
    · refine (Cert.Lib.matmul_plain_apply _ rfl rfl rfl rfl rfl rfl none _ _ p k).trans ?_
      refine Finset.sum_congr rfl fun j _ => ?_
      refine congrArg₂ (· * ·) ?_ rfl
      exact congrFun (shapeCast_self x0 _) (ix2 p j)
    · exact (broadcastTo_1b_ab_apply _ _ p k).trans (congrFun (shapeCast_self x2 _) _)
    · exact Ideal.ofBits_zero_f32
  · exact (broadcastTo_1b_ab_apply _ _ p q).trans (congrFun (shapeCast_self x4 _) _)

/-! ## Each block is its array -/

theorem hz6 : (![0, 0] : Fin 2 → Nat) = fun _ => 0 := funext fun a => by fin_cases a <;> rfl

variable (V : (c : Dev nD) → (b : Ref sig .tc) → Buf (Elt Ideal) ((c : Thread nD τ).loc b))

/-- Window 0's block, at block index (0, 0) and of the array's extent, is the array. -/
theorem iblk6_0_eq (c : Dev nD) (t : Fin cfg6.N) :
    (iblk6 V c 0 t : S1000x384.Idx → EReal) = V c (Pipeline.arrRef spec6 0) := by
  have hz' : (fun a => win6_0.index t a * main_v70.ty.shape.size a) = fun _ => 0 := funext fun a => by fin_cases a <;> rfl
  exact Memref.read_access_unit_zero (Elt Ideal) main_v70 hz' (fun a => by rw [congrFun hz' a]; simp) _

/-- Window 1's block is its array. -/
theorem iblk6_1_eq (c : Dev nD) (t : Fin cfg6.N) :
    (iblk6 V c 1 t : S384x128.Idx → EReal) = V c (Pipeline.arrRef spec6 1) := by
  have hz' : (fun a => win6_1.index t a * main_arg8.ty.shape.size a) = fun _ => 0 := funext fun a => by fin_cases a <;> rfl
  exact Memref.read_access_unit_zero (Elt Ideal) main_arg8 hz' (fun a => by rw [congrFun hz' a]; simp) _

/-- Window 2's block is its array. -/
theorem iblk6_2_eq (c : Dev nD) (t : Fin cfg6.N) :
    (iblk6 V c 2 t : S1x128.Idx → EReal) = V c (Pipeline.arrRef spec6 2) := by
  have hz' : (fun a => win6_2.index t a * main_v71.ty.shape.size a) = fun _ => 0 := funext fun a => by fin_cases a <;> rfl
  exact Memref.read_access_unit_zero (Elt Ideal) main_v71 hz' (fun a => by rw [congrFun hz' a]; simp) _

/-- Window 3's block is its array. -/
theorem iblk6_3_eq (c : Dev nD) (t : Fin cfg6.N) :
    (iblk6 V c 3 t : S128x128.Idx → EReal) = V c (Pipeline.arrRef spec6 3) := by
  have hz' : (fun a => win6_3.index t a * main_arg10.ty.shape.size a) = fun _ => 0 := funext fun a => by fin_cases a <;> rfl
  exact Memref.read_access_unit_zero (Elt Ideal) main_arg10 hz' (fun a => by rw [congrFun hz' a]; simp) _

/-- Window 4's block is its array. -/
theorem iblk6_4_eq (c : Dev nD) (t : Fin cfg6.N) :
    (iblk6 V c 4 t : S1x128.Idx → EReal) = V c (Pipeline.arrRef spec6 4) := by
  have hz' : (fun a => win6_4.index t a * main_v72.ty.shape.size a) = fun _ => 0 := funext fun a => by fin_cases a <;> rfl
  exact Memref.read_access_unit_zero (Elt Ideal) main_v72 hz' (fun a => by rw [congrFun hz' a]; simp) _

/-! ## What the body leaves, and the write-back -/

/-- The head of the specification on the five arrays the region finds, as contents of the output's array. -/
abbrev G6 (c : Dev nD) : Buf (Elt Ideal) ((c : Thread nD τ).loc main_v73) :=
  Cert.Spec.proj (V c (Pipeline.arrRef spec6 0)) (V c (Pipeline.arrRef spec6 1)) (V c (Pipeline.arrRef spec6 2))
    (V c (Pipeline.arrRef spec6 3)) (V c (Pipeline.arrRef spec6 4))

/-- The output's buffer after the body is the head of the specification on the five arrays. -/
theorem out6_5_eq (c : Dev nD) (t : Fin cfg6.N) :
    out6_5 (F := Ideal) (iblk6 V c 0 t) (iblk6 V c 1 t) (iblk6 V c 2 t) (iblk6 V c 3 t) (iblk6 V c 4 t) = G6 V c := by
  unfold out6_5
  rw [View.canon_unit_zero hz6]
  simp only [View.ld_unit_zero (S := S1000x384) hz6, View.ld_unit_zero (S := S384x128) hz6, View.ld_unit_zero (S := S1x128) hz6,
    View.ld_unit_zero (S := S128x128) hz6]
  funext j
  obtain ⟨p, q, rfl⟩ : ∃ (p : Fin 1000) (q : Fin 128), j = ix2 p q := ⟨j 0, j 1, eq_ix2 j⟩
  refine (pay6_apply _ _ _ _ _ p q).trans ?_
  rw [iblk6_0_eq, iblk6_1_eq, iblk6_2_eq, iblk6_3_eq, iblk6_4_eq]
  rfl

/-- What the one point writes back is the whole of that array, read through the output window's block. -/
theorem flushed6_eq (c : Dev nD) (t : Fin cfg6.N) :
    (dat6 (F := Ideal) V c).flushed 5 t = ((cfg6.win 5).blk t).view.read (Elt Ideal) (G6 V c) := by
  show (cfg6.win 5).cut (grid6.coords t) ((dat6 V c).after 5 t) = _
  rw [after6_5, out6_5_eq]
  have hz' : (fun a => win6_5.index t a * main_v73.ty.shape.size a) = fun _ => 0 := funext fun a => by fin_cases a <;> rfl
  exact (Memref.read_access_unit_zero (Elt Ideal) main_v73 hz' (fun a => by rw [congrFun hz' a]; simp) (G6 V c)).symm

/-- What region 6's write-back leaves in its output's array: the head applied to the arrays it finds. -/
theorem proj6_value (V : (c : Dev nD) → (b : Ref sig .tc) → Buf (Elt Ideal) ((c : Thread nD τ).loc b)) (c : Dev nD) :
    ((dat6 (F := Ideal) V c).arrAt 5 cfg6.N : S1000x128.Idx → EReal)
      = Cert.Spec.proj (V c (Pipeline.arrRef spec6 0)) (V c (Pipeline.arrRef spec6 1)) (V c (Pipeline.arrRef spec6 2))
          (V c (Pipeline.arrRef spec6 3)) (V c (Pipeline.arrRef spec6 4)) :=
  (dat6 (F := Ideal) V c).arrAt_eq_of_cover 5 (G6 V c) (fun t _ => flushed6_eq V c t) fun i =>
    ⟨t6_0, flush6_5 t6_0, by
      show i ∈ ((View.whole main_v73).slice (win6_5.rect t6_0)).set
      rw [View.set_slice_whole, Rect.mem_set_unit]
      intro a
      have h0 : (i 0 : Nat) < 1000 := (i 0).isLt
      have h1 : (i 1 : Nat) < 128 := (i 1).isLt
      match a with
      | ⟨0, _⟩ => exact ⟨Nat.zero_le _, h0⟩
      | ⟨1, _⟩ => exact ⟨Nat.zero_le _, h1⟩⟩

end Cert.KernelIdeal.Run

end
-- ==== Proof.SpecLayout.lean ====
/-
  The two programs' layout operations are the specification's re-indexings.

  Both programs cut a layer's weights and biases out of stacked arrays, add or drop unit axes, turn the graph ids into
  a column, keep the first 1000 of 1024 pooled rows, lay three pooled arrays side by side, and broadcast a bias or a
  zero. Each of these reads, at every index, one element of its operand; here each is shown equal, as an array, to
  the function the specification uses for it. The side conditions of the operations are hypotheses of exactly the
  types the operations ask, so the statements apply whatever proof of them a program carries.
-/
import proofs.«410827_j82411832476193_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Spec

open Idealize.ShloMosaic Idealize.ShloMosaic.ValueIdx

/-! ## A layer's weights and biases out of the stacks -/

/-- Layer `l` of the stack of three weight matrices, cut out as a `[1, 128, 128]` block at row offset `o = l` and
    reshaped to `[128, 128]`: entry `(p, q)` is the stack's entry `(l, p, q)`. -/
theorem wOf_eq_of (o : Nat) (l : Fin 3) (hl : l.val = o) (W : SW3.Idx → EReal)
    (hs : SW3.Slices ![o, 0, 0] ⟨3, ![1, 128, 128]⟩) (hc : (⟨3, ![1, 128, 128]⟩ : Shape).ShapeCasts SW) :
    shapeCast SW (extractStridedSlice ⟨3, ![1, 128, 128]⟩ ![o, 0, 0] W hs) hc = wOf W l := by
  funext i
  obtain ⟨p, q, rfl⟩ : ∃ (p : Fin 128) (q : Fin 128), i = ix2 p q := ⟨i 0, i 1, eq_ix2 i⟩
  refine (shapeCast_1ab_ab_apply _ hc p q).trans ?_
  exact extractStridedSlice_apply _ W hs _ (ix3 l p q) (fun a => by
    match a with
    | ⟨0, _⟩ => show l.val = o + 0; omega
    | ⟨1, _⟩ => show p.val = 0 + p.val; omega
    | ⟨2, _⟩ => show q.val = 0 + q.val; omega)

theorem wOf_eq0 (W : SW3.Idx → EReal)
    (hs : SW3.Slices ![0, 0, 0] ⟨3, ![1, 128, 128]⟩) (hc : (⟨3, ![1, 128, 128]⟩ : Shape).ShapeCasts SW) :
    shapeCast SW (extractStridedSlice ⟨3, ![1, 128, 128]⟩ ![0, 0, 0] W hs) hc = wOf W 0 :=
  wOf_eq_of 0 0 rfl W hs hc

theorem wOf_eq1 (W : SW3.Idx → EReal)
    (hs : SW3.Slices ![1, 0, 0] ⟨3, ![1, 128, 128]⟩) (hc : (⟨3, ![1, 128, 128]⟩ : Shape).ShapeCasts SW) :
    shapeCast SW (extractStridedSlice ⟨3, ![1, 128, 128]⟩ ![1, 0, 0] W hs) hc = wOf W 1 :=
  wOf_eq_of 1 1 rfl W hs hc

theorem wOf_eq2 (W : SW3.Idx → EReal)
    (hs : SW3.Slices ![2, 0, 0] ⟨3, ![1, 128, 128]⟩) (hc : (⟨3, ![1, 128, 128]⟩ : Shape).ShapeCasts SW) :
    shapeCast SW (extractStridedSlice ⟨3, ![1, 128, 128]⟩ ![2, 0, 0] W hs) hc = wOf W 2 :=
  wOf_eq_of 2 2 rfl W hs hc

/-- Row `l` of the three bias rows, cut out as a `[1, 128]` block at row offset `o = l` and reshaped to `[128]`, read
    back as a row: entry `q` is the stack's entry `(l, q)`. -/
theorem bvec_eq_of (o : Nat) (l : Fin 3) (hl : l.val = o) (B : SB3.Idx → EReal)
    (hs : SB3.Slices ![o, 0] SRow) (hc : SRow.ShapeCasts SVec) :
    rowOf (shapeCast SVec (extractStridedSlice SRow ![o, 0] B hs) hc) = bOf B l := by
  funext i
  obtain ⟨u, q, rfl⟩ : ∃ (u : Fin 1) (q : Fin 128), i = ix2 u q := ⟨i 0, i 1, eq_ix2 i⟩
  show shapeCast SVec (extractStridedSlice SRow ![o, 0] B hs) hc (ix1 q) = B (ix2 l q)
  refine (shapeCast_1a_a_apply _ hc q).trans ?_
  exact slice2_axis0_apply o B hs (0 : Fin 1) q l (by show l.val = o + 0; omega)

theorem bvec_eq0 (B : SB3.Idx → EReal) (hs : SB3.Slices ![0, 0] SRow) (hc : SRow.ShapeCasts SVec) :
    rowOf (shapeCast SVec (extractStridedSlice SRow ![0, 0] B hs) hc) = bOf B 0 := bvec_eq_of 0 0 rfl B hs hc

theorem bvec_eq1 (B : SB3.Idx → EReal) (hs : SB3.Slices ![1, 0] SRow) (hc : SRow.ShapeCasts SVec) :
    rowOf (shapeCast SVec (extractStridedSlice SRow ![1, 0] B hs) hc) = bOf B 1 := bvec_eq_of 1 1 rfl B hs hc

theorem bvec_eq2 (B : SB3.Idx → EReal) (hs : SB3.Slices ![2, 0] SRow) (hc : SRow.ShapeCasts SVec) :
    rowOf (shapeCast SVec (extractStridedSlice SRow ![2, 0] B hs) hc) = bOf B 2 := bvec_eq_of 2 2 rfl B hs hc

/-- A `[128]` vector reshaped to `[1, 128]` is the vector as a row. -/
theorem rowOf_eq (b : SVec.Idx → EReal) (hc : SVec.ShapeCasts SRow) : shapeCast SRow b hc = rowOf b := by
  funext i
  obtain ⟨u, q, rfl⟩ : ∃ (u : Fin 1) (q : Fin 128), i = ix2 u q := ⟨i 0, i 1, eq_ix2 i⟩
  exact shapeCast_a_1a_apply b hc u q

/-- Row `l` of the bias rows cut out, reshaped to `[128]` and back to `[1, 128]`, is layer `l`'s bias row. -/
theorem bOf_eq_of (o : Nat) (l : Fin 3) (hl : l.val = o) (B : SB3.Idx → EReal)
    (hs : SB3.Slices ![o, 0] SRow) (hc : SRow.ShapeCasts SVec) (hc' : SVec.ShapeCasts SRow) :
    shapeCast SRow (shapeCast SVec (extractStridedSlice SRow ![o, 0] B hs) hc) hc' = bOf B l :=
  (rowOf_eq _ hc').trans (bvec_eq_of o l hl B hs hc)

theorem bOf_eq0 (B : SB3.Idx → EReal) (hs : SB3.Slices ![0, 0] SRow) (hc : SRow.ShapeCasts SVec) (hc' : SVec.ShapeCasts SRow) :
    shapeCast SRow (shapeCast SVec (extractStridedSlice SRow ![0, 0] B hs) hc) hc' = bOf B 0 := bOf_eq_of 0 0 rfl B hs hc hc'

theorem bOf_eq1 (B : SB3.Idx → EReal) (hs : SB3.Slices ![1, 0] SRow) (hc : SRow.ShapeCasts SVec) (hc' : SVec.ShapeCasts SRow) :
    shapeCast SRow (shapeCast SVec (extractStridedSlice SRow ![1, 0] B hs) hc) hc' = bOf B 1 := bOf_eq_of 1 1 rfl B hs hc hc'

theorem bOf_eq2 (B : SB3.Idx → EReal) (hs : SB3.Slices ![2, 0] SRow) (hc : SRow.ShapeCasts SVec) (hc' : SVec.ShapeCasts SRow) :
    shapeCast SRow (shapeCast SVec (extractStridedSlice SRow ![2, 0] B hs) hc) hc' = bOf B 2 := bOf_eq_of 2 2 rfl B hs hc hc'

/-! ## The pooled rows: three arrays side by side, and the padded rows dropped -/

/-- Three `[1000, 128]` arrays joined along the second axis: column `j` of row `p` is column `j` of the first below 128,
    column `j - 128` of the second below 256, column `j - 256` of the third from there. -/
theorem cat3_eq (a b c : SOut.Idx → EReal) (hcat : Shape.Concatenates [SOut, SOut, SOut] SCat 1) :
    concatenate SCat 1 [⟨SOut, a⟩, ⟨SOut, b⟩, ⟨SOut, c⟩] hcat = cat3 a b c := by
  funext i
  obtain ⟨p, j, rfl⟩ : ∃ (p : Fin 1000) (j : Fin 384), i = ix2 p j := ⟨i 0, i 1, eq_ix2 i⟩
  rw [cat3_apply]
  unfold cat3At
  split
  · next h1 =>
    exact concatenate_apply_piece (t := SCat) (1 : Fin 2) [⟨SOut, a⟩, ⟨SOut, b⟩, ⟨SOut, c⟩] hcat (ix2 p j) 0 (show (0 : Nat) < 3 by omega) SOut a rfl rfl 0 rfl (ix2 p ⟨j.val, h1⟩)
      (fun d hd => by
        match d with
        | ⟨0, _⟩ => rfl
        | ⟨1, _⟩ => exact absurd (Fin.ext rfl) hd)
      (by show 0 + j.val = j.val; omega)
  · next h1 =>
    split
    · next h2 =>
      exact concatenate_apply_piece (t := SCat) (1 : Fin 2) [⟨SOut, a⟩, ⟨SOut, b⟩, ⟨SOut, c⟩] hcat (ix2 p j) 1 (show (1 : Nat) < 3 by omega) SOut b rfl rfl 128 rfl
        (ix2 p ⟨j.val - 128, by omega⟩)
        (fun d hd => by
          match d with
          | ⟨0, _⟩ => rfl
          | ⟨1, _⟩ => exact absurd (Fin.ext rfl) hd)
        (by show 128 + (j.val - 128) = j.val; omega)
    · next h2 =>
      exact concatenate_apply_piece (t := SCat) (1 : Fin 2) [⟨SOut, a⟩, ⟨SOut, b⟩, ⟨SOut, c⟩] hcat (ix2 p j) 2 (show (2 : Nat) < 3 by omega) SOut c rfl rfl 256 rfl
        (ix2 p ⟨j.val - 256, by omega⟩)
        (fun d hd => by
          match d with
          | ⟨0, _⟩ => rfl
          | ⟨1, _⟩ => exact absurd (Fin.ext rfl) hd)
        (by show 256 + (j.val - 256) = j.val; omega)

/-- The first 1000 of the 1024 padded pooled rows are the 1000 graphs' pooled rows: a pooled row depends on the number
    of rows only through its own index. -/
theorem pool_slice_eq (h : SNodes.Idx → EReal) (gid : IVec SIds 32)
    (hs : (⟨2, ![1024, 128]⟩ : Shape).Slices ![0, 0] SOut) :
    extractStridedSlice SOut ![0, 0] (pool 1024 h gid) hs = pool 1000 h gid := by
  funext i
  obtain ⟨g, q, rfl⟩ : ∃ (g : Fin 1000) (q : Fin 128), i = ix2 g q := ⟨i 0, i 1, eq_ix2 i⟩
  refine (slice2_axis0_apply 0 (pool 1024 h gid) hs g q ⟨g.val, by omega⟩ (by show g.val = 0 + g.val; omega)).trans ?_
  rfl

/-! ## The graph ids as a column -/

/-- The `[100000]` ids reshaped to `[100000, 1]`: row `r` of the column is id `r`. -/
theorem colOf_eq (g : IVec SIdVec 32) (hc : SIdVec.ShapeCasts SIds) : shapeCast SIds g hc = colOf g := by
  funext i
  obtain ⟨r, u, rfl⟩ : ∃ (r : Fin 100000) (u : Fin 1), i = ix2 r u := ⟨i 0, i 1, eq_ix2 i⟩
  exact shapeCast_apply g hc (ix2 r u) (ix1 r) (by
    have hu : u.val = 0 := by omega
    rw [Shape.rowMajor_val_two, Shape.rowMajor_val_one]
    show r.val = r.val * 1 + u.val
    omega)

/-- The `[100000]` ids broadcast to `[100000, 1]` along the first axis: row `r` of the column is id `r`. -/
theorem colOf_bcast_eq (g : IVec SIdVec 32) (hb : SIdVec.BroadcastsInDim SIds ![0]) :
    broadcastInDim SIds ![0] hb g = colOf g := by
  funext i
  obtain ⟨r, u, rfl⟩ : ∃ (r : Fin 100000) (u : Fin 1), i = ix2 r u := ⟨i 0, i 1, eq_ix2 i⟩
  exact broadcastInDim_apply ![0] hb g (ix2 r u) (ix1 r) (fun a => by
    match a with
    | ⟨0, _⟩ => show r.val = if (100000 : Nat) = 1 then 0 else r.val; rw [if_neg (by omega)])

/-! ## A bias broadcast over the rows, and a zero array -/

/-- A `[128]` bias broadcast to a row `[1, 128]` and then over `n` rows: entry `(p, q)` is the bias's entry `q`. -/
theorem bias2_eq (n : Nat) (b : SVec.Idx → EReal) (hb1 : SVec.BroadcastsInDim SRow ![1])
    (hb2 : SRow.BroadcastsInDim ⟨2, ![n, 128]⟩ ![0, 1]) (p : Fin n) (q : Fin 128) :
    broadcastInDim ⟨2, ![n, 128]⟩ ![0, 1] hb2 (broadcastInDim SRow ![1] hb1 b) (ix2 p q) = b (ix1 q) := by
  refine (broadcastInDim_apply ![0, 1] hb2 _ (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by omega)])).trans ?_
  exact broadcastInDim_apply ![1] hb1 b (ix2 (0 : Fin 1) q) (ix1 q) (fun a => by
    match a with
    | ⟨0, _⟩ => show q.val = if (128 : Nat) = 1 then 0 else q.val; rw [if_neg (by omega)])

/-- The zero word broadcast to any shape is the array of zeros. -/
theorem zero_eq (S : Shape) (hz : (⟨0, ![]⟩ : Shape).BroadcastsInDim S ![]) (i : S.Idx) :
    broadcastInDim S ![] hz (constant (F := Ideal) ⟨0, ![]⟩ .f32 0x00000000#32) i = 0 :=
  Ideal.ofBits_zero_f32

end Cert.Spec

end
-- ==== Proof.KI.KernelValue.lean ====
/-
  The kernel program's result as a function of its arguments. Reading back through the boundaries of the run: the head's
  region leaves the head applied to what it finds; it finds the three poolings' first 1000 rows side by side, each
  pooling what its region leaves of a layer's output and the ids column; each layer's output is what its region leaves
  of the previous output, that output's neighbour sums as the host stretch before it made them, and that layer's
  weights and biases sliced out of the stacked arguments. Arrays that nothing in between writes are carried across
  stretches and regions unchanged. The end: the specification's composition of the launch contents.
-/
import proofs.«410827_j82411832476193_1_alg».proof.Proof.KI.Run
import proofs.«410827_j82411832476193_1_alg».proof.Proof.KI.NbOf
import proofs.«410827_j82411832476193_1_alg».proof.Proof.KI.GinValue0
import proofs.«410827_j82411832476193_1_alg».proof.Proof.KI.GinValue2
import proofs.«410827_j82411832476193_1_alg».proof.Proof.KI.GinValue4
import proofs.«410827_j82411832476193_1_alg».proof.Proof.KI.PoolValue1
import proofs.«410827_j82411832476193_1_alg».proof.Proof.KI.PoolValue3
import proofs.«410827_j82411832476193_1_alg».proof.Proof.KI.PoolValue5
import proofs.«410827_j82411832476193_1_alg».proof.Proof.KI.ProjValue6
import proofs.«410827_j82411832476193_1_alg».proof.Proof.Spec
import proofs.«410827_j82411832476193_1_alg».proof.Proof.SpecLayout
import Idealize.ShloMosaic.Lib.StableHlo.Run
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]

section Readings
variable (m : (ℓ : Loc nD τ sig) → Buf (Elt F) ℓ) (ρ : Dev nD → PrngReg)

/-! ## What a layer's stretch and two regions leave untouched -/
theorem W3_keep (c : Dev nD) (b : Ref sig .tc) (h0 : b ∉ hostOps0_W) (e0 : b ≠ main_v21) (e1 : b ≠ main_v22) :
    W3 m ρ c (Proc.devRef .tc b) = W0 m ρ c (Proc.devRef .tc b) :=
  (keep1 m ρ c b e1).trans ((keep0 m ρ c b e0).trans (W1_of m ρ c b h0))
theorem W6_keep (c : Dev nD) (b : Ref sig .tc) (h2 : b ∉ hostOps2_W) (e2 : b ≠ main_v44) (e3 : b ≠ main_v45) :
    W6 m ρ c (Proc.devRef .tc b) = W3 m ρ c (Proc.devRef .tc b) :=
  (keep3 m ρ c b e3).trans ((keep2 m ρ c b e2).trans (W4_of m ρ c b h2))
theorem W9_keep (c : Dev nD) (b : Ref sig .tc) (h4 : b ∉ hostOps4_W) (e4 : b ≠ main_v67) (e5 : b ≠ main_v68) :
    W9 m ρ c (Proc.devRef .tc b) = W6 m ρ c (Proc.devRef .tc b) :=
  (keep5 m ρ c b e5).trans ((keep4 m ρ c b e4).trans (W7_of m ρ c b h4))
/-- An array no stretch writes and no region outputs, at the three layers' entries and at the head's. -/
theorem W3_arg (c : Dev nD) (b : Ref sig .tc) (h0 : b ∉ hostOps0_W) (e0 : b ≠ main_v21) (e1 : b ≠ main_v22) :
    W3 m ρ c (Proc.devRef .tc b) = m ((c : Thread nD τ).loc b) := W3_keep m ρ c b h0 e0 e1
theorem W6_arg (c : Dev nD) (b : Ref sig .tc) (h0 : b ∉ hostOps0_W) (h2 : b ∉ hostOps2_W) (e0 : b ≠ main_v21) (e1 : b ≠ main_v22) (e2 : b ≠ main_v44) (e3 : b ≠ main_v45) :
    W6 m ρ c (Proc.devRef .tc b) = m ((c : Thread nD τ).loc b) := (W6_keep m ρ c b h2 e2 e3).trans (W3_arg m ρ c b h0 e0 e1)
theorem W9_arg (c : Dev nD) (b : Ref sig .tc) (h0 : b ∉ hostOps0_W) (h2 : b ∉ hostOps2_W) (h4 : b ∉ hostOps4_W) (e0 : b ≠ main_v21) (e1 : b ≠ main_v22) (e2 : b ≠ main_v44) (e3 : b ≠ main_v45) (e4 : b ≠ main_v67) (e5 : b ≠ main_v68) :
    W9 m ρ c (Proc.devRef .tc b) = m ((c : Thread nD τ).loc b) := (W9_keep m ρ c b h4 e4 e5).trans (W6_arg m ρ c b h0 h2 e0 e1 e2 e3)

/-! ## The host stretches, read at the arrays the regions take -/

/-! ### The host stretch before layer 1's two regions, read at the arrays the regions take -/
theorem W1_nb (c : Dev nD) : W1 m ρ c (Proc.devRef .tc main_v10)
    = nbOfK (W0 m ρ c (Proc.devRef .tc main_arg1)) (W0 m ρ c (Proc.devRef .tc main_arg2)) (W0 m ρ c (Proc.devRef .tc main_arg0)) := by
  dsimp only [W1, hostOps0]
  after_results <;> rfl
theorem W1_w1 (c : Dev nD) : W1 m ρ c (Proc.devRef .tc main_v12)
    = shapeCast S128x128 (extractStridedSlice S1x128x128 ![0, 0, 0] (W0 m ρ c (Proc.devRef .tc main_arg4)) slices_S3x128x128_S1x128x128_0_0_0) shapeCasts_S1x128x128_S128x128 := by
  dsimp only [W1, hostOps0]
  after_results <;> rfl
theorem W1_w2 (c : Dev nD) : W1 m ρ c (Proc.devRef .tc main_v16)
    = shapeCast S128x128 (extractStridedSlice S1x128x128 ![0, 0, 0] (W0 m ρ c (Proc.devRef .tc main_arg6)) slices_S3x128x128_S1x128x128_0_0_0) shapeCasts_S1x128x128_S128x128 := by
  dsimp only [W1, hostOps0]
  after_results <;> rfl
theorem W1_b1 (c : Dev nD) : W1 m ρ c (Proc.devRef .tc main_v19)
    = shapeCast S1x128 (shapeCast S128 (extractStridedSlice S1x128 ![0, 0] (W0 m ρ c (Proc.devRef .tc main_arg5)) slices_S3x128_S1x128_0_0) shapeCasts_S1x128_S128) shapeCasts_S128_S1x128 := by
  dsimp only [W1, hostOps0]
  after_results <;> rfl
theorem W1_b2 (c : Dev nD) : W1 m ρ c (Proc.devRef .tc main_v20)
    = shapeCast S1x128 (shapeCast S128 (extractStridedSlice S1x128 ![0, 0] (W0 m ρ c (Proc.devRef .tc main_arg7)) slices_S3x128_S1x128_0_0) shapeCasts_S1x128_S128) shapeCasts_S128_S1x128 := by
  dsimp only [W1, hostOps0]
  after_results <;> rfl

/-! ### The host stretch before layer 2's two regions, read at the arrays the regions take -/
theorem W4_nb (c : Dev nD) : W4 m ρ c (Proc.devRef .tc main_v33)
    = nbOfK (W3 m ρ c (Proc.devRef .tc main_arg1)) (W3 m ρ c (Proc.devRef .tc main_arg2)) (W3 m ρ c (Proc.devRef .tc main_v21)) := by
  dsimp only [W4, hostOps2]
  after_results <;> rfl
theorem W4_w1 (c : Dev nD) : W4 m ρ c (Proc.devRef .tc main_v35)
    = shapeCast S128x128 (extractStridedSlice S1x128x128 ![1, 0, 0] (W3 m ρ c (Proc.devRef .tc main_arg4)) slices_S3x128x128_S1x128x128_1_0_0) shapeCasts_S1x128x128_S128x128 := by
  dsimp only [W4, hostOps2]
  after_results <;> rfl
theorem W4_w2 (c : Dev nD) : W4 m ρ c (Proc.devRef .tc main_v39)
    = shapeCast S128x128 (extractStridedSlice S1x128x128 ![1, 0, 0] (W3 m ρ c (Proc.devRef .tc main_arg6)) slices_S3x128x128_S1x128x128_1_0_0) shapeCasts_S1x128x128_S128x128 := by
  dsimp only [W4, hostOps2]
  after_results <;> rfl
theorem W4_b1 (c : Dev nD) : W4 m ρ c (Proc.devRef .tc main_v42)
    = shapeCast S1x128 (shapeCast S128 (extractStridedSlice S1x128 ![1, 0] (W3 m ρ c (Proc.devRef .tc main_arg5)) slices_S3x128_S1x128_1_0) shapeCasts_S1x128_S128) shapeCasts_S128_S1x128 := by
  dsimp only [W4, hostOps2]
  after_results <;> rfl
theorem W4_b2 (c : Dev nD) : W4 m ρ c (Proc.devRef .tc main_v43)
    = shapeCast S1x128 (shapeCast S128 (extractStridedSlice S1x128 ![1, 0] (W3 m ρ c (Proc.devRef .tc main_arg7)) slices_S3x128_S1x128_1_0) shapeCasts_S1x128_S128) shapeCasts_S128_S1x128 := by
  dsimp only [W4, hostOps2]
  after_results <;> rfl

/-! ### The host stretch before layer 3's two regions, read at the arrays the regions take -/
theorem W7_nb (c : Dev nD) : W7 m ρ c (Proc.devRef .tc main_v56)
    = nbOfK (W6 m ρ c (Proc.devRef .tc main_arg1)) (W6 m ρ c (Proc.devRef .tc main_arg2)) (W6 m ρ c (Proc.devRef .tc main_v44)) := by
  dsimp only [W7, hostOps4]
  after_results <;> rfl
theorem W7_w1 (c : Dev nD) : W7 m ρ c (Proc.devRef .tc main_v58)
    = shapeCast S128x128 (extractStridedSlice S1x128x128 ![2, 0, 0] (W6 m ρ c (Proc.devRef .tc main_arg4)) slices_S3x128x128_S1x128x128_2_0_0) shapeCasts_S1x128x128_S128x128 := by
  dsimp only [W7, hostOps4]
  after_results <;> rfl
theorem W7_w2 (c : Dev nD) : W7 m ρ c (Proc.devRef .tc main_v62)
    = shapeCast S128x128 (extractStridedSlice S1x128x128 ![2, 0, 0] (W6 m ρ c (Proc.devRef .tc main_arg6)) slices_S3x128x128_S1x128x128_2_0_0) shapeCasts_S1x128x128_S128x128 := by
  dsimp only [W7, hostOps4]
  after_results <;> rfl
theorem W7_b1 (c : Dev nD) : W7 m ρ c (Proc.devRef .tc main_v65)
    = shapeCast S1x128 (shapeCast S128 (extractStridedSlice S1x128 ![2, 0] (W6 m ρ c (Proc.devRef .tc main_arg5)) slices_S3x128_S1x128_2_0) shapeCasts_S1x128_S128) shapeCasts_S128_S1x128 := by
  dsimp only [W7, hostOps4]
  after_results <;> rfl
theorem W7_b2 (c : Dev nD) : W7 m ρ c (Proc.devRef .tc main_v66)
    = shapeCast S1x128 (shapeCast S128 (extractStridedSlice S1x128 ![2, 0] (W6 m ρ c (Proc.devRef .tc main_arg7)) slices_S3x128_S1x128_2_0) shapeCasts_S1x128_S128) shapeCasts_S128_S1x128 := by
  dsimp only [W7, hostOps4]
  after_results <;> rfl

theorem W1_ids (c : Dev nD) : W1 m ρ c (Proc.devRef .tc main_v0) = shapeCast S100000x1 (W0 m ρ c (Proc.devRef .tc main_arg3)) shapeCasts_S100000_S100000x1 := by
  dsimp only [W1, hostOps0]
  after_results <;> rfl
theorem W4_p1 (c : Dev nD) : W4 m ρ c (Proc.devRef .tc main_v23) = extractStridedSlice S1000x128 ![0, 0] (W3 m ρ c (Proc.devRef .tc main_v22)) slices_S1024x128_S1000x128_0_0 := by
  dsimp only [W4, hostOps2]
  after_results <;> rfl
theorem W7_p2 (c : Dev nD) : W7 m ρ c (Proc.devRef .tc main_v46) = extractStridedSlice S1000x128 ![0, 0] (W6 m ρ c (Proc.devRef .tc main_v45)) slices_S1024x128_S1000x128_0_0 := by
  dsimp only [W7, hostOps4]
  after_results <;> rfl
theorem W10_cat (c : Dev nD) : W10 m ρ c (Proc.devRef .tc main_v70)
    = concatenate S1000x384 1 [⟨S1000x128, W9 m ρ c (Proc.devRef .tc main_v23)⟩, ⟨S1000x128, W9 m ρ c (Proc.devRef .tc main_v46)⟩,
        ⟨S1000x128, extractStridedSlice S1000x128 ![0, 0] (W9 m ρ c (Proc.devRef .tc main_v68)) slices_S1024x128_S1000x128_0_0⟩]
        concatenates_S1000x128_S1000x128_S1000x128_S1000x384_d1 := by
  dsimp only [W10, hostOps6]
  after_results <;> rfl
theorem W10_pb1 (c : Dev nD) : W10 m ρ c (Proc.devRef .tc main_v71) = shapeCast S1x128 (W9 m ρ c (Proc.devRef .tc main_arg9)) shapeCasts_S128_S1x128 := by
  dsimp only [W10, hostOps6]
  after_results <;> rfl
theorem W10_pb2 (c : Dev nD) : W10 m ρ c (Proc.devRef .tc main_v72) = shapeCast S1x128 (W9 m ρ c (Proc.devRef .tc main_arg11)) shapeCasts_S128_S1x128 := by
  dsimp only [W10, hostOps6]
  after_results <;> rfl

end Readings

/-! ## The chain at the ideal instance -/
section Chain
variable (m : (ℓ : Loc nD τ sig) → Buf (Elt Ideal) ℓ) (ρ : Dev nD → PrngReg)

/-- The three layers' outputs, as the specification composes them from the launch contents. -/
def layerOut1 (c : Dev nD) : Cert.Spec.SNodes.Idx → EReal :=
  Cert.Spec.gin (m ((c : Thread nD τ).loc main_arg0)) (nbOfK (F := Ideal) (m ((c : Thread nD τ).loc main_arg1)) (m ((c : Thread nD τ).loc main_arg2)) (m ((c : Thread nD τ).loc main_arg0))) (Cert.Spec.wOf (m ((c : Thread nD τ).loc main_arg4)) 0) (Cert.Spec.bOf (m ((c : Thread nD τ).loc main_arg5)) 0) (Cert.Spec.wOf (m ((c : Thread nD τ).loc main_arg6)) 0) (Cert.Spec.bOf (m ((c : Thread nD τ).loc main_arg7)) 0)
def layerOut2 (c : Dev nD) : Cert.Spec.SNodes.Idx → EReal :=
  Cert.Spec.gin (layerOut1 m c) (nbOfK (F := Ideal) (m ((c : Thread nD τ).loc main_arg1)) (m ((c : Thread nD τ).loc main_arg2)) (layerOut1 m c)) (Cert.Spec.wOf (m ((c : Thread nD τ).loc main_arg4)) 1) (Cert.Spec.bOf (m ((c : Thread nD τ).loc main_arg5)) 1) (Cert.Spec.wOf (m ((c : Thread nD τ).loc main_arg6)) 1) (Cert.Spec.bOf (m ((c : Thread nD τ).loc main_arg7)) 1)
def layerOut3 (c : Dev nD) : Cert.Spec.SNodes.Idx → EReal :=
  Cert.Spec.gin (layerOut2 m c) (nbOfK (F := Ideal) (m ((c : Thread nD τ).loc main_arg1)) (m ((c : Thread nD τ).loc main_arg2)) (layerOut2 m c)) (Cert.Spec.wOf (m ((c : Thread nD τ).loc main_arg4)) 2) (Cert.Spec.bOf (m ((c : Thread nD τ).loc main_arg5)) 2) (Cert.Spec.wOf (m ((c : Thread nD τ).loc main_arg6)) 2) (Cert.Spec.bOf (m ((c : Thread nD τ).loc main_arg7)) 2)

/-- The ids column the pooling regions find is the ids argument as a column, at each of their entries. -/
theorem ids2 (c : Dev nD) : W2 m ρ c (Proc.devRef .tc main_v0) = Cert.Spec.colOf (m ((c : Thread nD τ).loc main_arg3)) :=
  (keep0 m ρ c main_v0 (by decide)).trans ((W1_ids m ρ c).trans (Cert.Spec.colOf_eq _ _))
theorem ids5 (c : Dev nD) : W5 m ρ c (Proc.devRef .tc main_v0) = Cert.Spec.colOf (m ((c : Thread nD τ).loc main_arg3)) :=
  (keep2 m ρ c main_v0 (by decide)).trans ((W4_of m ρ c main_v0 (by decide)).trans ((keep1 m ρ c main_v0 (by decide)).trans (ids2 m ρ c)))
theorem ids8 (c : Dev nD) : W8 m ρ c (Proc.devRef .tc main_v0) = Cert.Spec.colOf (m ((c : Thread nD τ).loc main_arg3)) :=
  (keep4 m ρ c main_v0 (by decide)).trans ((W7_of m ρ c main_v0 (by decide)).trans ((keep3 m ρ c main_v0 (by decide)).trans (ids5 m ρ c)))

/-- Layer 1's region leaves the specification's first layer. -/
theorem layer1 (c : Dev nD) : W2 m ρ c (Proc.devRef .tc main_v21) = layerOut1 m c := by
  refine (W2_arr m ρ c 6).trans ((gin0_value (V1 m ρ) c).trans ?_)
  show Cert.Spec.gin (W1 m ρ c (Proc.devRef .tc main_arg0)) (W1 m ρ c (Proc.devRef .tc main_v10)) (W1 m ρ c (Proc.devRef .tc main_v12)) (W1 m ρ c (Proc.devRef .tc main_v19)) (W1 m ρ c (Proc.devRef .tc main_v16)) (W1 m ρ c (Proc.devRef .tc main_v20)) = _
  rw [W1_of m ρ c main_arg0 (by decide), W1_nb, W1_w1, W1_b1, W1_w2, W1_b2,
    Cert.Spec.wOf_eq0, Cert.Spec.bOf_eq0, Cert.Spec.wOf_eq0, Cert.Spec.bOf_eq0]
  rfl
theorem pooled1 (c : Dev nD) : W3 m ρ c (Proc.devRef .tc main_v22) = Cert.Spec.pool 1024 (layerOut1 m c) (Cert.Spec.colOf (m ((c : Thread nD τ).loc main_arg3))) := by
  refine (W3_arr m ρ c 2).trans ((pool1_value (V2 m ρ) c).trans ?_)
  show Cert.Spec.pool 1024 (W2 m ρ c (Proc.devRef .tc main_v21)) (W2 m ρ c (Proc.devRef .tc main_v0)) = _
  rw [layer1, ids2]

/-- Layer 2's region leaves the specification's second layer. -/
theorem layer2 (c : Dev nD) : W5 m ρ c (Proc.devRef .tc main_v44) = layerOut2 m c := by
  refine (W5_arr m ρ c 6).trans ((gin2_value (V4 m ρ) c).trans ?_)
  show Cert.Spec.gin (W4 m ρ c (Proc.devRef .tc main_v21)) (W4 m ρ c (Proc.devRef .tc main_v33)) (W4 m ρ c (Proc.devRef .tc main_v35)) (W4 m ρ c (Proc.devRef .tc main_v42)) (W4 m ρ c (Proc.devRef .tc main_v39)) (W4 m ρ c (Proc.devRef .tc main_v43)) = _
  have e21 : W3 m ρ c (Proc.devRef .tc main_v21) = layerOut1 m c := (keep1 m ρ c main_v21 (by decide)).trans (layer1 m ρ c)
  rw [W4_of m ρ c main_v21 (by decide), W4_nb, W4_w1, W4_b1, W4_w2, W4_b2, e21,
    W3_arg m ρ c main_arg1 (by decide) (by decide) (by decide), W3_arg m ρ c main_arg2 (by decide) (by decide) (by decide),
    W3_arg m ρ c main_arg4 (by decide) (by decide) (by decide), W3_arg m ρ c main_arg5 (by decide) (by decide) (by decide),
    W3_arg m ρ c main_arg6 (by decide) (by decide) (by decide), W3_arg m ρ c main_arg7 (by decide) (by decide) (by decide),
    Cert.Spec.wOf_eq1, Cert.Spec.bOf_eq1, Cert.Spec.wOf_eq1, Cert.Spec.bOf_eq1]
  rfl
theorem pooled2 (c : Dev nD) : W6 m ρ c (Proc.devRef .tc main_v45) = Cert.Spec.pool 1024 (layerOut2 m c) (Cert.Spec.colOf (m ((c : Thread nD τ).loc main_arg3))) := by
  refine (W6_arr m ρ c 2).trans ((pool3_value (V5 m ρ) c).trans ?_)
  show Cert.Spec.pool 1024 (W5 m ρ c (Proc.devRef .tc main_v44)) (W5 m ρ c (Proc.devRef .tc main_v0)) = _
  rw [layer2, ids5]

/-- Layer 3's region leaves the specification's third layer. -/
theorem layer3 (c : Dev nD) : W8 m ρ c (Proc.devRef .tc main_v67) = layerOut3 m c := by
  refine (W8_arr m ρ c 6).trans ((gin4_value (V7 m ρ) c).trans ?_)
  show Cert.Spec.gin (W7 m ρ c (Proc.devRef .tc main_v44)) (W7 m ρ c (Proc.devRef .tc main_v56)) (W7 m ρ c (Proc.devRef .tc main_v58)) (W7 m ρ c (Proc.devRef .tc main_v65)) (W7 m ρ c (Proc.devRef .tc main_v62)) (W7 m ρ c (Proc.devRef .tc main_v66)) = _
  have e44 : W6 m ρ c (Proc.devRef .tc main_v44) = layerOut2 m c := (keep3 m ρ c main_v44 (by decide)).trans (layer2 m ρ c)
  rw [W7_of m ρ c main_v44 (by decide), W7_nb, W7_w1, W7_b1, W7_w2, W7_b2, e44,
    W6_arg m ρ c main_arg1 (by decide) (by decide) (by decide) (by decide) (by decide) (by decide), W6_arg m ρ c main_arg2 (by decide) (by decide) (by decide) (by decide) (by decide) (by decide),
    W6_arg m ρ c main_arg4 (by decide) (by decide) (by decide) (by decide) (by decide) (by decide), W6_arg m ρ c main_arg5 (by decide) (by decide) (by decide) (by decide) (by decide) (by decide),
    W6_arg m ρ c main_arg6 (by decide) (by decide) (by decide) (by decide) (by decide) (by decide), W6_arg m ρ c main_arg7 (by decide) (by decide) (by decide) (by decide) (by decide) (by decide),
    Cert.Spec.wOf_eq2, Cert.Spec.bOf_eq2, Cert.Spec.wOf_eq2, Cert.Spec.bOf_eq2]
  rfl
theorem pooled3 (c : Dev nD) : W9 m ρ c (Proc.devRef .tc main_v68) = Cert.Spec.pool 1024 (layerOut3 m c) (Cert.Spec.colOf (m ((c : Thread nD τ).loc main_arg3))) := by
  refine (W9_arr m ρ c 2).trans ((pool5_value (V8 m ρ) c).trans ?_)
  show Cert.Spec.pool 1024 (W8 m ρ c (Proc.devRef .tc main_v67)) (W8 m ρ c (Proc.devRef .tc main_v0)) = _
  rw [layer3, ids8]

/-- The three poolings' first 1000 rows, side by side, are what the head finds. -/
theorem catted (c : Dev nD) : W10 m ρ c (Proc.devRef .tc main_v70)
    = Cert.Spec.cat3 (Cert.Spec.pool 1000 (layerOut1 m c) (Cert.Spec.colOf (m ((c : Thread nD τ).loc main_arg3)))) (Cert.Spec.pool 1000 (layerOut2 m c) (Cert.Spec.colOf (m ((c : Thread nD τ).loc main_arg3))))
        (Cert.Spec.pool 1000 (layerOut3 m c) (Cert.Spec.colOf (m ((c : Thread nD τ).loc main_arg3)))) := by
  have e23 : W9 m ρ c (Proc.devRef .tc main_v23) = Cert.Spec.pool 1000 (layerOut1 m c) (Cert.Spec.colOf (m ((c : Thread nD τ).loc main_arg3))) := by
    rw [W9_keep m ρ c main_v23 (by decide) (by decide) (by decide), keep3 m ρ c main_v23 (by decide), keep2 m ρ c main_v23 (by decide), W4_p1, pooled1]
    exact Cert.Spec.pool_slice_eq _ _ _
  have e46 : W9 m ρ c (Proc.devRef .tc main_v46) = Cert.Spec.pool 1000 (layerOut2 m c) (Cert.Spec.colOf (m ((c : Thread nD τ).loc main_arg3))) := by
    rw [keep5 m ρ c main_v46 (by decide), keep4 m ρ c main_v46 (by decide), W7_p2, pooled2]
    exact Cert.Spec.pool_slice_eq _ _ _
  rw [W10_cat, e23, e46, pooled3, Cert.Spec.pool_slice_eq]
  exact Cert.Spec.cat3_eq _ _ _ _

/-- THE KERNEL'S RESULT: what the head's region leaves is the specification's composition of the launch contents. -/
theorem kernel_value (c : Dev nD) :
    ((dat6 (F := Ideal) (V10 m ρ) c).arrAt 5 cfg6.N : S1000x128.Idx → EReal)
      = Cert.Spec.whole (nbOfK (F := Ideal) (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (proj6_value (V10 m ρ) c).trans ?_
  show Cert.Spec.proj (W10 m ρ c (Proc.devRef .tc main_v70)) (W10 m ρ c (Proc.devRef .tc main_arg8)) (W10 m ρ c (Proc.devRef .tc main_v71)) (W10 m ρ c (Proc.devRef .tc main_arg10)) (W10 m ρ c (Proc.devRef .tc main_v72)) = _
  rw [catted, W10_pb1, W10_pb2, W10_of m ρ c main_arg8 (by decide), W10_of m ρ c main_arg10 (by decide),
    W9_arg m ρ c main_arg8 (by decide) (by decide) (by decide) (by decide) (by decide) (by decide) (by decide) (by decide) (by decide),
    W9_arg m ρ c main_arg9 (by decide) (by decide) (by decide) (by decide) (by decide) (by decide) (by decide) (by decide) (by decide),
    W9_arg m ρ c main_arg10 (by decide) (by decide) (by decide) (by decide) (by decide) (by decide) (by decide) (by decide) (by decide),
    W9_arg m ρ c main_arg11 (by decide) (by decide) (by decide) (by decide) (by decide) (by decide) (by decide) (by decide) (by decide),
    Cert.Spec.rowOf_eq, Cert.Spec.rowOf_eq]
  rfl

end Chain

end Cert.KernelIdeal.Run

end
-- ==== Proof.RefValue.lean ====
/-
  The reference program's result as a function of its arguments: the specification's composition of layers, pooling and head.

  The reference is read one operation at a time. Each layer is two matrix products, each with a bias row and a maximum
  with zero, over the sum of the layer's input and its neighbour sums; the weights and biases are cut out of the stacks
  at the layer's row; the neighbour sums are one fixed chain of operations on the layer's input, carried as a name.
  Each layer's output is pooled by an accumulating scatter into zero along the graph-id column. The three pooled arrays
  are laid side by side and go through the head: two more products, the first with a bias row and a maximum with zero,
  the second with a bias row only. Every stage is first stated over a variable for the stage before it, so that a
  layer's output, which the next layer reads several times, is never opened twice.
-/
import proofs.«410827_j82411832476193_1_alg».proof.Proof.Gen.ReferenceIdeal.Read
import proofs.«410827_j82411832476193_1_alg».proof.Proof.RefStages
import proofs.«410827_j82411832476193_1_alg».proof.Proof.SpecLayout
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## A layer and a pooling over variables -/

/-- THE GENERAL LAYER: over a layer's input `h`, with the stacked weights and biases cut at row `o = l`, the two
    products, bias rows and maxima with zero are the specification's dense half over `h` and its neighbour sums. -/
theorem layer_gen (o : Nat) (l : Fin 3) (hl : l.val = o) (h : FVec Ideal S100000x128 .f32) (x1 x2 : IVec S1600000 32)
    (x4 x6 : FVec Ideal S3x128x128 .f32) (x5 x7 : FVec Ideal S3x128 .f32)
    (hs3 : S3x128x128.Slices ![o, 0, 0] S1x128x128) (hs2 : S3x128.Slices ![o, 0] S1x128) :
    maximumf (addf (Host.dotGeneral dot_S100000x128_S128x128_S100000x128_1_0_0_1_n_n none
      (maximumf (addf (Host.dotGeneral dot_S100000x128_S128x128_S100000x128_1_0_0_1_n_n none (addf h (nbOf x1 x2 h))
          (shapeCast S128x128 (extractStridedSlice S1x128x128 ![o, 0, 0] x4 hs3) shapeCasts_S1x128x128_S128x128))
        (broadcastInDim S100000x128 ![0, 1] bcast_S1x128_S100000x128_0_1 (broadcastInDim S1x128 ![1] bcast_S128_S1x128_1
          (shapeCast S128 (extractStridedSlice S1x128 ![o, 0] x5 hs2) shapeCasts_S1x128_S128))))
        (broadcastInDim S100000x128 ![] bcast_S_S100000x128 (constant (F := Ideal) S_ .f32 0x00000000#32)))
      (shapeCast S128x128 (extractStridedSlice S1x128x128 ![o, 0, 0] x6 hs3) shapeCasts_S1x128x128_S128x128))
      (broadcastInDim S100000x128 ![0, 1] bcast_S1x128_S100000x128_0_1 (broadcastInDim S1x128 ![1] bcast_S128_S1x128_1
        (shapeCast S128 (extractStridedSlice S1x128 ![o, 0] x7 hs2) shapeCasts_S1x128_S128))))
      (broadcastInDim S100000x128 ![] bcast_S_S100000x128 (constant (F := Ideal) S_ .f32 0x00000000#32))
    = Cert.Spec.gin h (nbOf x1 x2 h) (Cert.Spec.wOf x4 l) (Cert.Spec.bOf x5 l) (Cert.Spec.wOf x6 l) (Cert.Spec.bOf x7 l) := by
  rw [Cert.Spec.wOf_eq_of o l hl x4 hs3 shapeCasts_S1x128x128_S128x128,
    Cert.Spec.wOf_eq_of o l hl x6 hs3 shapeCasts_S1x128x128_S128x128]
  exact ref_layer_eq h (nbOf x1 x2 h) (Cert.Spec.wOf x4 l) (Cert.Spec.wOf x6 l) _ _ _ (Cert.Spec.bOf x5 l) (Cert.Spec.bOf x7 l)
    (fun p q => (Cert.Spec.bias2_eq 100000 _ bcast_S128_S1x128_1 bcast_S1x128_S100000x128_0_1 p q).trans
      (congrFun (Cert.Spec.bvec_eq_of o l hl x5 hs2 shapeCasts_S1x128_S128) (ix2 0 q)))
    (fun p q => (Cert.Spec.bias2_eq 100000 _ bcast_S128_S1x128_1 bcast_S1x128_S100000x128_0_1 p q).trans
      (congrFun (Cert.Spec.bvec_eq_of o l hl x7 hs2 shapeCasts_S1x128_S128) (ix2 0 q)))
    (Cert.Spec.zero_eq S100000x128 bcast_S_S100000x128)

variable (x0 : FVec Ideal S100000x128 .f32) (x1 x2 : IVec S1600000 32) (x3 : IVec S100000 32)
  (x4 : FVec Ideal S3x128x128 .f32) (x5 : FVec Ideal S3x128 .f32) (x6 : FVec Ideal S3x128x128 .f32) (x7 : FVec Ideal S3x128 .f32)
  (x8 : FVec Ideal S384x128 .f32) (x9 : FVec Ideal S128 .f32) (x10 : FVec Ideal S128x128 .f32) (x11 : FVec Ideal S128 .f32)

/-- A LAYER'S POOLED ROWS: the accumulating scatter of its rows into zero by the id column. -/
theorem pool_gen (h : FVec Ideal S100000x128 .f32) :
    Host.scatterAdd scatter_S1000x128_S100000x1_S100000x128_1_0_0_1
      (broadcastInDim S1000x128 ![] bcast_S_S1000x128 (constant (F := Ideal) S_ .f32 0x00000000#32))
      (broadcastInDim S100000x1 ![0] bcast_S100000_S100000x1_0 x3) h
    = Cert.Spec.pool 1000 h (Cert.Spec.colOf x3) := by
  rw [Cert.Spec.colOf_bcast_eq x3 bcast_S100000_S100000x1_0]
  exact ref_pool_eq h (Cert.Spec.colOf x3) _ (Cert.Spec.zero_eq S1000x128 bcast_S_S1000x128)

/-! ## The three layers -/

/-- The first layer's neighbour sums are the named chain on the node features. -/
theorem nb1_eq : val_main_v9 (F := Ideal) x0 x1 x2 = nbOf x1 x2 x0 := by
  unfold val_main_v9 val_main_v8 val_main_v7 val_main_cst val_main_v6 val_main_v5 val_main_v4 val_main_v3 val_main_v2
    val_main_c_0 val_main_v1 val_main_v0 val_main_c nbOf
  rfl

/-- The second layer's neighbour sums are the named chain on the first layer's output. -/
theorem nb2_eq : val_main_v41 (F := Ideal) x0 x1 x2 x4 x5 x6 x7 = nbOf x1 x2 (val_main_v28 (F := Ideal) x0 x1 x2 x4 x5 x6 x7) := by
  unfold val_main_v41 val_main_v40 val_main_v39 val_main_cst_4 val_main_v38 val_main_v37 val_main_v36 val_main_v35
    val_main_v34 val_main_c_3 val_main_v33 val_main_v32 val_main_c_2 nbOf
  rfl

/-- The third layer's neighbour sums are the named chain on the second layer's output. -/
theorem nb3_eq : val_main_v73 (F := Ideal) x0 x1 x2 x4 x5 x6 x7 = nbOf x1 x2 (val_main_v60 (F := Ideal) x0 x1 x2 x4 x5 x6 x7) := by
  unfold val_main_v73 val_main_v72 val_main_v71 val_main_cst_8 val_main_v70 val_main_v69 val_main_v68 val_main_v67
    val_main_v66 val_main_c_7 val_main_v65 val_main_v64 val_main_c_6 nbOf
  rfl

/-- The first layer's output. -/
theorem layer1_eq : val_main_v28 (F := Ideal) x0 x1 x2 x4 x5 x6 x7
    = Cert.Spec.gin x0 (nbOf x1 x2 x0) (Cert.Spec.wOf x4 0) (Cert.Spec.bOf x5 0) (Cert.Spec.wOf x6 0) (Cert.Spec.bOf x7 0) := by
  unfold val_main_v28 val_main_v27 val_main_v22 val_main_v19 val_main_v18 val_main_v13 val_main_v10
  rw [nb1_eq]
  unfold val_main_call0_v0 val_main_call0_cst val_main_call1_v0 val_main_call1_cst val_main_v12 val_main_v11
    val_main_v17 val_main_v16 val_main_v15 val_main_v14 val_main_v21 val_main_v20 val_main_v26 val_main_v25 val_main_v24
    val_main_v23
  exact layer_gen 0 0 rfl x0 x1 x2 x4 x6 x5 x7 _ _

/-- The second layer's output, over the first's. -/
theorem layer2_eq : val_main_v60 (F := Ideal) x0 x1 x2 x4 x5 x6 x7
    = Cert.Spec.gin (val_main_v28 (F := Ideal) x0 x1 x2 x4 x5 x6 x7) (nbOf x1 x2 (val_main_v28 (F := Ideal) x0 x1 x2 x4 x5 x6 x7))
        (Cert.Spec.wOf x4 1) (Cert.Spec.bOf x5 1) (Cert.Spec.wOf x6 1) (Cert.Spec.bOf x7 1) := by
  unfold val_main_v60 val_main_v59 val_main_v54 val_main_v51 val_main_v50 val_main_v45 val_main_v42
  rw [nb2_eq]
  generalize val_main_v28 (F := Ideal) x0 x1 x2 x4 x5 x6 x7 = h1
  unfold val_main_call2_v0 val_main_call2_cst val_main_call3_v0 val_main_call3_cst val_main_v44 val_main_v43
    val_main_v49 val_main_v48 val_main_v47 val_main_v46 val_main_v53 val_main_v52 val_main_v58 val_main_v57 val_main_v56
    val_main_v55
  exact layer_gen 1 1 rfl h1 x1 x2 x4 x6 x5 x7 _ _

/-- The third layer's output, over the second's. -/
theorem layer3_eq : val_main_v92 (F := Ideal) x0 x1 x2 x4 x5 x6 x7
    = Cert.Spec.gin (val_main_v60 (F := Ideal) x0 x1 x2 x4 x5 x6 x7) (nbOf x1 x2 (val_main_v60 (F := Ideal) x0 x1 x2 x4 x5 x6 x7))
        (Cert.Spec.wOf x4 2) (Cert.Spec.bOf x5 2) (Cert.Spec.wOf x6 2) (Cert.Spec.bOf x7 2) := by
  unfold val_main_v92 val_main_v91 val_main_v86 val_main_v83 val_main_v82 val_main_v77 val_main_v74
  rw [nb3_eq]
  generalize val_main_v60 (F := Ideal) x0 x1 x2 x4 x5 x6 x7 = h2
  unfold val_main_call4_v0 val_main_call4_cst val_main_call5_v0 val_main_call5_cst val_main_v76 val_main_v75
    val_main_v81 val_main_v80 val_main_v79 val_main_v78 val_main_v85 val_main_v84 val_main_v90 val_main_v89 val_main_v88
    val_main_v87
  exact layer_gen 2 2 rfl h2 x1 x2 x4 x6 x5 x7 _ _

/-! ## The head over the pooled rows -/

/-- THE WHOLE REFERENCE over its twelve argument arrays. -/
theorem val_whole : val_main_v105 (F := Ideal) x0 x1 x2 x3 x4 x5 x6 x7 x8 x9 x10 x11
    = Cert.Spec.whole (nbOf x1 x2) x0 x3 x4 x5 x6 x7 x8 x9 x10 x11 := by
  unfold val_main_v105 val_main_v102 val_main_v101 val_main_v100 val_main_v97 val_main_v96 val_main_v95 val_main_v63
    val_main_v31
  have e1 := layer1_eq x0 x1 x2 x4 x5 x6 x7
  have e2 := layer2_eq x0 x1 x2 x4 x5 x6 x7
  have e3 := layer3_eq x0 x1 x2 x4 x5 x6 x7
  generalize val_main_v92 (F := Ideal) x0 x1 x2 x4 x5 x6 x7 = h3 at e3 ⊢
  generalize val_main_v60 (F := Ideal) x0 x1 x2 x4 x5 x6 x7 = h2 at e2 e3 ⊢
  generalize val_main_v28 (F := Ideal) x0 x1 x2 x4 x5 x6 x7 = h1 at e1 e2 ⊢
  unfold val_main_v104 val_main_v103 val_main_v99 val_main_v98 val_main_call6_v0 val_main_call6_cst
    val_main_v29 val_main_cst_1 val_main_v30 val_main_v61 val_main_cst_5 val_main_v62 val_main_v93 val_main_cst_9 val_main_v94
  rw [pool_gen x3 h1, pool_gen x3 h2, pool_gen x3 h3,
    Cert.Spec.cat3_eq _ _ _ concatenates_S1000x128_S1000x128_S1000x128_S1000x384_d1]
  subst e1
  subst e2
  subst e3
  exact ref_head_eq _ x8 x10 _ _ _ (Cert.Spec.rowOf x9) (Cert.Spec.rowOf x11)
    (fun p q => Cert.Spec.bias2_eq 1000 x9 bcast_S128_S1x128_1 bcast_S1x128_S1000x128_0_1 p q)
    (fun p q => Cert.Spec.bias2_eq 1000 x11 bcast_S128_S1x128_1 bcast_S1x128_S1000x128_0_1 p q)
    (Cert.Spec.zero_eq S1000x128 bcast_S_S1000x128)

/-- The reference's result is the specification's composition of the three layers, their pooling and the head. -/
theorem ref_value (m : (ℓ : Loc nD τ sig) → Buf (Elt Ideal) ℓ) (c : Dev nD) :
    (Cert.ReferenceIdeal.Value.res_out0 (F := Ideal) m c : S1000x128.Idx → EReal)
      = Cert.Spec.whole (nbOf (m ((c.tc : Thread nD τ).loc main_arg1)) (m ((c.tc : Thread nD τ).loc main_arg2)))
          (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) :=
  (val_main_v105_eq (F := Ideal) m c).trans (val_whole _ _ _ _ _ _ _ _ _ _ _ _)

end Cert.ReferenceIdeal.RefValue

end
-- ==== Proof.lean ====
/-
  A three-layer graph network with per-graph sum pooling and a two-layer head: the Pallas program against its jnp
  reference, over the extended reals.

  Both programs compute, per layer, the neighbour sums nb of the node features h by the same host operations (the
  source indices normalised, the rows gathered, scattered with addition at the destination indices), then
  relu(relu((h + nb) · W1 + b1) · W2 + b2); they pool each layer's output per graph, put the three pooled arrays
  side by side and apply relu(p · W1 + b1) · W2 + b2.

  Where they differ, and why that is no difference on the extended reals. The kernel rounds to bf16 on the way into its
  matrix products: a change of float format is the identity here. It tiles the nodes 4000 rows at a time: each output row
  is the same sum over the 128 hidden features whichever tile holds it. It pools by an equality mask times the rows,
  summed by the matrix unit over 50 blocks of 2000 rows into one resident block of 1024 padded graph rows, of which the
  host keeps the first 1000, where the reference scatters rows with addition into 1000 rows: the mask's entries are 0
  and 1, and 0 · x = 0, 1 · x = x for every extended real, so graph g's row is in both the sum of the rows whose id,
  read as a signed integer, is g; an id outside the rows' range adds to no row in either (the scatter drops it; no
  mask column equals it, or the host's slice drops that row); and a sum of extended reals does not depend on its
  order or grouping. Its biases reach the product as rows [1,128] broadcast in the body, the reference's as
  [128] → [1,128] → [n,128] on the host: the same entry at every index. No step needs the inputs finite.

  The frames: the program is four stretches of host operations and seven pipelined regions; each region's body is run
  symbolically at every grid point (the pooling regions in two cases, first point and later points, the output block
  carried from point to point), and the run of the whole folds the buffers' contents through the eleven segments; every
  argument array is staged read-only or not at all, so it ends as launched. The same text serves the word-level program
  and the idealized one. The reference is host operations only.

  preserves: the idealization rewrote nothing, so the statement is True.
-/
import proofs.«410827_j82411832476193_1_alg».proof.Defs
import proofs.«410827_j82411832476193_1_alg».proof.Proof.Assemble
import proofs.«410827_j82411832476193_1_alg».proof.Proof.KI.KernelValue
import proofs.«410827_j82411832476193_1_alg».proof.Proof.RefValue
import Idealize.ShloMosaic.Adequacy
import Idealize.ShloMosaic.Init

noncomputable section

namespace Cert.Proof

open Idealize.ShloMosaic Idealize.SL.Sem

/-- The five conjuncts: the three frames, the trivial preservation statement, and equal results, both sides' result
    being the specification's composition of the argument arrays. -/
theorem claim : Cert.Claim :=
  Cert.Proof.Assemble.claim_of (fun m ρ c => Cert.KernelIdeal.Run.kernel_value m ρ c)
    (fun m' c => Cert.ReferenceIdeal.RefValue.ref_value m' c)

end Cert.Proof

end
